-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v178)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v178) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S50000 : Shape := ⟨1, ![50000]⟩
abbrev S3x64x64 : Shape := ⟨3, ![3, 64, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S10 .f32) (main_v48 : IVec S_ 1) (main_v49 : FVec F S32x10 .f32) (main_v50 : FVec F S32x10 .f32) : IVec S_ 1 :=
  let main_v51 : IVec S32x10 1 := cmpf .olt main_v49 main_v50
  let main_c_19 : IVec S_ 1 := constantI S_ 1 1#1
  let main_v52 : IVec S_ 1 := (fun x v => Host.reduce IntOp.andi x v reducesTo_S32x10_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg9 : FVec F S64 .f32) (main_arg10 : FVec F S64x32 .f32) (main_arg11 : FVec F S32 .f32) (main_arg12 : FVec F S32x10 .f32) (main_arg13 : FVec F S10 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg10
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x10 .f32 := Host.absf main_arg12
  let main_cst_18 : FVec F S_ .f32 := constant S_ .f32 0x7F800000#32
  let main_v50 : FVec F S32x10 .f32 := broadcastInDim S32x10 ![] bcast_S_S32x10 main_cst_18
  fn_part3 (F := F) main_arg13 main_v48 main_v49 main_v50

def fn_part1 {F : FTy → Type} [FloatOps F] (main_arg6 : FVec F S3x64x64 .f32) (main_arg7 : FVec F S64 .f32) (main_arg8 : FVec F S3x64x64 .f32) (main_arg9 : FVec F S64 .f32) (main_arg10 : FVec F S64x32 .f32) (main_arg11 : FVec F S32 .f32) (main_arg12 : FVec F S32x10 .f32) (main_arg13 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x64x64 .f32 := Host.absf main_arg6
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x64x64 .f32 := Host.absf main_arg8
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x64 .f32) (main_arg1 : IVec S2x800000 32) (main_arg2 : FVec F S800000 .f32) (main_arg3 : IVec S50000 32) (main_arg4 : FVec F S3x64x64 .f32) (main_arg5 : FVec F S64 .f32) (main_arg6 : FVec F S3x64x64 .f32) (main_arg7 : FVec F S64 .f32) (main_arg8 : FVec F S3x64x64 .f32) (main_arg9 : FVec F S64 .f32) (main_arg10 : FVec F S64x32 .f32) (main_arg11 : FVec F S32 .f32) (main_arg12 : FVec F S32x10 .f32) (main_arg13 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S3x64x64 .f32 := Host.absf main_arg4
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S50000 : Shape := ⟨1, ![50000]⟩
abbrev S3x64x64 : Shape := ⟨3, ![3, 64, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S5000x64 : Shape := ⟨2, ![5000, 64]⟩
abbrev S1x64x64 : Shape := ⟨3, ![1, 64, 64]⟩
abbrev S64x64 : Shape := ⟨2, ![64, 64]⟩
abbrev S50000x1 : Shape := ⟨2, ![50000, 1]⟩
abbrev S5000x1 : Shape := ⟨2, ![5000, 1]⟩
abbrev S64x1 : Shape := ⟨2, ![64, 1]⟩
abbrev S1x32 : Shape := ⟨2, ![1, 32]⟩
abbrev S64x10 : Shape := ⟨2, ![64, 10]⟩
abbrev S1x10 : Shape := ⟨2, ![1, 10]⟩

abbrev nBuf : Space → Nat
  | .hbm => 246
  | .vmem => 35
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S50000, .i32⟩
  | 4 => ⟨S3x64x64, .f32⟩
  | 5 => ⟨S64, .f32⟩
  | 6 => ⟨S3x64x64, .f32⟩
  | 7 => ⟨S64, .f32⟩
  | 8 => ⟨S3x64x64, .f32⟩
  | 9 => ⟨S64, .f32⟩
  | 10 => ⟨S64x32, .f32⟩
  | 11 => ⟨S32, .f32⟩
  | 12 => ⟨S32x10, .f32⟩
  | 13 => ⟨S10, .f32⟩
  | 14 => ⟨S1x800000, .i32⟩
  | 15 => ⟨S800000, .i32⟩
  | 16 => ⟨S1x800000, .i32⟩
  | 17 => ⟨S800000, .i32⟩
  | 18 => ⟨S_, .f32⟩
  | 19 => ⟨S50000, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S50000, .f32⟩
  | 29 => ⟨S_, .f32⟩
  | 30 => ⟨S50000, .f32⟩
  | 31 => ⟨S50000, .i1⟩
  | 32 => ⟨S_, .f32⟩
  | 33 => ⟨S50000, .f32⟩
  | 34 => ⟨S50000, .i1⟩
  | 35 => ⟨S_, .f32⟩
  | 36 => ⟨S_, .f32⟩
  | 37 => ⟨S50000, .f32⟩
  | 38 => ⟨S50000, .f32⟩
  | 39 => ⟨S50000, .f32⟩
  | 40 => ⟨S_, .f32⟩
  | 41 => ⟨S_, .f32⟩
  | 42 => ⟨S50000, .f32⟩
  | 43 => ⟨S50000, .f32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000, .f32⟩
  | 64 => ⟨S800000, .f32⟩
  | 65 => ⟨S_, .f32⟩
  | 66 => ⟨S50000x64, .f32⟩
  | 67 => ⟨S800000x1, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x64, .f32⟩
  | 77 => ⟨S800000x64, .f32⟩
  | 78 => ⟨S800000x64, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S50000x64, .f32⟩
  | 88 => ⟨S_, .f32⟩
  | 89 => ⟨S50000x64, .f32⟩
  | 90 => ⟨S800000x1, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x64, .f32⟩
  | 100 => ⟨S800000x64, .f32⟩
  | 101 => ⟨S800000x64, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S50000x64, .f32⟩
  | 111 => ⟨S_, .f32⟩
  | 112 => ⟨S50000x64, .f32⟩
  | 113 => ⟨S50000x64, .f32⟩
  | 114 => ⟨S50000x64, .f32⟩
  | 115 => ⟨S1x64, .f32⟩
  | 116 => ⟨S50000x64, .f32⟩
  | 117 => ⟨S_, .f32⟩
  | 118 => ⟨S50000x64, .f32⟩
  | 119 => ⟨S800000x1, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x64, .f32⟩

abbrev hbmTy0_1 (i : Nat) : BufTy := match i % 128 with
  | 0 => ⟨S800000x64, .f32⟩
  | 1 => ⟨S800000x64, .f32⟩
  | 2 => ⟨S800000x64, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S50000x64, .f32⟩
  | 12 => ⟨S_, .f32⟩
  | 13 => ⟨S50000x64, .f32⟩
  | 14 => ⟨S800000x1, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x64, .f32⟩
  | 24 => ⟨S800000x64, .f32⟩
  | 25 => ⟨S800000x64, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S50000x64, .f32⟩
  | 35 => ⟨S_, .f32⟩
  | 36 => ⟨S50000x64, .f32⟩
  | 37 => ⟨S50000x64, .f32⟩
  | 38 => ⟨S50000x64, .f32⟩
  | 39 => ⟨S1x64, .f32⟩
  | 40 => ⟨S50000x64, .f32⟩
  | 41 => ⟨S_, .f32⟩
  | 42 => ⟨S50000x64, .f32⟩
  | 43 => ⟨S800000x1, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x64, .f32⟩
  | 53 => ⟨S800000x64, .f32⟩
  | 54 => ⟨S800000x64, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S50000x64, .f32⟩
  | 64 => ⟨S_, .f32⟩
  | 65 => ⟨S50000x64, .f32⟩
  | 66 => ⟨S800000x1, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x64, .f32⟩
  | 76 => ⟨S800000x64, .f32⟩
  | 77 => ⟨S800000x64, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S50000x64, .f32⟩
  | 87 => ⟨S_, .f32⟩
  | 88 => ⟨S50000x64, .f32⟩
  | 89 => ⟨S50000x64, .f32⟩
  | 90 => ⟨S50000x64, .f32⟩
  | 91 => ⟨S1x64, .f32⟩
  | 92 => ⟨S50000x64, .f32⟩
  | 93 => ⟨S50000x1, .i32⟩
  | 94 => ⟨S64x64, .f32⟩
  | 95 => ⟨S_, .f32⟩
  | 96 => ⟨S50000, .f32⟩
  | 97 => ⟨S_, .f32⟩
  | 98 => ⟨S64, .f32⟩
  | 99 => ⟨S50000x1, .i32⟩
  | 100 => ⟨S64, .f32⟩
  | 101 => ⟨S_, .f32⟩
  | 102 => ⟨S64, .f32⟩
  | 103 => ⟨S64, .f32⟩
  | 104 => ⟨S64x1, .f32⟩
  | 105 => ⟨S64x64, .f32⟩
  | 106 => ⟨S64x64, .f32⟩
  | 107 => ⟨S64x32, .f32⟩
  | 108 => ⟨S1x32, .f32⟩
  | 109 => ⟨S64x32, .f32⟩
  | 110 => ⟨S64x32, .f32⟩
  | 111 => ⟨S_, .f32⟩
  | 112 => ⟨S64x32, .f32⟩
  | 113 => ⟨S64x32, .f32⟩
  | 114 => ⟨S64x10, .f32⟩
  | 115 => ⟨S1x10, .f32⟩
  | 116 => ⟨S64x10, .f32⟩
  | 117 => ⟨S64x10, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S3x64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S3x64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S3x64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x1, .i32⟩
  | .local _ .vmem, ⟨31, _⟩ => ⟨S5000x1, .i32⟩
  | .local _ .vmem, ⟨32, _⟩ => ⟨S5000x64, .f32⟩
  | .local _ .vmem, ⟨33, _⟩ => ⟨S5000x64, .f32⟩
  | .local _ .vmem, ⟨34, _⟩ => ⟨S64x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v16 : Ref sig .tc := ⟨.hbm, 38, rfl⟩
abbrev main_v17 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_v18 : Ref sig .tc := ⟨.hbm, 43, rfl⟩
abbrev main_v19 : Ref sig .tc := ⟨.hbm, 44, rfl⟩
abbrev main_c_5 : Ref sig .tc := ⟨.hbm, 45, rfl⟩
abbrev main_v20 : Ref sig .tc := ⟨.hbm, 46, rfl⟩
abbrev main_v21 : Ref sig .tc := ⟨.hbm, 47, rfl⟩
abbrev main_c_6 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_7 : Ref sig .tc := ⟨.hbm, 55, rfl⟩
abbrev main_v28 : Ref sig .tc := ⟨.hbm, 56, rfl⟩
abbrev main_v29 : Ref sig .tc := ⟨.hbm, 57, rfl⟩
abbrev main_c_8 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_9 : Ref sig .tc := ⟨.hbm, 65, rfl⟩
abbrev main_v36 : Ref sig .tc := ⟨.hbm, 66, rfl⟩
abbrev main_v37 : Ref sig .tc := ⟨.hbm, 67, rfl⟩
abbrev main_c_10 : Ref sig .tc := ⟨.hbm, 68, rfl⟩
abbrev main_v38 : Ref sig .tc := ⟨.hbm, 69, rfl⟩
abbrev main_v39 : Ref sig .tc := ⟨.hbm, 70, rfl⟩
abbrev main_c_11 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_12 : Ref sig .tc := ⟨.hbm, 79, rfl⟩
abbrev main_v47 : Ref sig .tc := ⟨.hbm, 80, rfl⟩
abbrev main_v48 : Ref sig .tc := ⟨.hbm, 81, rfl⟩
abbrev main_c_13 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_14 : Ref sig .tc := ⟨.hbm, 88, rfl⟩
abbrev main_v54 : Ref sig .tc := ⟨.hbm, 89, rfl⟩
abbrev main_v55 : Ref sig .tc := ⟨.hbm, 90, rfl⟩
abbrev main_c_15 : Ref sig .tc := ⟨.hbm, 91, rfl⟩
abbrev main_v56 : Ref sig .tc := ⟨.hbm, 92, rfl⟩
abbrev main_v57 : Ref sig .tc := ⟨.hbm, 93, rfl⟩
abbrev main_c_16 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_c_17 : Ref sig .tc := ⟨.hbm, 102, rfl⟩
abbrev main_v65 : Ref sig .tc := ⟨.hbm, 103, rfl⟩
abbrev main_v66 : Ref sig .tc := ⟨.hbm, 104, rfl⟩
abbrev main_c_18 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_19 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_20 : Ref sig .tc := ⟨.hbm, 117, rfl⟩
abbrev main_v77 : Ref sig .tc := ⟨.hbm, 118, rfl⟩
abbrev main_v78 : Ref sig .tc := ⟨.hbm, 119, rfl⟩
abbrev main_c_21 : Ref sig .tc := ⟨.hbm, 120, rfl⟩
abbrev main_v79 : Ref sig .tc := ⟨.hbm, 121, rfl⟩
abbrev main_v80 : Ref sig .tc := ⟨.hbm, 122, rfl⟩
abbrev main_c_22 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_c_23 : Ref sig .tc := ⟨.hbm, 131, rfl⟩
abbrev main_v88 : Ref sig .tc := ⟨.hbm, 132, rfl⟩
abbrev main_v89 : Ref sig .tc := ⟨.hbm, 133, rfl⟩
abbrev main_c_24 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_25 : Ref sig .tc := ⟨.hbm, 140, rfl⟩
abbrev main_v95 : Ref sig .tc := ⟨.hbm, 141, rfl⟩
abbrev main_v96 : Ref sig .tc := ⟨.hbm, 142, rfl⟩
abbrev main_c_26 : Ref sig .tc := ⟨.hbm, 143, rfl⟩
abbrev main_v97 : Ref sig .tc := ⟨.hbm, 144, rfl⟩
abbrev main_v98 : Ref sig .tc := ⟨.hbm, 145, rfl⟩
abbrev main_c_27 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_c_28 : Ref sig .tc := ⟨.hbm, 154, rfl⟩
abbrev main_v106 : Ref sig .tc := ⟨.hbm, 155, rfl⟩
abbrev main_v107 : Ref sig .tc := ⟨.hbm, 156, rfl⟩
abbrev main_c_29 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_30 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_cst_31 : Ref sig .tc := ⟨.hbm, 169, rfl⟩
abbrev main_v118 : Ref sig .tc := ⟨.hbm, 170, rfl⟩
abbrev main_v119 : Ref sig .tc := ⟨.hbm, 171, rfl⟩
abbrev main_c_32 : Ref sig .tc := ⟨.hbm, 172, rfl⟩
abbrev main_v120 : Ref sig .tc := ⟨.hbm, 173, rfl⟩
abbrev main_v121 : Ref sig .tc := ⟨.hbm, 174, rfl⟩
abbrev main_c_33 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_c_34 : Ref sig .tc := ⟨.hbm, 183, rfl⟩
abbrev main_v129 : Ref sig .tc := ⟨.hbm, 184, rfl⟩
abbrev main_v130 : Ref sig .tc := ⟨.hbm, 185, rfl⟩
abbrev main_c_35 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_cst_36 : Ref sig .tc := ⟨.hbm, 192, rfl⟩
abbrev main_v136 : Ref sig .tc := ⟨.hbm, 193, rfl⟩
abbrev main_v137 : Ref sig .tc := ⟨.hbm, 194, rfl⟩
abbrev main_c_37 : Ref sig .tc := ⟨.hbm, 195, rfl⟩
abbrev main_v138 : Ref sig .tc := ⟨.hbm, 196, rfl⟩
abbrev main_v139 : Ref sig .tc := ⟨.hbm, 197, rfl⟩
abbrev main_c_38 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_c_39 : Ref sig .tc := ⟨.hbm, 206, rfl⟩
abbrev main_v147 : Ref sig .tc := ⟨.hbm, 207, rfl⟩
abbrev main_v148 : Ref sig .tc := ⟨.hbm, 208, rfl⟩
abbrev main_c_40 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_cst_41 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_cst_42 : Ref sig .tc := ⟨.hbm, 223, rfl⟩
abbrev main_v161 : Ref sig .tc := ⟨.hbm, 224, rfl⟩
abbrev main_cst_43 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_cst_44 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_call2_cst : Ref sig .tc := ⟨.hbm, 239, rfl⟩
abbrev main_call2_v0 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3x64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S800000x1_S800000x64_0_1 : S800000x1.BroadcastsInDim S800000x64 (![0, 1] : Fin 2 → Fin S800000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  shapeCasts_S5000x64_S5000x64 : S5000x64.ShapeCasts S5000x64
  inb_S3x64x64_S1x64x64_1_0_0 : ∀ a, (![1, 0, 0] : Fin 3 → Nat) a + S1x64x64.size a ≤ S3x64x64.size a
  inb_S3x64x64_S1x64x64_2_0_0 : ∀ a, (![2, 0, 0] : Fin 3 → Nat) a + S1x64x64.size a ≤ S3x64x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S50000_S50000x1 : S50000.ShapeCasts S50000x1
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  shapeCasts_S64x64_S64x64 : S64x64.ShapeCasts S64x64
  bcast_S_S64 : S_.BroadcastsInDim S64 (![] : Fin 0 → Fin S64.rank)
  bcast_S50000_S50000x1_0 : S50000.BroadcastsInDim S50000x1 (![0] : Fin 1 → Fin S50000x1.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S5000x64_S64x64_0_0_1_1_n_n_wf : DotDims.WF S5000x64 S5000x64 S64x64 [0] [0] [1] [1] [] []
  scatter_S64_S50000x1_S50000_n_0_0_1_wf : ScatterDims.WF S64 S50000x1 S50000 [] [0] [0] 1
  dot_S64x64_S64x32_S64x32_1_0_0_1_n_n_wf : DotDims.WF S64x64 S64x32 S64x32 [1] [0] [0] [1] [] []
  dot_S64x32_S32x10_S64x10_1_0_0_1_n_n_wf : DotDims.WF S64x32 S32x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64x64.size a ≤ S3x64x64.size a
  hwx0_3 : ∀ i : grid0.Coords, EltTy.bits .f32 = 32 ∨ (Rect.block (s := S3x64x64) S3x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x64x64.size a ≤ S3x64x64.size a
  hwx1_3 : ∀ i : grid1.Coords, EltTy.bits .f32 = 32 ∨ (Rect.block (s := S3x64x64) S3x64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x64x64.size a ≤ S3x64x64.size a
  hwx2_3 : ∀ i : grid2.Coords, EltTy.bits .f32 = 32 ∨ (Rect.block (s := S3x64x64) S3x64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x1.size a ≤ S50000x1.size a
  hwx3_0 : ∀ i : grid3.Coords, EltTy.bits .i32 = 32 ∨ (Rect.block (s := S50000x1) S5000x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x10_S64x10_1_0_0_1_n_n : DotDims S64x32 S32x10 S64x10 where
  lhsContracting := [1]
  rhsContracting := [0]
  lhsNonContracting := [0]
  rhsNonContracting := [1]
  lhsBatch := []
  rhsBatch := []
  wf := dot_S64x32_S32x10_S64x10_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v74) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S3x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v75) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v76) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v76) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v94) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v115) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S3x64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v116) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v117) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v117) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v135) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v156) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S3x64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v157) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v158) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v159) S5000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v158) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v160) S64x64.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S50000 : Shape := ⟨1, ![50000]⟩
abbrev S3x64x64 : Shape := ⟨3, ![3, 64, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x800000 : Shape := ⟨2, ![1, 800000]⟩
abbrev S_ : Shape := ⟨0, ![]⟩
abbrev S800000x1 : Shape := ⟨2, ![800000, 1]⟩
abbrev S1x64x64 : Shape := ⟨3, ![1, 64, 64]⟩
abbrev S64x64 : Shape := ⟨2, ![64, 64]⟩
abbrev S800000x64 : Shape := ⟨2, ![800000, 64]⟩
abbrev S1x64 : Shape := ⟨2, ![1, 64]⟩
abbrev S50000x1 : Shape := ⟨2, ![50000, 1]⟩
abbrev S64x1 : Shape := ⟨2, ![64, 1]⟩
abbrev S1x32 : Shape := ⟨2, ![1, 32]⟩
abbrev S64x10 : Shape := ⟨2, ![64, 10]⟩
abbrev S1x10 : Shape := ⟨2, ![1, 10]⟩

abbrev nBuf : Space → Nat
  | .hbm => 290
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S50000, .i32⟩
  | 4 => ⟨S3x64x64, .f32⟩
  | 5 => ⟨S64, .f32⟩
  | 6 => ⟨S3x64x64, .f32⟩
  | 7 => ⟨S64, .f32⟩
  | 8 => ⟨S3x64x64, .f32⟩
  | 9 => ⟨S64, .f32⟩
  | 10 => ⟨S64x32, .f32⟩
  | 11 => ⟨S32, .f32⟩
  | 12 => ⟨S32x10, .f32⟩
  | 13 => ⟨S10, .f32⟩
  | 14 => ⟨S1x800000, .i32⟩
  | 15 => ⟨S800000, .i32⟩
  | 16 => ⟨S1x800000, .i32⟩
  | 17 => ⟨S800000, .i32⟩
  | 18 => ⟨S_, .f32⟩
  | 19 => ⟨S50000, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S50000, .f32⟩
  | 29 => ⟨S_, .f32⟩
  | 30 => ⟨S50000, .f32⟩
  | 31 => ⟨S50000, .i1⟩
  | 32 => ⟨S_, .f32⟩
  | 33 => ⟨S50000, .f32⟩
  | 34 => ⟨S50000, .i1⟩
  | 35 => ⟨S_, .f32⟩
  | 36 => ⟨S_, .f32⟩
  | 37 => ⟨S50000, .f32⟩
  | 38 => ⟨S50000, .f32⟩
  | 39 => ⟨S50000, .f32⟩
  | 40 => ⟨S_, .f32⟩
  | 41 => ⟨S_, .f32⟩
  | 42 => ⟨S50000, .f32⟩
  | 43 => ⟨S50000, .f32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000, .f32⟩
  | 64 => ⟨S800000, .f32⟩
  | 65 => ⟨S1x64x64, .f32⟩
  | 66 => ⟨S64x64, .f32⟩
  | 67 => ⟨S50000x64, .f32⟩
  | 68 => ⟨S_, .f32⟩
  | 69 => ⟨S50000x64, .f32⟩
  | 70 => ⟨S800000x1, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x64, .f32⟩
  | 80 => ⟨S800000x64, .f32⟩
  | 81 => ⟨S800000x64, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S50000x64, .f32⟩
  | 91 => ⟨S1x64x64, .f32⟩
  | 92 => ⟨S64x64, .f32⟩
  | 93 => ⟨S50000x64, .f32⟩
  | 94 => ⟨S50000x64, .f32⟩
  | 95 => ⟨S_, .f32⟩
  | 96 => ⟨S50000x64, .f32⟩
  | 97 => ⟨S800000x1, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x64, .f32⟩
  | 107 => ⟨S800000x64, .f32⟩
  | 108 => ⟨S800000x64, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S50000x64, .f32⟩
  | 118 => ⟨S_, .f32⟩
  | 119 => ⟨S50000x64, .f32⟩
  | 120 => ⟨S50000x64, .f32⟩
  | 121 => ⟨S50000x64, .f32⟩
  | 122 => ⟨S1x64x64, .f32⟩
  | 123 => ⟨S64x64, .f32⟩
  | 124 => ⟨S50000x64, .f32⟩
  | 125 => ⟨S50000x64, .f32⟩
  | 126 => ⟨S1x64, .f32⟩
  | 127 => ⟨S50000x64, .f32⟩
  | _ => ⟨S50000x64, .f32⟩

abbrev hbmTy0_1 (i : Nat) : BufTy := match i % 128 with
  | 0 => ⟨S50000x64, .f32⟩
  | 1 => ⟨S_, .f32⟩
  | 2 => ⟨S50000x64, .f32⟩
  | 3 => ⟨S50000x64, .f32⟩
  | 4 => ⟨S1x64x64, .f32⟩
  | 5 => ⟨S64x64, .f32⟩
  | 6 => ⟨S50000x64, .f32⟩
  | 7 => ⟨S_, .f32⟩
  | 8 => ⟨S50000x64, .f32⟩
  | 9 => ⟨S800000x1, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x64, .f32⟩
  | 19 => ⟨S800000x64, .f32⟩
  | 20 => ⟨S800000x64, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S50000x64, .f32⟩
  | 30 => ⟨S1x64x64, .f32⟩
  | 31 => ⟨S64x64, .f32⟩
  | 32 => ⟨S50000x64, .f32⟩
  | 33 => ⟨S50000x64, .f32⟩
  | 34 => ⟨S_, .f32⟩
  | 35 => ⟨S50000x64, .f32⟩
  | 36 => ⟨S800000x1, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x64, .f32⟩
  | 46 => ⟨S800000x64, .f32⟩
  | 47 => ⟨S800000x64, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S50000x64, .f32⟩
  | 57 => ⟨S_, .f32⟩
  | 58 => ⟨S50000x64, .f32⟩
  | 59 => ⟨S50000x64, .f32⟩
  | 60 => ⟨S50000x64, .f32⟩
  | 61 => ⟨S1x64x64, .f32⟩
  | 62 => ⟨S64x64, .f32⟩
  | 63 => ⟨S50000x64, .f32⟩
  | 64 => ⟨S50000x64, .f32⟩
  | 65 => ⟨S1x64, .f32⟩
  | 66 => ⟨S50000x64, .f32⟩
  | 67 => ⟨S50000x64, .f32⟩
  | 68 => ⟨S_, .f32⟩
  | 69 => ⟨S50000x64, .f32⟩
  | 70 => ⟨S50000x64, .f32⟩
  | 71 => ⟨S1x64x64, .f32⟩
  | 72 => ⟨S64x64, .f32⟩
  | 73 => ⟨S50000x64, .f32⟩
  | 74 => ⟨S_, .f32⟩
  | 75 => ⟨S50000x64, .f32⟩
  | 76 => ⟨S800000x1, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x64, .f32⟩
  | 86 => ⟨S800000x64, .f32⟩
  | 87 => ⟨S800000x64, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S50000x64, .f32⟩
  | 97 => ⟨S1x64x64, .f32⟩
  | 98 => ⟨S64x64, .f32⟩
  | 99 => ⟨S50000x64, .f32⟩
  | 100 => ⟨S50000x64, .f32⟩
  | 101 => ⟨S_, .f32⟩
  | 102 => ⟨S50000x64, .f32⟩
  | 103 => ⟨S800000x1, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x64, .f32⟩
  | 113 => ⟨S800000x64, .f32⟩
  | 114 => ⟨S800000x64, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S50000x64, .f32⟩
  | 124 => ⟨S_, .f32⟩
  | 125 => ⟨S50000x64, .f32⟩
  | 126 => ⟨S50000x64, .f32⟩
  | 127 => ⟨S50000x64, .f32⟩
  | _ => ⟨S50000x64, .f32⟩

abbrev hbmTy0_2 (i : Nat) : BufTy := match i % 128 with
  | 0 => ⟨S1x64x64, .f32⟩
  | 1 => ⟨S64x64, .f32⟩
  | 2 => ⟨S50000x64, .f32⟩
  | 3 => ⟨S50000x64, .f32⟩
  | 4 => ⟨S1x64, .f32⟩
  | 5 => ⟨S50000x64, .f32⟩
  | 6 => ⟨S50000x64, .f32⟩
  | 7 => ⟨S_, .f32⟩
  | 8 => ⟨S64x64, .f32⟩
  | 9 => ⟨S50000x1, .i32⟩
  | 10 => ⟨S64x64, .f32⟩
  | 11 => ⟨S_, .f32⟩
  | 12 => ⟨S50000, .f32⟩
  | 13 => ⟨S_, .f32⟩
  | 14 => ⟨S64, .f32⟩
  | 15 => ⟨S50000x1, .i32⟩
  | 16 => ⟨S64, .f32⟩
  | 17 => ⟨S_, .f32⟩
  | 18 => ⟨S64, .f32⟩
  | 19 => ⟨S64, .f32⟩
  | 20 => ⟨S64x1, .f32⟩
  | 21 => ⟨S64x64, .f32⟩
  | 22 => ⟨S64x64, .f32⟩
  | 23 => ⟨S64x32, .f32⟩
  | 24 => ⟨S1x32, .f32⟩
  | 25 => ⟨S64x32, .f32⟩
  | 26 => ⟨S64x32, .f32⟩
  | 27 => ⟨S_, .f32⟩
  | 28 => ⟨S64x32, .f32⟩
  | 29 => ⟨S64x32, .f32⟩
  | 30 => ⟨S64x10, .f32⟩
  | 31 => ⟨S1x10, .f32⟩
  | 32 => ⟨S64x10, .f32⟩
  | 33 => ⟨S64x10, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v16 : Ref sig .tc := ⟨.hbm, 38, rfl⟩
abbrev main_v17 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_v18 : Ref sig .tc := ⟨.hbm, 43, rfl⟩
abbrev main_v19 : Ref sig .tc := ⟨.hbm, 44, rfl⟩
abbrev main_c_5 : Ref sig .tc := ⟨.hbm, 45, rfl⟩
abbrev main_v20 : Ref sig .tc := ⟨.hbm, 46, rfl⟩
abbrev main_v21 : Ref sig .tc := ⟨.hbm, 47, rfl⟩
abbrev main_c_6 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_7 : Ref sig .tc := ⟨.hbm, 55, rfl⟩
abbrev main_v28 : Ref sig .tc := ⟨.hbm, 56, rfl⟩
abbrev main_v29 : Ref sig .tc := ⟨.hbm, 57, rfl⟩
abbrev main_c_8 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_9 : Ref sig .tc := ⟨.hbm, 68, rfl⟩
abbrev main_v39 : Ref sig .tc := ⟨.hbm, 69, rfl⟩
abbrev main_v40 : Ref sig .tc := ⟨.hbm, 70, rfl⟩
abbrev main_c_10 : Ref sig .tc := ⟨.hbm, 71, rfl⟩
abbrev main_v41 : Ref sig .tc := ⟨.hbm, 72, rfl⟩
abbrev main_v42 : Ref sig .tc := ⟨.hbm, 73, rfl⟩
abbrev main_c_11 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_12 : Ref sig .tc := ⟨.hbm, 82, rfl⟩
abbrev main_v50 : Ref sig .tc := ⟨.hbm, 83, rfl⟩
abbrev main_v51 : Ref sig .tc := ⟨.hbm, 84, rfl⟩
abbrev main_c_13 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_14 : Ref sig .tc := ⟨.hbm, 95, rfl⟩
abbrev main_v61 : Ref sig .tc := ⟨.hbm, 96, rfl⟩
abbrev main_v62 : Ref sig .tc := ⟨.hbm, 97, rfl⟩
abbrev main_c_15 : Ref sig .tc := ⟨.hbm, 98, rfl⟩
abbrev main_v63 : Ref sig .tc := ⟨.hbm, 99, rfl⟩
abbrev main_v64 : Ref sig .tc := ⟨.hbm, 100, rfl⟩
abbrev main_c_16 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_17 : Ref sig .tc := ⟨.hbm, 109, rfl⟩
abbrev main_v72 : Ref sig .tc := ⟨.hbm, 110, rfl⟩
abbrev main_v73 : Ref sig .tc := ⟨.hbm, 111, rfl⟩
abbrev main_c_18 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_19 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_call2_cst : Ref sig .tc := ⟨.hbm, 129, rfl⟩
abbrev main_call2_v0 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_20 : Ref sig .tc := ⟨.hbm, 135, rfl⟩
abbrev main_v93 : Ref sig .tc := ⟨.hbm, 136, rfl⟩
abbrev main_v94 : Ref sig .tc := ⟨.hbm, 137, rfl⟩
abbrev main_c_21 : Ref sig .tc := ⟨.hbm, 138, rfl⟩
abbrev main_v95 : Ref sig .tc := ⟨.hbm, 139, rfl⟩
abbrev main_v96 : Ref sig .tc := ⟨.hbm, 140, rfl⟩
abbrev main_c_22 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_c_23 : Ref sig .tc := ⟨.hbm, 149, rfl⟩
abbrev main_v104 : Ref sig .tc := ⟨.hbm, 150, rfl⟩
abbrev main_v105 : Ref sig .tc := ⟨.hbm, 151, rfl⟩
abbrev main_c_24 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_25 : Ref sig .tc := ⟨.hbm, 162, rfl⟩
abbrev main_v115 : Ref sig .tc := ⟨.hbm, 163, rfl⟩
abbrev main_v116 : Ref sig .tc := ⟨.hbm, 164, rfl⟩
abbrev main_c_26 : Ref sig .tc := ⟨.hbm, 165, rfl⟩
abbrev main_v117 : Ref sig .tc := ⟨.hbm, 166, rfl⟩
abbrev main_v118 : Ref sig .tc := ⟨.hbm, 167, rfl⟩
abbrev main_c_27 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_c_28 : Ref sig .tc := ⟨.hbm, 176, rfl⟩
abbrev main_v126 : Ref sig .tc := ⟨.hbm, 177, rfl⟩
abbrev main_v127 : Ref sig .tc := ⟨.hbm, 178, rfl⟩
abbrev main_c_29 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_cst_30 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_call3_cst : Ref sig .tc := ⟨.hbm, 196, rfl⟩
abbrev main_call3_v0 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_cst_31 : Ref sig .tc := ⟨.hbm, 202, rfl⟩
abbrev main_v147 : Ref sig .tc := ⟨.hbm, 203, rfl⟩
abbrev main_v148 : Ref sig .tc := ⟨.hbm, 204, rfl⟩
abbrev main_c_32 : Ref sig .tc := ⟨.hbm, 205, rfl⟩
abbrev main_v149 : Ref sig .tc := ⟨.hbm, 206, rfl⟩
abbrev main_v150 : Ref sig .tc := ⟨.hbm, 207, rfl⟩
abbrev main_c_33 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_c_34 : Ref sig .tc := ⟨.hbm, 216, rfl⟩
abbrev main_v158 : Ref sig .tc := ⟨.hbm, 217, rfl⟩
abbrev main_v159 : Ref sig .tc := ⟨.hbm, 218, rfl⟩
abbrev main_c_35 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_cst_36 : Ref sig .tc := ⟨.hbm, 229, rfl⟩
abbrev main_v169 : Ref sig .tc := ⟨.hbm, 230, rfl⟩
abbrev main_v170 : Ref sig .tc := ⟨.hbm, 231, rfl⟩
abbrev main_c_37 : Ref sig .tc := ⟨.hbm, 232, rfl⟩
abbrev main_v171 : Ref sig .tc := ⟨.hbm, 233, rfl⟩
abbrev main_v172 : Ref sig .tc := ⟨.hbm, 234, rfl⟩
abbrev main_c_38 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_c_39 : Ref sig .tc := ⟨.hbm, 243, rfl⟩
abbrev main_v180 : Ref sig .tc := ⟨.hbm, 244, rfl⟩
abbrev main_v181 : Ref sig .tc := ⟨.hbm, 245, rfl⟩
abbrev main_c_40 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_cst_41 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_cst_42 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_cst_43 : Ref sig .tc := ⟨.hbm, 267, rfl⟩
abbrev main_v200 : Ref sig .tc := ⟨.hbm, 268, rfl⟩
abbrev main_cst_44 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_cst_45 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_call4_cst : Ref sig .tc := ⟨.hbm, 283, rfl⟩
abbrev main_call4_v0 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  slices_S3x64x64_S1x64x64_0_0_0 : S3x64x64.Slices ![0, 0, 0] S1x64x64
  shapeCasts_S1x64x64_S64x64 : S1x64x64.ShapeCasts S64x64
  bcast_S_S50000x64 : S_.BroadcastsInDim S50000x64 (![] : Fin 0 → Fin S50000x64.rank)
  bcast_S800000x1_S800000x64_0_1 : S800000x1.BroadcastsInDim S800000x64 (![0, 1] : Fin 2 → Fin S800000x64.rank)
  slices_S3x64x64_S1x64x64_1_0_0 : S3x64x64.Slices ![1, 0, 0] S1x64x64
  slices_S3x64x64_S1x64x64_2_0_0 : S3x64x64.Slices ![2, 0, 0] S1x64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x32_S64x32_1_0_0_1_n_n_wf : DotDims.WF S64x64 S64x32 S64x32 [1] [0] [0] [1] [] []
  dot_S64x32_S32x10_S64x10_1_0_0_1_n_n_wf : DotDims.WF S64x32 S32x10 S64x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x10_S64x10_1_0_0_1_n_n : DotDims S64x32 S32x10 S64x10 where
  lhsContracting := [1]
  rhsContracting := [0]
  lhsNonContracting := [0]
  rhsNonContracting := [1]
  lhsBatch := []
  rhsBatch := []
  wf := dot_S64x32_S32x10_S64x10_1_0_0_1_n_n_wf

class Facts : Prop extends Facts₀ where

variable [Facts]
-- ==== Proof.HostFns.lean ====
/-
  The host-side arithmetic that the kernel program and the reference share, as named functions of the inputs.

  Edge e runs from node row e to node col e with weight w e. With deg n the sum of the weights of the edges leaving n
  and dinv n = deg n ^ (-1/2) where deg n > 0 (and 0 elsewhere), the scaled-Laplacian edge weight is
      edgeW e = -w e · dinv (row e) · dinv (col e),
  one propagation step is  (prop X)[n, ·] = Σ over edges e with row e = n of edgeW e · X[col e, ·],
  and the third Chebyshev term is  t2 X = 2 · prop (prop X) − X.
  A negative node id is wrapped by the number of nodes before it is used, as the array indexing of both programs does.
  The tail turns the per-graph sums into per-graph means (dividing by max(count, 1)) and applies the two dense layers.
-/
import proofs.«426765_j4844723109937_1_alg».proof.Proof.Gen.KernelIdeal

noncomputable section

open Idealize.ShloMosaic

namespace Cert.KernelIdeal.HostFns

open Cert.KernelIdeal Cert.KernelIdeal.Gen

variable {F : FTy → Type} [FloatOps F]

/-- The source node of every edge: row 0 of the edge list. -/
def row (ei : IVec S2x800000 32) : IVec S800000 32 :=
  shapeCast S800000 (extractStridedSlice S1x800000 ![0, 0] ei slices_S2x800000_S1x800000_0_0) shapeCasts_S1x800000_S800000

/-- The target node of every edge: row 1 of the edge list. -/
def col (ei : IVec S2x800000 32) : IVec S800000 32 :=
  shapeCast S800000 (extractStridedSlice S1x800000 ![1, 0] ei slices_S2x800000_S1x800000_1_0) shapeCasts_S1x800000_S800000

/-- Node ids as an index column: a negative id is wrapped by the number of nodes. -/
def wrapIdx (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The weighted out-degree of every node. -/
def deg (ei : IVec S2x800000 32) (ea : FVec F S800000 .f32) : FVec F S50000 .f32 :=
  Host.scatterAdd scatter_S50000_S800000x1_S800000_n_0_0_1
    (broadcastInDim S50000 ![] bcast_S_S50000 (constant S_ .f32 0x00000000#32)) (wrapIdx (row ei)) ea

/-- deg ^ (-1/2) where the degree is positive, 0 elsewhere. -/
def dinv (ei : IVec S2x800000 32) (ea : FVec F S800000 .f32) : FVec F S50000 .f32 :=
  select (cmpf .ogt (deg ei ea) (broadcastInDim S50000 ![] bcast_S_S50000 (constant S_ .f32 0x00000000#32)))
    (Host.rsqrt
      (select (cmpf .ogt (deg ei ea) (broadcastInDim S50000 ![] bcast_S_S50000 (constant S_ .f32 0x00000000#32)))
        (deg ei ea) (broadcastInDim S50000 ![] bcast_S_S50000 (id (constant S_ .f32 0x3F800000#32)))))
    (broadcastInDim S50000 ![] bcast_S_S50000 (id (constant S_ .f32 0x00000000#32)))

/-- The scaled-Laplacian weight of every edge. -/
def edgeW (ei : IVec S2x800000 32) (ea : FVec F S800000 .f32) : FVec F S800000 .f32 :=
  mulf
    (mulf (Host.negf ea) (Host.gather gather_S50000_S800000x1_S800000_n_0_n_n_0_1_1 (dinv ei ea) (wrapIdx (row ei))))
    (Host.gather gather_S50000_S800000x1_S800000_n_0_n_n_0_1_1 (dinv ei ea) (wrapIdx (col ei)))

/-- One propagation step: gather the rows at the edges' targets, weight them, and add them up at the edges' sources. -/
def prop (ei : IVec S2x800000 32) (ea : FVec F S800000 .f32) (X : FVec F S50000x64 .f32) : FVec F S50000x64 .f32 :=
  Host.scatterAdd scatter_S50000x64_S800000x1_S800000x64_1_0_0_1
    (broadcastInDim S50000x64 ![] bcast_S_S50000x64 (constant S_ .f32 0x00000000#32))
    (wrapIdx (row ei))
    (mulf
      (broadcastInDim S800000x64 ![0, 1] bcast_S800000x1_S800000x64_0_1
        (broadcastInDim S800000x1 ![0] bcast_S800000_S800000x1_0 (edgeW ei ea)))
      (Host.gather gather_S50000x64_S800000x1_S800000x64_1_0_n_n_0_1_164 X (wrapIdx (col ei))))

/-- The third Chebyshev term: 2 · prop (prop X) − X. -/
def t2 (ei : IVec S2x800000 32) (ea : FVec F S800000 .f32) (X : FVec F S50000x64 .f32) : FVec F S50000x64 .f32 :=
  subf (mulf (broadcastInDim S50000x64 ![] bcast_S_S50000x64 (constant S_ .f32 0x40000000#32)) (prop ei ea (prop ei ea X))) X

/-- From the per-graph sums to the result: divide by max(node count, 1), then the two dense layers with a rectifier between. -/
def tail (S : FVec F S64x64 .f32) (bt : IVec S50000 32) (Wl1 : FVec F S64x32 .f32) (bl1 : FVec F S32 .f32)
    (Wl2 : FVec F S32x10 .f32) (bl2 : FVec F S10 .f32) : FVec F S64x10 .f32 :=
  addf
    (Host.dotGeneral dot_S64x32_S32x10_S64x10_1_0_0_1_n_n none
      (maximumf
        (addf
          (Host.dotGeneral dot_S64x64_S64x32_S64x32_1_0_0_1_n_n none
            (Host.divf S
              (broadcastInDim S64x64 ![0, 1] bcast_S64x1_S64x64_0_1
                (broadcastInDim S64x1 ![0] bcast_S64_S64x1_0
                  (maximumf
                    (Host.scatterAdd scatter_S64_S50000x1_S50000_n_0_0_1
                      (broadcastInDim S64 ![] bcast_S_S64 (constant S_ .f32 0x00000000#32))
                      (broadcastInDim S50000x1 ![0] bcast_S50000_S50000x1_0 bt)
                      (broadcastInDim S50000 ![] bcast_S_S50000 (constant S_ .f32 0x3F800000#32)))
                    (broadcastInDim S64 ![] bcast_S_S64 (constant S_ .f32 0x3F800000#32))))))
            Wl1)
          (broadcastInDim S64x32 ![0, 1] bcast_S1x32_S64x32_0_1 (broadcastInDim S1x32 ![1] bcast_S32_S1x32_1 bl1)))
        (broadcastInDim S64x32 ![] bcast_S_S64x32 (constant S_ .f32 0x00000000#32)))
      Wl2)
    (broadcastInDim S64x10 ![0, 1] bcast_S1x10_S64x10_0_1 (broadcastInDim S1x10 ![1] bcast_S10_S1x10_1 bl2))

/-- A bias vector as the 1 × 64 row the combine kernel reads. -/
def biasRow (b : FVec F S64 .f32) : FVec F S1x64 .f32 := shapeCast S1x64 b shapeCasts_S64_S1x64

/-- The graph ids as the 50000 × 1 column the pooling kernel reads. -/
def idCol (bt : IVec S50000 32) : IVec S50000x1 32 := shapeCast S50000x1 bt shapeCasts_S50000_S50000x1

end Cert.KernelIdeal.HostFns

end
-- ==== Proof.KStages.lean ====
import proofs.«426765_j4844723109937_1_alg».proof.Proof.Gen.KernelIdeal.Launch
import proofs.«426765_j4844723109937_1_alg».proof.Proof.HostFns
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stages

open Cert.KernelIdeal Cert.KernelIdeal.Gen Cert.KernelIdeal.HostFns

variable {F : FTy → Type} [FloatOps F]

/-- Read every operation's result in an opened list of host operations, then drop the identity transports that a
    called function's typed references leave around its values. -/
macro "read_results" : tactic =>
  `(tactic| (after_results_simp; try simp only [TRef.ofBuf, TRef.toBuf, cast_eq]))

/-- The buffer contents when the first combine call is entered, from the contents `V` at launch: the five host
    stretches before it, in order. -/
abbrev entry0 (V : Valuation τ sig (Elt F)) : Valuation τ sig (Elt F) :=
  StableHlo.after hostOps0_4 (StableHlo.after hostOps0_3 (StableHlo.after hostOps0_2 (StableHlo.after hostOps0_1
    (StableHlo.after hostOps0 V))))

/-! ## Before the first combine call

With `e` the edge list, `a` the edge weights and `x` the node features at launch, the five host stretches leave the two
index vectors, the edge weights of the scaled Laplacian, one propagation step of `x`, its third Chebyshev term and the
first bias as a row; they write none of the other inputs. -/

section Entry0

variable (V : Valuation τ sig (Elt F))

set_option maxHeartbeats 4000000 in
theorem entry0_v1 : entry0 V (Proc.devRef .tc main_v1) = row (V (Proc.devRef .tc main_arg1)) := by
  simp only [entry0, hostOps0_4, hostOps0_3, hostOps0_2, hostOps0_1, hostOps0]
  read_results
  rfl

set_option maxHeartbeats 4000000 in
theorem entry0_v3 : entry0 V (Proc.devRef .tc main_v3) = col (V (Proc.devRef .tc main_arg1)) := by
  simp only [entry0, hostOps0_4, hostOps0_3, hostOps0_2, hostOps0_1, hostOps0]
  read_results
  rfl

set_option maxHeartbeats 4000000 in
theorem entry0_v35 : entry0 V (Proc.devRef .tc main_v35) = edgeW (V (Proc.devRef .tc main_arg1)) (V (Proc.devRef .tc main_arg2)) := by
  simp only [entry0, hostOps0_4, hostOps0_3, hostOps0_2, hostOps0_1, hostOps0]
  read_results
  rfl

set_option maxHeartbeats 4000000 in
theorem entry0_v53 : entry0 V (Proc.devRef .tc main_v53)
    = prop (V (Proc.devRef .tc main_arg1)) (V (Proc.devRef .tc main_arg2)) (V (Proc.devRef .tc main_arg0)) := by
  simp only [entry0, hostOps0_4, hostOps0_3, hostOps0_2, hostOps0_1, hostOps0]
  read_results
  rfl

set_option maxHeartbeats 4000000 in
theorem entry0_v74 : entry0 V (Proc.devRef .tc main_v74)
    = t2 (V (Proc.devRef .tc main_arg1)) (V (Proc.devRef .tc main_arg2)) (V (Proc.devRef .tc main_arg0)) := by
  simp only [entry0, hostOps0_4, hostOps0_3, hostOps0_2, hostOps0_1, hostOps0]
  read_results
  rfl

set_option maxHeartbeats 4000000 in
theorem entry0_v75 : entry0 V (Proc.devRef .tc main_v75) = biasRow (V (Proc.devRef .tc main_arg5)) := by
  simp only [entry0, hostOps0_4, hostOps0_3, hostOps0_2, hostOps0_1, hostOps0]
  read_results
  rfl

set_option maxHeartbeats 4000000 in
/-- The inputs the later segments read are not written before the first call. -/
theorem entry0_kept (b : Ref sig .tc)
    (hb : b ∈ [main_arg0, main_arg3, main_arg4, main_arg6, main_arg7, main_arg8, main_arg9, main_arg10, main_arg11,
      main_arg12, main_arg13]) : entry0 V (Proc.devRef .tc b) = V (Proc.devRef .tc b) := by
  simp only [List.mem_cons, List.not_mem_nil, or_false] at hb
  rcases hb with rfl | rfl | rfl | rfl | rfl | rfl | rfl | rfl | rfl | rfl | rfl <;>
    (simp only [entry0, hostOps0_4, hostOps0_3, hostOps0_2, hostOps0_1, hostOps0]; after_results_simp)

end Entry0

/-! ## Between two combine calls

The stretch between the first and the second call takes the first call's output `X` and leaves one propagation step
of it, its third Chebyshev term and the second bias as a row; the stretch between the second and the third call does
the same with the second call's output and the third bias. -/

section Mid1

variable (V : Valuation τ sig (Elt F)) (e : IVec S2x800000 32) (a : FVec F S800000 .f32) (X : FVec F S50000x64 .f32)
  (h1 : V (Proc.devRef .tc main_v1) = row e) (h3 : V (Proc.devRef .tc main_v3) = col e) (h35 : V (Proc.devRef .tc main_v35) = edgeW e a)
  (hX : V (Proc.devRef .tc main_v76) = X)

include h1 h3 h35 hX in
set_option maxHeartbeats 4000000 in
theorem mid1_v94 : StableHlo.after hostOps1 V (Proc.devRef .tc main_v94) = prop e a X := by
  simp only [hostOps1]
  read_results
  rw [h1, h3, h35, hX]
  rfl

include h1 h3 h35 hX in
set_option maxHeartbeats 4000000 in
theorem mid1_v115 : StableHlo.after hostOps1 V (Proc.devRef .tc main_v115) = t2 e a X := by
  simp only [hostOps1]
  read_results
  rw [h1, h3, h35, hX]
  rfl

set_option maxHeartbeats 4000000 in
theorem mid1_v116 : StableHlo.after hostOps1 V (Proc.devRef .tc main_v116) = biasRow (V (Proc.devRef .tc main_arg7)) := by
  simp only [hostOps1]
  read_results
  rfl

set_option maxHeartbeats 4000000 in
/-- What the later segments read is not written between the first two calls. -/
theorem mid1_kept (b : Ref sig .tc)
    (hb : b ∈ [main_v76, main_v1, main_v3, main_v35, main_arg3, main_arg6, main_arg8, main_arg9, main_arg10, main_arg11,
      main_arg12, main_arg13]) : StableHlo.after hostOps1 V (Proc.devRef .tc b) = V (Proc.devRef .tc b) := by
  simp only [List.mem_cons, List.not_mem_nil, or_false] at hb
  rcases hb with rfl | rfl | rfl | rfl | rfl | rfl | rfl | rfl | rfl | rfl | rfl | rfl <;>
    (simp only [hostOps1]; after_results_simp)

end Mid1

section Mid2

variable (V : Valuation τ sig (Elt F)) (e : IVec S2x800000 32) (a : FVec F S800000 .f32) (X : FVec F S50000x64 .f32)
  (h1 : V (Proc.devRef .tc main_v1) = row e) (h3 : V (Proc.devRef .tc main_v3) = col e) (h35 : V (Proc.devRef .tc main_v35) = edgeW e a)
  (hX : V (Proc.devRef .tc main_v117) = X)

include h1 h3 h35 hX in
set_option maxHeartbeats 4000000 in
theorem mid2_v135 : StableHlo.after hostOps2 V (Proc.devRef .tc main_v135) = prop e a X := by
  simp only [hostOps2]
  read_results
  rw [h1, h3, h35, hX]
  rfl

include h1 h3 h35 hX in
set_option maxHeartbeats 4000000 in
theorem mid2_v156 : StableHlo.after hostOps2 V (Proc.devRef .tc main_v156) = t2 e a X := by
  simp only [hostOps2]
  read_results
  rw [h1, h3, h35, hX]
  rfl

set_option maxHeartbeats 4000000 in
theorem mid2_v157 : StableHlo.after hostOps2 V (Proc.devRef .tc main_v157) = biasRow (V (Proc.devRef .tc main_arg9)) := by
  simp only [hostOps2]
  read_results
  rfl

set_option maxHeartbeats 4000000 in
/-- What the later segments read is not written between the second and the third call. -/
theorem mid2_kept (b : Ref sig .tc)
    (hb : b ∈ [main_v117, main_arg3, main_arg8, main_arg10, main_arg11, main_arg12, main_arg13]) :
    StableHlo.after hostOps2 V (Proc.devRef .tc b) = V (Proc.devRef .tc b) := by
  simp only [List.mem_cons, List.not_mem_nil, or_false] at hb
  rcases hb with rfl | rfl | rfl | rfl | rfl | rfl | rfl <;>
    (simp only [hostOps2]; after_results_simp)

end Mid2

/-! ## Before the pooling call, and after it -/

section Mid3

variable (V : Valuation τ sig (Elt F))

theorem mid3_v159 : StableHlo.after hostOps3 V (Proc.devRef .tc main_v159) = idCol (V (Proc.devRef .tc main_arg3)) := by
  simp only [hostOps3]
  read_results
  rfl

/-- The one operation before the pooling call writes only the id column. -/
theorem mid3_kept (b : Ref sig .tc)
    (hb : b ∈ [main_v158, main_arg3, main_arg10, main_arg11, main_arg12, main_arg13]) :
    StableHlo.after hostOps3 V (Proc.devRef .tc b) = V (Proc.devRef .tc b) := by
  simp only [List.mem_cons, List.not_mem_nil, or_false] at hb
  rcases hb with rfl | rfl | rfl | rfl | rfl | rfl <;>
    (simp only [hostOps3]; after_results_simp)

set_option maxHeartbeats 4000000 in
/-- The three host stretches after the pooling call turn the per-graph sums into the result. -/
theorem tail_v178 :
    StableHlo.after hostOps4_2 (StableHlo.after hostOps4_1 (StableHlo.after hostOps4 V)) (Proc.devRef .tc main_v178)
      = tail (V (Proc.devRef .tc main_v160)) (V (Proc.devRef .tc main_arg3)) (V (Proc.devRef .tc main_arg10)) (V (Proc.devRef .tc main_arg11))
          (V (Proc.devRef .tc main_arg12)) (V (Proc.devRef .tc main_arg13)) := by
  simp only [hostOps4_2, hostOps4_1, hostOps4]
  read_results
  rfl

end Mid3

end Cert.KernelIdeal.Stages

end
-- ==== Proof.Spec.lean ====
/-
  What the two programs compute at the places where they differ, as plain functions over the extended reals.

  A Chebyshev layer combines three node-feature matrices X, P, T (50000 nodes, 64 features) with three 64 × 64
  weight slabs W[0], W[1], W[2] and a bias row b:
      out[n, f] = ((Σₖ X[n, k]·W[0, k, f] + Σₖ P[n, k]·W[1, k, f]) + Σₖ T[n, k]·W[2, k, f]) + b[0, f],
  optionally followed by max(·, 0).

  The pooling step sums node rows by graph: with B[n, 0] the graph id of node n (a 32-bit word read signed),
      pool[g, f] = Σₙ (H[n, f] if B[n, 0] = g else 0).
  A node whose id is outside 0 … 63 enters no sum.
-/
import Idealize.ShloMosaic.PureOps.Ideal
import Idealize.ShloMosaic.Lib.ValueIdx

noncomputable section

open scoped BigOperators

namespace Cert.Spec

open Idealize.ShloMosaic Idealize.ShloMosaic.ValueIdx

/-- node features: 50000 × 64 -/
abbrev Snf : Shape := ⟨2, ![50000, 64]⟩
/-- three weight slabs: 3 × 64 × 64 -/
abbrev Sw : Shape := ⟨3, ![3, 64, 64]⟩
/-- a bias row: 1 × 64 -/
abbrev Sb : Shape := ⟨2, ![1, 64]⟩
/-- graph ids as a column: 50000 × 1 -/
abbrev Sn1 : Shape := ⟨2, ![50000, 1]⟩
/-- per-graph sums: 64 × 64 -/
abbrev Sgf : Shape := ⟨2, ![64, 64]⟩

/-- One entry of a Chebyshev layer before the rectifier. -/
def chebAt (X P T : Snf.Idx → EReal) (W : Sw.Idx → EReal) (b : Sb.Idx → EReal) (n : Fin 50000) (f : Fin 64) : EReal :=
  ((∑ k : Fin 64, X (ix2 n k) * W (ix3 (0 : Fin 3) k f) + ∑ k : Fin 64, P (ix2 n k) * W (ix3 (1 : Fin 3) k f))
      + ∑ k : Fin 64, T (ix2 n k) * W (ix3 (2 : Fin 3) k f)) + b (ix2 (0 : Fin 1) f)

/-- A Chebyshev layer without the rectifier. -/
def cheb (X P T : Snf.Idx → EReal) (W : Sw.Idx → EReal) (b : Sb.Idx → EReal) : Snf.Idx → EReal :=
  fun i => chebAt X P T W b (i 0) (i 1)

/-- A Chebyshev layer followed by max(·, 0). -/
def chebRelu (X P T : Snf.Idx → EReal) (W : Sw.Idx → EReal) (b : Sb.Idx → EReal) : Snf.Idx → EReal :=
  fun i => max (chebAt X P T W b (i 0) (i 1)) 0

/-- One entry of the per-graph sums. -/
def poolAt (B : Sn1.Idx → BitVec 32) (H : Snf.Idx → EReal) (g f : Fin 64) : EReal :=
  ∑ n : Fin 50000, if (B (ix2 n (0 : Fin 1))).toInt = (g.val : ℤ) then H (ix2 n f) else 0

/-- The per-graph sums of the node rows. -/
def pool (B : Sn1.Idx → BitVec 32) (H : Snf.Idx → EReal) : Sgf.Idx → EReal :=
  fun i => poolAt B H (i 0) (i 1)

end Cert.Spec

end
-- ==== Proof.Net.lean ====
/-
  The whole network as one function of the fourteen inputs over the extended reals: three Chebyshev layers (each fed
  with its input, one propagation step of it and the third Chebyshev term), the per-graph sums, and the tail.
-/
import proofs.«426765_j4844723109937_1_alg».proof.Proof.HostFns
import proofs.«426765_j4844723109937_1_alg».proof.Proof.Spec

noncomputable section

open Idealize.ShloMosaic

namespace Cert.KernelIdeal.HostFns

open Cert.KernelIdeal Cert.KernelIdeal.Gen

/-- The first layer's output. -/
def layer1 (x0 : FVec Ideal S50000x64 .f32) (ei : IVec S2x800000 32) (ea : FVec Ideal S800000 .f32)
    (W1 : FVec Ideal S3x64x64 .f32) (b1 : FVec Ideal S64 .f32) : FVec Ideal S50000x64 .f32 :=
  Cert.Spec.chebRelu x0 (prop ei ea x0) (t2 ei ea x0) W1 (biasRow b1)

/-- The second layer's output. -/
def layer2 (x0 : FVec Ideal S50000x64 .f32) (ei : IVec S2x800000 32) (ea : FVec Ideal S800000 .f32)
    (W1 : FVec Ideal S3x64x64 .f32) (b1 : FVec Ideal S64 .f32) (W2 : FVec Ideal S3x64x64 .f32) (b2 : FVec Ideal S64 .f32) :
    FVec Ideal S50000x64 .f32 :=
  Cert.Spec.chebRelu (layer1 x0 ei ea W1 b1) (prop ei ea (layer1 x0 ei ea W1 b1)) (t2 ei ea (layer1 x0 ei ea W1 b1)) W2 (biasRow b2)

/-- The third layer's output (no rectifier). -/
def layer3 (x0 : FVec Ideal S50000x64 .f32) (ei : IVec S2x800000 32) (ea : FVec Ideal S800000 .f32)
    (W1 : FVec Ideal S3x64x64 .f32) (b1 : FVec Ideal S64 .f32) (W2 : FVec Ideal S3x64x64 .f32) (b2 : FVec Ideal S64 .f32)
    (W3 : FVec Ideal S3x64x64 .f32) (b3 : FVec Ideal S64 .f32) : FVec Ideal S50000x64 .f32 :=
  Cert.Spec.cheb (layer2 x0 ei ea W1 b1 W2 b2) (prop ei ea (layer2 x0 ei ea W1 b1 W2 b2)) (t2 ei ea (layer2 x0 ei ea W1 b1 W2 b2)) W3 (biasRow b3)

/-- The whole network: three layers, per-graph sums, the tail. -/
def net (x0 : FVec Ideal S50000x64 .f32) (ei : IVec S2x800000 32) (ea : FVec Ideal S800000 .f32) (bt : IVec S50000 32)
    (W1 : FVec Ideal S3x64x64 .f32) (b1 : FVec Ideal S64 .f32) (W2 : FVec Ideal S3x64x64 .f32) (b2 : FVec Ideal S64 .f32)
    (W3 : FVec Ideal S3x64x64 .f32) (b3 : FVec Ideal S64 .f32) (Wl1 : FVec Ideal S64x32 .f32) (bl1 : FVec Ideal S32 .f32)
    (Wl2 : FVec Ideal S32x10 .f32) (bl2 : FVec Ideal S10 .f32) : FVec Ideal S64x10 .f32 :=
  tail (Cert.Spec.pool (idCol bt) (layer3 x0 ei ea W1 b1 W2 b2 W3 b3)) bt Wl1 bl1 Wl2 bl2

end Cert.KernelIdeal.HostFns

end
-- ==== Proof.Cheb0.lean ====
import proofs.«426765_j4844723109937_1_alg».proof.Proof.Gen.KernelIdeal.Frame
import proofs.«426765_j4844723109937_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat Cfg Window)

namespace Cert.KernelIdeal.Cheb0

open Cert.KernelIdeal Cert.KernelIdeal.Gen
open Idealize.ShloMosaic.ValueIdx
open scoped BigOperators

variable (V : (c : Dev nD) → (b : Ref sig .tc) → Buf (Elt Ideal) ((c : Thread nD τ).loc b))

/-! ## One matrix product at an entry -/

/-- The left operand's row coordinate is the result's row. -/
private theorem lhs_mm_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column coordinate is the summation index. -/
private theorem lhs_mm_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's row coordinate is the summation index. -/
private theorem rhs_mm_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- The right operand's column coordinate is the result's column. -/
private theorem rhs_mm_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A 5000 × 64 block times a 64 × 64 slab, accumulated from zero: entry (p, q) is the sum over k of
    x[p, k] · w[k, q]. -/
private theorem matmul_at (x : FVec Ideal S5000x64 .f32) (w : FVec Ideal S64x64 .f32) (p : Fin 5000) (q : Fin 64) :
    matmul dot_S5000x64_S64x64_S5000x64_1_0_0_1_n_n none x w (constant S5000x64 .f32 0x00000000#32) (ix2 p q)
      = ∑ k : Fin 64, x (ix2 p k) * w (ix2 k q) := by
  refine (Ideal.matmul_constant_zero_apply dot_S5000x64_S64x64_S5000x64_1_0_0_1_n_n none x w (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_mm_0 _ _
    | ⟨1, _⟩ => exact (lhs_mm_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_mm_0 _ _).trans hk
    | ⟨1, _⟩ => exact rhs_mm_1 _ _)
  rw [el, er]

/-! ## The body's arithmetic at an entry -/

/-- What the body stores at entry (p, q) of its block: the three products of a feature block with its weight slab,
    summed left to right, plus the bias row's entry q, then the maximum with zero. Each slab arrives as 1 × 64 × 64 and
    is read as 64 × 64; the bias row is repeated down the 5000 rows. -/
private theorem pay_at (x0 : Vec Ideal S5000x64 .f32) (w0 : Vec Ideal S1x64x64 .f32) (x1 : Vec Ideal S5000x64 .f32) (w1 : Vec Ideal S1x64x64 .f32)
    (x2 : Vec Ideal S5000x64 .f32) (w2 : Vec Ideal S1x64x64 .f32) (b : Vec Ideal S1x64 .f32) (p : Fin 5000) (q : Fin 64) :
    k0_pay1 x0 w0 x1 w1 x2 w2 b (ix2 p q)
      = max (((∑ k : Fin 64, x0 (ix2 p k) * w0 (ix3 (0 : Fin 1) k q) + ∑ k : Fin 64, x1 (ix2 p k) * w1 (ix3 (0 : Fin 1) k q))
          + ∑ k : Fin 64, x2 (ix2 p k) * w2 (ix3 (0 : Fin 1) k q)) + b (ix2 (0 : Fin 1) q)) 0 := by
  unfold k0_pay1
  rw [maximumf_apply, addf_apply, addf_apply, addf_apply, broadcast_apply]
  rw [shapeCast_self x1, shapeCast_self x2, shapeCast_self b]
  rw [matmul_at, matmul_at, matmul_at, broadcastTo_1b_ab_apply]
  simp only [shapeCast_1ab_ab_apply]
  rw [show (FloatOps.ofBits (F := Ideal) .f32 0x00000000#32) = (0 : EReal) from Ideal.ofBits_zero_f32]

/-! ## The three weight slabs, read out of the staged 3 × 64 × 64 array -/

/-- Slab s of the staged weights is loaded through the unit-stride box at offset (s, 0, 0) of sizes 1 × 64 × 64:
    its entry (0, k, q) is the array's entry (s, k, q). Slab 0: -/
private theorem ld_slab0 (x3 : Vec Ideal S3x64x64 .f32) (k q : Fin 64) :
    View.ld x3 r0_1 (ix3 (0 : Fin 1) k q) = x3 (ix3 (0 : Fin 3) k q) := by
  show x3 (r0_1.idx (ix3 (0 : Fin 1) k q)) = x3 (ix3 (0 : Fin 3) k q)
  refine congrArg x3 (funext fun a => Fin.ext ?_)
  match a with
  | ⟨0, _⟩ => rfl
  | ⟨1, _⟩ => show 0 + 1 * k.val = k.val; omega
  | ⟨2, _⟩ => show 0 + 1 * q.val = q.val; omega
/-- slab 1: -/
private theorem ld_slab1 (x3 : Vec Ideal S3x64x64 .f32) (k q : Fin 64) :
    View.ld x3 r0_2 (ix3 (0 : Fin 1) k q) = x3 (ix3 (1 : Fin 3) k q) := by
  show x3 (r0_2.idx (ix3 (0 : Fin 1) k q)) = x3 (ix3 (1 : Fin 3) k q)
  refine congrArg x3 (funext fun a => Fin.ext ?_)
  match a with
  | ⟨0, _⟩ => rfl
  | ⟨1, _⟩ => show 0 + 1 * k.val = k.val; omega
  | ⟨2, _⟩ => show 0 + 1 * q.val = q.val; omega
/-- slab 2. -/
private theorem ld_slab2 (x3 : Vec Ideal S3x64x64 .f32) (k q : Fin 64) :
    View.ld x3 r0_3 (ix3 (0 : Fin 1) k q) = x3 (ix3 (2 : Fin 3) k q) := by
  show x3 (r0_3.idx (ix3 (0 : Fin 1) k q)) = x3 (ix3 (2 : Fin 3) k q)
  refine congrArg x3 (funext fun a => Fin.ext ?_)
  match a with
  | ⟨0, _⟩ => rfl
  | ⟨1, _⟩ => show 0 + 1 * k.val = k.val; omega
  | ⟨2, _⟩ => show 0 + 1 * q.val = q.val; omega

/-! ## One entry of the block a point writes -/

/-- If row p of each staged feature block is row n of its array, the staged weights and bias are the whole arrays,
    then entry (p, q) of what the body stores is the layer's value at node n, feature q: the same three sums in
    the same order, the same bias entry, the same maximum with zero. -/
private theorem point_value (X P T : Cert.Spec.Snf.Idx → EReal) (W : Cert.Spec.Sw.Idx → EReal) (B : Cert.Spec.Sb.Idx → EReal)
    (x0 x1 x2 : Vec Ideal S5000x64 .f32) (x3 : Vec Ideal S3x64x64 .f32) (x4 : Vec Ideal S1x64 .f32)
    (n : Fin 50000) (f : Fin 64) (p : Fin 5000) (q : Fin 64) (hf : f.val = q.val)
    (h0 : ∀ k : Fin 64, x0 (ix2 p k) = X (ix2 n k))
    (h1 : ∀ k : Fin 64, x1 (ix2 p k) = P (ix2 n k))
    (h2 : ∀ k : Fin 64, x2 (ix2 p k) = T (ix2 n k))
    (h3 : ∀ (s : Fin 3) (k : Fin 64), x3 (ix3 s k q) = W (ix3 s k q))
    (h4 : x4 (ix2 (0 : Fin 1) q) = B (ix2 (0 : Fin 1) q)) :
    k0_pay1 x0 (View.ld x3 r0_1) x1 (View.ld x3 r0_2) x2 (View.ld x3 r0_3) x4 (ix2 p q)
      = max (Cert.Spec.chebAt X P T W B n f) 0 := by
  obtain rfl : q = f := (Fin.ext hf).symm
  rw [pay_at]
  unfold Cert.Spec.chebAt
  rw [h4]
  refine congrArg (fun s => max (s + B (ix2 (0 : Fin 1) q)) 0) ?_
  refine congrArg₂ (· + ·) (congrArg₂ (· + ·) ?_ ?_) ?_
  · exact Finset.sum_congr rfl fun k _ => by rw [h0 k, ld_slab0, h3]
  · exact Finset.sum_congr rfl fun k _ => by rw [h1 k, ld_slab1, h3]
  · exact Finset.sum_congr rfl fun k _ => by rw [h2 k, ld_slab2, h3]

/-! ## From one point's block to the array -/

private theorem hz2 : (![0, 0] : Fin 2 → Nat) = fun _ => 0 := funext fun a => by fin_cases a <;> rfl

/-- The block index maps over the ten grid points: the three feature windows and the output window take row block t
    at point t, column block 0; the weight and bias windows always take block 0. -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is row block t of the layer's value of the five arrays: entry (p, q) of the block sits
    at row 5000·t + p of each feature array and of the output, the weights and the bias are staged whole. -/
private theorem flushed_eq (c : Dev nD) (t : Fin cfg0.N) :
    (dat0 (F := Ideal) V c).flushed 5 t
      = ((cfg0.win 5).blk t).view.read (Elt Ideal)
          (Cert.Spec.chebRelu (V c main_arg0) (V c main_v53) (V c main_v74) (V c main_arg4) (V c main_v75)) := by
  show (cfg0.win 5).cut (grid0.coords t) ((dat0 V c).after 5 t) = _
  rw [after0_5]
  unfold out0_5
  rw [View.canon_unit_zero hz2]
  simp only [View.ld_unit_zero (S := S5000x64) hz2, View.ld_unit_zero (S := S1x64) hz2]
  obtain ⟨e00, e01, e10, e11, e20, e21, e30, e31, e32, e40, e41, e50, e51⟩ := idx_facts t
  funext j
  obtain ⟨p, q, rfl⟩ : ∃ (p : Fin 5000) (q : Fin 64), j = ix2 p q := ⟨j 0, j 1, eq_ix2 j⟩
  show k0_pay1 (iblk0 V c 0 t) (View.ld (iblk0 V c 3 t) r0_1) (iblk0 V c 1 t) (View.ld (iblk0 V c 3 t) r0_2)
        (iblk0 V c 2 t) (View.ld (iblk0 V c 3 t) r0_3) (iblk0 V c 4 t) (ix2 p q)
      = max (Cert.Spec.chebAt (V c main_arg0) (V c main_v53) (V c main_v74) (V c main_arg4) (V c main_v75)
          (((cfg0.win 5).blk t).view.emb (ix2 p q) 0) (((cfg0.win 5).blk t).view.emb (ix2 p q) 1)) 0
  refine point_value (V c main_arg0) (V c main_v53) (V c main_v74) (V c main_arg4) (V c main_v75)
    (iblk0 V c 0 t) (iblk0 V c 1 t) (iblk0 V c 2 t) (iblk0 V c 3 t) (iblk0 V c 4 t)
    (((cfg0.win 5).blk t).view.emb (ix2 p q) 0) (((cfg0.win 5).blk t).view.emb (ix2 p q) 1) p q ?_ ?_ ?_ ?_ ?_ ?_
  · show win0_5.index t (1 : Fin 2) * 64 + 1 * q.val = q.val
    omega
  · intro k
    show V c main_arg0 (((cfg0.win 0).blk t).view.emb (ix2 p k)) = V c main_arg0 (ix2 (((cfg0.win 5).blk t).view.emb (ix2 p q) 0) k)
    refine congrArg (V c main_arg0) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 64 + 1 * k.val = k.val; omega
  · intro k
    show V c main_v53 (((cfg0.win 1).blk t).view.emb (ix2 p k)) = V c main_v53 (ix2 (((cfg0.win 5).blk t).view.emb (ix2 p q) 0) k)
    refine congrArg (V c main_v53) (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 64 + 1 * k.val = k.val; omega
  · intro k
    show V c main_v74 (((cfg0.win 2).blk t).view.emb (ix2 p k)) = V c main_v74 (ix2 (((cfg0.win 5).blk t).view.emb (ix2 p q) 0) k)
    refine congrArg (V c main_v74) (funext fun a => Fin.ext ?_)
    match a with
    | ⟨0, _⟩ => show win0_2.index t (0 : Fin 2) * 5000 + 1 * p.val = win0_5.index t (0 : Fin 2) * 5000 + 1 * p.val; omega
    | ⟨1, _⟩ => show win0_2.index t (1 : Fin 2) * 64 + 1 * k.val = k.val; omega
  · intro s k
    show V c main_arg4 (((cfg0.win 3).blk t).view.emb (ix3 s k q)) = V c main_arg4 (ix3 s k q)
    refine congrArg (V c main_arg4) (funext fun a => Fin.ext ?_)
    match a with
    | ⟨0, _⟩ => show win0_3.index t (0 : Fin 3) * 3 + 1 * s.val = s.val; omega
    | ⟨1, _⟩ => show win0_3.index t (1 : Fin 3) * 64 + 1 * k.val = k.val; omega
    | ⟨2, _⟩ => show win0_3.index t (2 : Fin 3) * 64 + 1 * q.val = q.val; omega
  · show V c main_v75 (((cfg0.win 4).blk t).view.emb (ix2 (0 : Fin 1) q)) = V c main_v75 (ix2 (0 : Fin 1) q)
    refine congrArg (V c main_v75) (funext fun a => Fin.ext ?_)
    match a with
    | ⟨0, _⟩ => show win0_4.index t (0 : Fin 2) * 1 + 1 * 0 = 0; omega
    | ⟨1, _⟩ => show win0_4.index t (1 : Fin 2) * 64 + 1 * q.val = q.val; omega

/-- An entry of the output array is in point t's block iff each coordinate lies in the block's range on its axis. -/
private theorem mem_blk (t : Fin cfg0.N) (i : S50000x64.Idx) :
    i ∈ ((cfg0.win 5).blk t).view.set
      ↔ ∀ a : Fin 2, win0_5.index t a * S5000x64.size a ≤ (i a).val ∧ (i a).val < win0_5.index t a * S5000x64.size a + S5000x64.size a := by
  show i ∈ ((View.whole main_v76).slice (win0_5.rect t)).set ↔ _
  rw [View.set_slice_whole, Rect.mem_set_unit]
  exact Iff.rfl

/-- The ten row blocks cover the array: row r is in the block of point r / 5000, and every point writes back. -/
private theorem cover (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, -, -, -, -, -, e50, e51⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- After the first combine call the output array holds the layer's value of the five input arrays as the call
    found them: every row block of 5000 nodes is written once, with the layer's value on that block. -/
theorem final (c : Dev nD) :
    (dat0 (F := Ideal) V c).arrAt 5 cfg0.N
      = Cert.Spec.chebRelu (V c main_arg0) (V c main_v53) (V c main_v74) (V c main_arg4) (V c main_v75) :=
  (dat0 (F := Ideal) V c).arrAt_eq_of_cover 5
    (Cert.Spec.chebRelu (V c main_arg0) (V c main_v53) (V c main_v74) (V c main_arg4) (V c main_v75))
    (fun t _ => flushed_eq V c t) cover

end Cert.KernelIdeal.Cheb0

end
-- ==== Proof.Cheb1.lean ====
import proofs.«426765_j4844723109937_1_alg».proof.Proof.Gen.KernelIdeal.Frame
import proofs.«426765_j4844723109937_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat Cfg Window)

namespace Cert.KernelIdeal.Cheb1

open Cert.KernelIdeal Cert.KernelIdeal.Gen
open Idealize.ShloMosaic.ValueIdx
open scoped BigOperators

variable (V : (c : Dev nD) → (b : Ref sig .tc) → Buf (Elt Ideal) ((c : Thread nD τ).loc b))

/-! ## One matrix product at an entry -/

/-- The left operand's row coordinate is the result's row. -/
private theorem lhs_mm_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column coordinate is the summation index. -/
private theorem lhs_mm_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's row coordinate is the summation index. -/
private theorem rhs_mm_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- The right operand's column coordinate is the result's column. -/
private theorem rhs_mm_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A 5000 × 64 block times a 64 × 64 slab, accumulated from zero: entry (p, q) is the sum over k of
    x[p, k] · w[k, q]. -/
private theorem matmul_at (x : FVec Ideal S5000x64 .f32) (w : FVec Ideal S64x64 .f32) (p : Fin 5000) (q : Fin 64) :
    matmul dot_S5000x64_S64x64_S5000x64_1_0_0_1_n_n none x w (constant S5000x64 .f32 0x00000000#32) (ix2 p q)
      = ∑ k : Fin 64, x (ix2 p k) * w (ix2 k q) := by
  refine (Ideal.matmul_constant_zero_apply dot_S5000x64_S64x64_S5000x64_1_0_0_1_n_n none x w (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_mm_0 _ _
    | ⟨1, _⟩ => exact (lhs_mm_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_mm_0 _ _).trans hk
    | ⟨1, _⟩ => exact rhs_mm_1 _ _)
  rw [el, er]

/-! ## The body's arithmetic at an entry -/

/-- What the body stores at entry (p, q) of its block: the three products of a feature block with its weight slab,
    summed left to right, plus the bias row's entry q, then the maximum with zero. Each slab arrives as 1 × 64 × 64 and
    is read as 64 × 64; the bias row is repeated down the 5000 rows. -/
private theorem pay_at (x0 : Vec Ideal S5000x64 .f32) (w0 : Vec Ideal S1x64x64 .f32) (x1 : Vec Ideal S5000x64 .f32) (w1 : Vec Ideal S1x64x64 .f32)
    (x2 : Vec Ideal S5000x64 .f32) (w2 : Vec Ideal S1x64x64 .f32) (b : Vec Ideal S1x64 .f32) (p : Fin 5000) (q : Fin 64) :
    k1_pay1 x0 w0 x1 w1 x2 w2 b (ix2 p q)
      = max (((∑ k : Fin 64, x0 (ix2 p k) * w0 (ix3 (0 : Fin 1) k q) + ∑ k : Fin 64, x1 (ix2 p k) * w1 (ix3 (0 : Fin 1) k q))
          + ∑ k : Fin 64, x2 (ix2 p k) * w2 (ix3 (0 : Fin 1) k q)) + b (ix2 (0 : Fin 1) q)) 0 := by
  unfold k1_pay1
  rw [maximumf_apply, addf_apply, addf_apply, addf_apply, broadcast_apply]
  rw [shapeCast_self x0, shapeCast_self x1, shapeCast_self x2, shapeCast_self b]
  rw [matmul_at, matmul_at, matmul_at, broadcastTo_1b_ab_apply]
  simp only [shapeCast_1ab_ab_apply]
  rw [show (FloatOps.ofBits (F := Ideal) .f32 0x00000000#32) = (0 : EReal) from Ideal.ofBits_zero_f32]

/-! ## The three weight slabs, read out of the staged 3 × 64 × 64 array -/

/-- Slab s of the staged weights is loaded through the unit-stride box at offset (s, 0, 0) of sizes 1 × 64 × 64:
    its entry (0, k, q) is the array's entry (s, k, q). Slab 0: -/
private theorem ld_slab0 (x3 : Vec Ideal S3x64x64 .f32) (k q : Fin 64) :
    View.ld x3 r1_1 (ix3 (0 : Fin 1) k q) = x3 (ix3 (0 : Fin 3) k q) := by
  show x3 (r1_1.idx (ix3 (0 : Fin 1) k q)) = x3 (ix3 (0 : Fin 3) k q)
  refine congrArg x3 (funext fun a => Fin.ext ?_)
  match a with
  | ⟨0, _⟩ => rfl
  | ⟨1, _⟩ => show 0 + 1 * k.val = k.val; omega
  | ⟨2, _⟩ => show 0 + 1 * q.val = q.val; omega
/-- slab 1: -/
private theorem ld_slab1 (x3 : Vec Ideal S3x64x64 .f32) (k q : Fin 64) :
    View.ld x3 r1_2 (ix3 (0 : Fin 1) k q) = x3 (ix3 (1 : Fin 3) k q) := by
  show x3 (r1_2.idx (ix3 (0 : Fin 1) k q)) = x3 (ix3 (1 : Fin 3) k q)
  refine congrArg x3 (funext fun a => Fin.ext ?_)
  match a with
  | ⟨0, _⟩ => rfl
  | ⟨1, _⟩ => show 0 + 1 * k.val = k.val; omega
  | ⟨2, _⟩ => show 0 + 1 * q.val = q.val; omega
/-- slab 2. -/
private theorem ld_slab2 (x3 : Vec Ideal S3x64x64 .f32) (k q : Fin 64) :
    View.ld x3 r1_3 (ix3 (0 : Fin 1) k q) = x3 (ix3 (2 : Fin 3) k q) := by
  show x3 (r1_3.idx (ix3 (0 : Fin 1) k q)) = x3 (ix3 (2 : Fin 3) k q)
  refine congrArg x3 (funext fun a => Fin.ext ?_)
  match a with
  | ⟨0, _⟩ => rfl
  | ⟨1, _⟩ => show 0 + 1 * k.val = k.val; omega
  | ⟨2, _⟩ => show 0 + 1 * q.val = q.val; omega

/-! ## One entry of the block a point writes -/

/-- If row p of each staged feature block is row n of its array, the staged weights and bias are the whole arrays,
    then entry (p, q) of what the body stores is the layer's value at node n, feature q: the same three sums in
    the same order, the same bias entry, the same maximum with zero. -/
private theorem point_value (X P T : Cert.Spec.Snf.Idx → EReal) (W : Cert.Spec.Sw.Idx → EReal) (B : Cert.Spec.Sb.Idx → EReal)
    (x0 x1 x2 : Vec Ideal S5000x64 .f32) (x3 : Vec Ideal S3x64x64 .f32) (x4 : Vec Ideal S1x64 .f32)
    (n : Fin 50000) (f : Fin 64) (p : Fin 5000) (q : Fin 64) (hf : f.val = q.val)
    (h0 : ∀ k : Fin 64, x0 (ix2 p k) = X (ix2 n k))
    (h1 : ∀ k : Fin 64, x1 (ix2 p k) = P (ix2 n k))
    (h2 : ∀ k : Fin 64, x2 (ix2 p k) = T (ix2 n k))
    (h3 : ∀ (s : Fin 3) (k : Fin 64), x3 (ix3 s k q) = W (ix3 s k q))
    (h4 : x4 (ix2 (0 : Fin 1) q) = B (ix2 (0 : Fin 1) q)) :
    k1_pay1 x0 (View.ld x3 r1_1) x1 (View.ld x3 r1_2) x2 (View.ld x3 r1_3) x4 (ix2 p q)
      = max (Cert.Spec.chebAt X P T W B n f) 0 := by
  obtain rfl : q = f := (Fin.ext hf).symm
  rw [pay_at]
  unfold Cert.Spec.chebAt
  rw [h4]
  refine congrArg (fun s => max (s + B (ix2 (0 : Fin 1) q)) 0) ?_
  refine congrArg₂ (· + ·) (congrArg₂ (· + ·) ?_ ?_) ?_
  · exact Finset.sum_congr rfl fun k _ => by rw [h0 k, ld_slab0, h3]
  · exact Finset.sum_congr rfl fun k _ => by rw [h1 k, ld_slab1, h3]
  · exact Finset.sum_congr rfl fun k _ => by rw [h2 k, ld_slab2, h3]

/-! ## From one point's block to the array -/

private theorem hz2 : (![0, 0] : Fin 2 → Nat) = fun _ => 0 := funext fun a => by fin_cases a <;> rfl

/-- The block index maps over the ten grid points: the three feature windows and the output window take row block t
    at point t, column block 0; the weight and bias windows always take block 0. -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is row block t of the layer's value of the five arrays: entry (p, q) of the block sits
    at row 5000·t + p of each feature array and of the output, the weights and the bias are staged whole. -/
private theorem flushed_eq (c : Dev nD) (t : Fin cfg1.N) :
    (dat1 (F := Ideal) V c).flushed 5 t
      = ((cfg1.win 5).blk t).view.read (Elt Ideal)
          (Cert.Spec.chebRelu (V c main_v76) (V c main_v94) (V c main_v115) (V c main_arg6) (V c main_v116)) := by
  show (cfg1.win 5).cut (grid1.coords t) ((dat1 V c).after 5 t) = _
  rw [after1_5]
  unfold out1_5
  rw [View.canon_unit_zero hz2]
  simp only [View.ld_unit_zero (S := S5000x64) hz2, View.ld_unit_zero (S := S1x64) hz2]
  obtain ⟨e00, e01, e10, e11, e20, e21, e30, e31, e32, e40, e41, e50, e51⟩ := idx_facts t
  funext j
  obtain ⟨p, q, rfl⟩ : ∃ (p : Fin 5000) (q : Fin 64), j = ix2 p q := ⟨j 0, j 1, eq_ix2 j⟩
  show k1_pay1 (iblk1 V c 0 t) (View.ld (iblk1 V c 3 t) r1_1) (iblk1 V c 1 t) (View.ld (iblk1 V c 3 t) r1_2)
        (iblk1 V c 2 t) (View.ld (iblk1 V c 3 t) r1_3) (iblk1 V c 4 t) (ix2 p q)
      = max (Cert.Spec.chebAt (V c main_v76) (V c main_v94) (V c main_v115) (V c main_arg6) (V c main_v116)
          (((cfg1.win 5).blk t).view.emb (ix2 p q) 0) (((cfg1.win 5).blk t).view.emb (ix2 p q) 1)) 0
  refine point_value (V c main_v76) (V c main_v94) (V c main_v115) (V c main_arg6) (V c main_v116)
    (iblk1 V c 0 t) (iblk1 V c 1 t) (iblk1 V c 2 t) (iblk1 V c 3 t) (iblk1 V c 4 t)
    (((cfg1.win 5).blk t).view.emb (ix2 p q) 0) (((cfg1.win 5).blk t).view.emb (ix2 p q) 1) p q ?_ ?_ ?_ ?_ ?_ ?_
  · show win1_5.index t (1 : Fin 2) * 64 + 1 * q.val = q.val
    omega
  · intro k
    show V c main_v76 (((cfg1.win 0).blk t).view.emb (ix2 p k)) = V c main_v76 (ix2 (((cfg1.win 5).blk t).view.emb (ix2 p q) 0) k)
    refine congrArg (V c main_v76) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 64 + 1 * k.val = k.val; omega
  · intro k
    show V c main_v94 (((cfg1.win 1).blk t).view.emb (ix2 p k)) = V c main_v94 (ix2 (((cfg1.win 5).blk t).view.emb (ix2 p q) 0) k)
    refine congrArg (V c main_v94) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 64 + 1 * k.val = k.val; omega
  · intro k
    show V c main_v115 (((cfg1.win 2).blk t).view.emb (ix2 p k)) = V c main_v115 (ix2 (((cfg1.win 5).blk t).view.emb (ix2 p q) 0) k)
    refine congrArg (V c main_v115) (funext fun a => Fin.ext ?_)
    match a with
    | ⟨0, _⟩ => show win1_2.index t (0 : Fin 2) * 5000 + 1 * p.val = win1_5.index t (0 : Fin 2) * 5000 + 1 * p.val; omega
    | ⟨1, _⟩ => show win1_2.index t (1 : Fin 2) * 64 + 1 * k.val = k.val; omega
  · intro s k
    show V c main_arg6 (((cfg1.win 3).blk t).view.emb (ix3 s k q)) = V c main_arg6 (ix3 s k q)
    refine congrArg (V c main_arg6) (funext fun a => Fin.ext ?_)
    match a with
    | ⟨0, _⟩ => show win1_3.index t (0 : Fin 3) * 3 + 1 * s.val = s.val; omega
    | ⟨1, _⟩ => show win1_3.index t (1 : Fin 3) * 64 + 1 * k.val = k.val; omega
    | ⟨2, _⟩ => show win1_3.index t (2 : Fin 3) * 64 + 1 * q.val = q.val; omega
  · show V c main_v116 (((cfg1.win 4).blk t).view.emb (ix2 (0 : Fin 1) q)) = V c main_v116 (ix2 (0 : Fin 1) q)
    refine congrArg (V c main_v116) (funext fun a => Fin.ext ?_)
    match a with
    | ⟨0, _⟩ => show win1_4.index t (0 : Fin 2) * 1 + 1 * 0 = 0; omega
    | ⟨1, _⟩ => show win1_4.index t (1 : Fin 2) * 64 + 1 * q.val = q.val; omega

/-- An entry of the output array is in point t's block iff each coordinate lies in the block's range on its axis. -/
private theorem mem_blk (t : Fin cfg1.N) (i : S50000x64.Idx) :
    i ∈ ((cfg1.win 5).blk t).view.set
      ↔ ∀ a : Fin 2, win1_5.index t a * S5000x64.size a ≤ (i a).val ∧ (i a).val < win1_5.index t a * S5000x64.size a + S5000x64.size a := by
  show i ∈ ((View.whole main_v117).slice (win1_5.rect t)).set ↔ _
  rw [View.set_slice_whole, Rect.mem_set_unit]
  exact Iff.rfl

/-- The ten row blocks cover the array: row r is in the block of point r / 5000, and every point writes back. -/
private theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, -, -, -, -, -, e50, e51⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- After the second combine call the output array holds the layer's value of the five input arrays as the call
    found them: every row block of 5000 nodes is written once, with the layer's value on that block. -/
theorem final (c : Dev nD) :
    (dat1 (F := Ideal) V c).arrAt 5 cfg1.N
      = Cert.Spec.chebRelu (V c main_v76) (V c main_v94) (V c main_v115) (V c main_arg6) (V c main_v116) :=
  (dat1 (F := Ideal) V c).arrAt_eq_of_cover 5
    (Cert.Spec.chebRelu (V c main_v76) (V c main_v94) (V c main_v115) (V c main_arg6) (V c main_v116))
    (fun t _ => flushed_eq V c t) cover

end Cert.KernelIdeal.Cheb1

end
-- ==== Proof.Cheb2.lean ====
import proofs.«426765_j4844723109937_1_alg».proof.Proof.Gen.KernelIdeal.Frame
import proofs.«426765_j4844723109937_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat Cfg Window)

namespace Cert.KernelIdeal.Cheb2

open Cert.KernelIdeal Cert.KernelIdeal.Gen
open Idealize.ShloMosaic.ValueIdx
open scoped BigOperators

variable (V : (c : Dev nD) → (b : Ref sig .tc) → Buf (Elt Ideal) ((c : Thread nD τ).loc b))

/-! ## One matrix product at an entry -/

/-- The left operand's row coordinate is the result's row. -/
private theorem lhs_mm_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column coordinate is the summation index. -/
private theorem lhs_mm_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's row coordinate is the summation index. -/
private theorem rhs_mm_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- The right operand's column coordinate is the result's column. -/
private theorem rhs_mm_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A 5000 × 64 block times a 64 × 64 slab, accumulated from zero: entry (p, q) is the sum over k of
    x[p, k] · w[k, q]. -/
private theorem matmul_at (x : FVec Ideal S5000x64 .f32) (w : FVec Ideal S64x64 .f32) (p : Fin 5000) (q : Fin 64) :
    matmul dot_S5000x64_S64x64_S5000x64_1_0_0_1_n_n none x w (constant S5000x64 .f32 0x00000000#32) (ix2 p q)
      = ∑ k : Fin 64, x (ix2 p k) * w (ix2 k q) := by
  refine (Ideal.matmul_constant_zero_apply dot_S5000x64_S64x64_S5000x64_1_0_0_1_n_n none x w (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_mm_0 _ _
    | ⟨1, _⟩ => exact (lhs_mm_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_mm_0 _ _).trans hk
    | ⟨1, _⟩ => exact rhs_mm_1 _ _)
  rw [el, er]

/-! ## The body's arithmetic at an entry -/

/-- What the body stores at entry (p, q) of its block: the three products of a feature block with its weight slab,
    summed left to right, plus the bias row's entry q. Each slab arrives as 1 × 64 × 64 and is read as 64 × 64; the
    bias row is repeated down the 5000 rows. -/
private theorem pay_at (x0 : Vec Ideal S5000x64 .f32) (w0 : Vec Ideal S1x64x64 .f32) (x1 : Vec Ideal S5000x64 .f32) (w1 : Vec Ideal S1x64x64 .f32)
    (x2 : Vec Ideal S5000x64 .f32) (w2 : Vec Ideal S1x64x64 .f32) (b : Vec Ideal S1x64 .f32) (p : Fin 5000) (q : Fin 64) :
    k2_pay1 x0 w0 x1 w1 x2 w2 b (ix2 p q)
      = ((∑ k : Fin 64, x0 (ix2 p k) * w0 (ix3 (0 : Fin 1) k q) + ∑ k : Fin 64, x1 (ix2 p k) * w1 (ix3 (0 : Fin 1) k q))
          + ∑ k : Fin 64, x2 (ix2 p k) * w2 (ix3 (0 : Fin 1) k q)) + b (ix2 (0 : Fin 1) q) := by
  unfold k2_pay1
  rw [addf_apply, addf_apply, addf_apply]
  rw [shapeCast_self x0, shapeCast_self x1, shapeCast_self x2, shapeCast_self b]
  rw [matmul_at, matmul_at, matmul_at, broadcastTo_1b_ab_apply]
  simp only [shapeCast_1ab_ab_apply]

/-! ## The three weight slabs, read out of the staged 3 × 64 × 64 array -/

/-- Slab s of the staged weights is loaded through the unit-stride box at offset (s, 0, 0) of sizes 1 × 64 × 64:
    its entry (0, k, q) is the array's entry (s, k, q). Slab 0: -/
private theorem ld_slab0 (x3 : Vec Ideal S3x64x64 .f32) (k q : Fin 64) :
    View.ld x3 r2_1 (ix3 (0 : Fin 1) k q) = x3 (ix3 (0 : Fin 3) k q) := by
  show x3 (r2_1.idx (ix3 (0 : Fin 1) k q)) = x3 (ix3 (0 : Fin 3) k q)
  refine congrArg x3 (funext fun a => Fin.ext ?_)
  match a with
  | ⟨0, _⟩ => rfl
  | ⟨1, _⟩ => show 0 + 1 * k.val = k.val; omega
  | ⟨2, _⟩ => show 0 + 1 * q.val = q.val; omega
/-- slab 1: -/
private theorem ld_slab1 (x3 : Vec Ideal S3x64x64 .f32) (k q : Fin 64) :
    View.ld x3 r2_2 (ix3 (0 : Fin 1) k q) = x3 (ix3 (1 : Fin 3) k q) := by
  show x3 (r2_2.idx (ix3 (0 : Fin 1) k q)) = x3 (ix3 (1 : Fin 3) k q)
  refine congrArg x3 (funext fun a => Fin.ext ?_)
  match a with
  | ⟨0, _⟩ => rfl
  | ⟨1, _⟩ => show 0 + 1 * k.val = k.val; omega
  | ⟨2, _⟩ => show 0 + 1 * q.val = q.val; omega
/-- slab 2. -/
private theorem ld_slab2 (x3 : Vec Ideal S3x64x64 .f32) (k q : Fin 64) :
    View.ld x3 r2_3 (ix3 (0 : Fin 1) k q) = x3 (ix3 (2 : Fin 3) k q) := by
  show x3 (r2_3.idx (ix3 (0 : Fin 1) k q)) = x3 (ix3 (2 : Fin 3) k q)
  refine congrArg x3 (funext fun a => Fin.ext ?_)
  match a with
  | ⟨0, _⟩ => rfl
  | ⟨1, _⟩ => show 0 + 1 * k.val = k.val; omega
  | ⟨2, _⟩ => show 0 + 1 * q.val = q.val; omega

/-! ## One entry of the block a point writes -/

/-- If row p of each staged feature block is row n of its array, the staged weights and bias are the whole arrays,
    then entry (p, q) of what the body stores is the layer's value at node n, feature q: the same three sums in
    the same order and the same bias entry. -/
private theorem point_value (X P T : Cert.Spec.Snf.Idx → EReal) (W : Cert.Spec.Sw.Idx → EReal) (B : Cert.Spec.Sb.Idx → EReal)
    (x0 x1 x2 : Vec Ideal S5000x64 .f32) (x3 : Vec Ideal S3x64x64 .f32) (x4 : Vec Ideal S1x64 .f32)
    (n : Fin 50000) (f : Fin 64) (p : Fin 5000) (q : Fin 64) (hf : f.val = q.val)
    (h0 : ∀ k : Fin 64, x0 (ix2 p k) = X (ix2 n k))
    (h1 : ∀ k : Fin 64, x1 (ix2 p k) = P (ix2 n k))
    (h2 : ∀ k : Fin 64, x2 (ix2 p k) = T (ix2 n k))
    (h3 : ∀ (s : Fin 3) (k : Fin 64), x3 (ix3 s k q) = W (ix3 s k q))
    (h4 : x4 (ix2 (0 : Fin 1) q) = B (ix2 (0 : Fin 1) q)) :
    k2_pay1 x0 (View.ld x3 r2_1) x1 (View.ld x3 r2_2) x2 (View.ld x3 r2_3) x4 (ix2 p q)
      = Cert.Spec.chebAt X P T W B n f := by
  obtain rfl : q = f := (Fin.ext hf).symm
  rw [pay_at]
  unfold Cert.Spec.chebAt
  rw [h4]
  refine congrArg (fun s => s + B (ix2 (0 : Fin 1) q)) ?_
  refine congrArg₂ (· + ·) (congrArg₂ (· + ·) ?_ ?_) ?_
  · exact Finset.sum_congr rfl fun k _ => by rw [h0 k, ld_slab0, h3]
  · exact Finset.sum_congr rfl fun k _ => by rw [h1 k, ld_slab1, h3]
  · exact Finset.sum_congr rfl fun k _ => by rw [h2 k, ld_slab2, h3]

/-! ## From one point's block to the array -/

private theorem hz2 : (![0, 0] : Fin 2 → Nat) = fun _ => 0 := funext fun a => by fin_cases a <;> rfl

/-- The block index maps over the ten grid points: the three feature windows and the output window take row block t
    at point t, column block 0; the weight and bias windows always take block 0. -/
private theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 3) = 0 ∧ win2_3.index t (1 : Fin 3) = 0 ∧ win2_3.index t (2 : Fin 3) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is row block t of the layer's value of the five arrays: entry (p, q) of the block sits
    at row 5000·t + p of each feature array and of the output, the weights and the bias are staged whole. -/
private theorem flushed_eq (c : Dev nD) (t : Fin cfg2.N) :
    (dat2 (F := Ideal) V c).flushed 5 t
      = ((cfg2.win 5).blk t).view.read (Elt Ideal)
          (Cert.Spec.cheb (V c main_v117) (V c main_v135) (V c main_v156) (V c main_arg8) (V c main_v157)) := by
  show (cfg2.win 5).cut (grid2.coords t) ((dat2 V c).after 5 t) = _
  rw [after2_5]
  unfold out2_5
  rw [View.canon_unit_zero hz2]
  simp only [View.ld_unit_zero (S := S5000x64) hz2, View.ld_unit_zero (S := S1x64) hz2]
  obtain ⟨e00, e01, e10, e11, e20, e21, e30, e31, e32, e40, e41, e50, e51⟩ := idx_facts t
  funext j
  obtain ⟨p, q, rfl⟩ : ∃ (p : Fin 5000) (q : Fin 64), j = ix2 p q := ⟨j 0, j 1, eq_ix2 j⟩
  show k2_pay1 (iblk2 V c 0 t) (View.ld (iblk2 V c 3 t) r2_1) (iblk2 V c 1 t) (View.ld (iblk2 V c 3 t) r2_2)
        (iblk2 V c 2 t) (View.ld (iblk2 V c 3 t) r2_3) (iblk2 V c 4 t) (ix2 p q)
      = Cert.Spec.chebAt (V c main_v117) (V c main_v135) (V c main_v156) (V c main_arg8) (V c main_v157)
          (((cfg2.win 5).blk t).view.emb (ix2 p q) 0) (((cfg2.win 5).blk t).view.emb (ix2 p q) 1)
  refine point_value (V c main_v117) (V c main_v135) (V c main_v156) (V c main_arg8) (V c main_v157)
    (iblk2 V c 0 t) (iblk2 V c 1 t) (iblk2 V c 2 t) (iblk2 V c 3 t) (iblk2 V c 4 t)
    (((cfg2.win 5).blk t).view.emb (ix2 p q) 0) (((cfg2.win 5).blk t).view.emb (ix2 p q) 1) p q ?_ ?_ ?_ ?_ ?_ ?_
  · show win2_5.index t (1 : Fin 2) * 64 + 1 * q.val = q.val
    omega
  · intro k
    show V c main_v117 (((cfg2.win 0).blk t).view.emb (ix2 p k)) = V c main_v117 (ix2 (((cfg2.win 5).blk t).view.emb (ix2 p q) 0) k)
    refine congrArg (V c main_v117) (funext fun a => Fin.ext ?_)
    match a with
    | ⟨0, _⟩ => show win2_0.index t (0 : Fin 2) * 5000 + 1 * p.val = win2_5.index t (0 : Fin 2) * 5000 + 1 * p.val; omega
    | ⟨1, _⟩ => show win2_0.index t (1 : Fin 2) * 64 + 1 * k.val = k.val; omega
  · intro k
    show V c main_v135 (((cfg2.win 1).blk t).view.emb (ix2 p k)) = V c main_v135 (ix2 (((cfg2.win 5).blk t).view.emb (ix2 p q) 0) k)
    refine congrArg (V c main_v135) (funext fun a => Fin.ext ?_)
    match a with
    | ⟨0, _⟩ => show win2_1.index t (0 : Fin 2) * 5000 + 1 * p.val = win2_5.index t (0 : Fin 2) * 5000 + 1 * p.val; omega
    | ⟨1, _⟩ => show win2_1.index t (1 : Fin 2) * 64 + 1 * k.val = k.val; omega
  · intro k
    show V c main_v156 (((cfg2.win 2).blk t).view.emb (ix2 p k)) = V c main_v156 (ix2 (((cfg2.win 5).blk t).view.emb (ix2 p q) 0) k)
    refine congrArg (V c main_v156) (funext fun a => Fin.ext ?_)
    match a with
    | ⟨0, _⟩ => show win2_2.index t (0 : Fin 2) * 5000 + 1 * p.val = win2_5.index t (0 : Fin 2) * 5000 + 1 * p.val; omega
    | ⟨1, _⟩ => show win2_2.index t (1 : Fin 2) * 64 + 1 * k.val = k.val; omega
  · intro s k
    show V c main_arg8 (((cfg2.win 3).blk t).view.emb (ix3 s k q)) = V c main_arg8 (ix3 s k q)
    refine congrArg (V c main_arg8) (funext fun a => Fin.ext ?_)
    match a with
    | ⟨0, _⟩ => show win2_3.index t (0 : Fin 3) * 3 + 1 * s.val = s.val; omega
    | ⟨1, _⟩ => show win2_3.index t (1 : Fin 3) * 64 + 1 * k.val = k.val; omega
    | ⟨2, _⟩ => show win2_3.index t (2 : Fin 3) * 64 + 1 * q.val = q.val; omega
  · show V c main_v157 (((cfg2.win 4).blk t).view.emb (ix2 (0 : Fin 1) q)) = V c main_v157 (ix2 (0 : Fin 1) q)
    refine congrArg (V c main_v157) (funext fun a => Fin.ext ?_)
    match a with
    | ⟨0, _⟩ => show win2_4.index t (0 : Fin 2) * 1 + 1 * 0 = 0; omega
    | ⟨1, _⟩ => show win2_4.index t (1 : Fin 2) * 64 + 1 * q.val = q.val; omega

/-- An entry of the output array is in point t's block iff each coordinate lies in the block's range on its axis. -/
private theorem mem_blk (t : Fin cfg2.N) (i : S50000x64.Idx) :
    i ∈ ((cfg2.win 5).blk t).view.set
      ↔ ∀ a : Fin 2, win2_5.index t a * S5000x64.size a ≤ (i a).val ∧ (i a).val < win2_5.index t a * S5000x64.size a + S5000x64.size a := by
  show i ∈ ((View.whole main_v158).slice (win2_5.rect t)).set ↔ _
  rw [View.set_slice_whole, Rect.mem_set_unit]
  exact Iff.rfl

/-- The ten row blocks cover the array: row r is in the block of point r / 5000, and every point writes back. -/
private theorem cover (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  obtain ⟨t, ht⟩ : ∃ t : Fin cfg2.N, t.val = (i 0).val / 5000 :=
    ⟨⟨(i 0).val / 5000, by rw [show cfg2.N = 10 from N_2]; omega⟩, rfl⟩
  obtain ⟨-, -, -, -, -, -, -, -, -, -, -, e50, e51⟩ := idx_facts t
  refine ⟨t, flush2_5 t, ?_⟩
  rw [mem_blk]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 64 ≤ (i 1).val ∧ (i 1).val < win2_5.index t (1 : Fin 2) * 64 + 64
    omega

/-- After the third combine call the output array holds the layer's value of the five input arrays as the call
    found them: every row block of 5000 nodes is written once, with the layer's value on that block. -/
theorem final (c : Dev nD) :
    (dat2 (F := Ideal) V c).arrAt 5 cfg2.N
      = Cert.Spec.cheb (V c main_v117) (V c main_v135) (V c main_v156) (V c main_arg8) (V c main_v157) :=
  (dat2 (F := Ideal) V c).arrAt_eq_of_cover 5
    (Cert.Spec.cheb (V c main_v117) (V c main_v135) (V c main_v156) (V c main_arg8) (V c main_v157))
    (fun t _ => flushed_eq V c t) cover

end Cert.KernelIdeal.Cheb2

end
-- ==== Proof.PoolK.lean ====
import proofs.«426765_j4844723109937_1_alg».proof.Proof.Gen.KernelIdeal.Frame
import proofs.«426765_j4844723109937_1_alg».proof.Proof.Spec
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

open Idealize.ShloMosaic Idealize.ShloMosaic.TcCoe Idealize.SL.Sem
open Idealize.ShloMosaic.Pipeline (Dat Cfg Window)

namespace Cert.KernelIdeal.PoolK

open Cert.KernelIdeal Cert.KernelIdeal.Gen
open Idealize.ShloMosaic.ValueIdx
open scoped BigOperators

variable (V : (c : Dev nD) → (b : Ref sig .tc) → Buf (Elt Ideal) ((c : Thread nD τ).loc b))

/-! ## The contraction over the rows: which entries of the two operands a product reads -/

/-- At entry i = (g, f) and row q the left operand is read at (q, g) and the right at (q, f): axis by axis. -/
theorem lhs_pool_0 (i : S64x64.Idx) (q : dot_S5000x64_S5000x64_S64x64_0_0_1_1_n_n.contr.Idx) :
    (dot_S5000x64_S5000x64_S64x64_0_0_1_1_n_n.lhsIdx i q 0).val = (q ⟨0, by decide⟩).val :=
  dot_S5000x64_S5000x64_S64x64_0_0_1_1_n_n.lhsIdx_val_of_single rfl i q
theorem lhs_pool_1 (i : S64x64.Idx) (q : dot_S5000x64_S5000x64_S64x64_0_0_1_1_n_n.contr.Idx) :
    (dot_S5000x64_S5000x64_S64x64_0_0_1_1_n_n.lhsIdx i q 1).val = (i 0).val := by
  unfold DotDims.lhsIdx
  rw [dif_neg (show ¬(1 : Fin S5000x64.rank) ∈ dot_S5000x64_S5000x64_S64x64_0_0_1_1_n_n.lhsBatch by decide), dif_pos (show (1 : Fin S5000x64.rank) ∈ dot_S5000x64_S5000x64_S64x64_0_0_1_1_n_n.lhsNonContracting by decide)]
  rfl
theorem rhs_pool_0 (i : S64x64.Idx) (q : dot_S5000x64_S5000x64_S64x64_0_0_1_1_n_n.contr.Idx) :
    (dot_S5000x64_S5000x64_S64x64_0_0_1_1_n_n.rhsIdx i q 0).val = (q ⟨0, by decide⟩).val :=
  dot_S5000x64_S5000x64_S64x64_0_0_1_1_n_n.rhsIdx_val_of_single rfl i q
theorem rhs_pool_1 (i : S64x64.Idx) (q : dot_S5000x64_S5000x64_S64x64_0_0_1_1_n_n.contr.Idx) :
    (dot_S5000x64_S5000x64_S64x64_0_0_1_1_n_n.rhsIdx i q 1).val = (i 1).val := by
  unfold DotDims.rhsIdx
  rw [dif_neg (show ¬(1 : Fin S5000x64.rank) ∈ dot_S5000x64_S5000x64_S64x64_0_0_1_1_n_n.rhsBatch by decide), dif_pos (show (1 : Fin S5000x64.rank) ∈ dot_S5000x64_S5000x64_S64x64_0_0_1_1_n_n.rhsNonContracting by decide)]
  rfl

/-- The product of two 5000 × 64 blocks contracted over their rows, into zero: entry (g, f) is the sum over the rows l
    of L(l, g) · R(l, f). -/
theorem matmul_rows_apply (L R : FVec Ideal S5000x64 .f32) (g f : Fin 64) :
    matmul dot_S5000x64_S5000x64_S64x64_0_0_1_1_n_n none L R (constant S64x64 .f32 0x00000000#32) (ix2 g f)
      = ∑ l : Fin 5000, L (ix2 l g) * R (ix2 l f) := by
  simp only [matmul]
  rw [Ideal.matmul_constant_zero_apply, ← Equiv.sum_comp (contrEquiv1 dot_S5000x64_S5000x64_S64x64_0_0_1_1_n_n 5000 rfl rfl).symm]
  refine Finset.sum_congr rfl fun k _ => ?_
  have hk := contrEquiv1_symm_val dot_S5000x64_S5000x64_S64x64_0_0_1_1_n_n 5000 rfl rfl k
  have el : dot_S5000x64_S5000x64_S64x64_0_0_1_1_n_n.lhsIdx (ix2 g f) ((contrEquiv1 dot_S5000x64_S5000x64_S64x64_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x64_S5000x64_S64x64_0_0_1_1_n_n.rhsIdx (ix2 g f) ((contrEquiv1 dot_S5000x64_S5000x64_S64x64_0_0_1_1_n_n 5000 rfl rfl).symm k) = ix2 k f := funext fun a => Fin.ext (by
    match a with
    | ⟨0, _⟩ => exact (rhs_pool_0 _ _).trans hk
    | ⟨1, _⟩ => exact rhs_pool_1 _ _)
  rw [el, er]

/-! ## The one-hot factor: a compare of words, widened and converted, is 1 or 0 -/

/-- For a graph id g below 64 a 32-bit word is the word of g exactly when it reads g as a signed integer. -/
theorem word_eq_iff (b : BitVec 32) (g : Fin 64) : b = BitVec.ofNat 32 g.val ↔ b.toInt = (g.val : ℤ) := by
  have hg : g.val < 64 := g.isLt
  constructor
  · rintro rfl
    rw [BitVec.toInt_eq_toNat_of_lt (by rw [BitVec.toNat_ofNat]; omega), BitVec.toNat_ofNat]
    congr 1
    omega
  · intro h
    have e : BitVec.ofInt 32 b.toInt = b := BitVec.ofInt_toInt
    rw [← e, h, BitVec.ofInt_natCast]

/-- The compare's bit widened to a word and converted, over the extended reals: 1 where the word reads g, else 0. -/
theorem onehot_word (b : BitVec 32) (g : Fin 64) :
    FloatOps.sitofp (F := Ideal) .f32 ((IntOp.cmpi .eq b (BitVec.ofNat 32 g.val)).setWidth 32)
      = if b.toInt = (g.val : ℤ) then (1 : EReal) else 0 := by
  show (((((IntOp.cmpi .eq b (BitVec.ofNat 32 g.val)).setWidth 32).toInt : ℤ) : ℝ) : EReal) = _
  by_cases h : b = BitVec.ofNat 32 g.val
  · rw [if_pos ((word_eq_iff b g).mp h)]
    have e : IntOp.cmpi .eq b (BitVec.ofNat 32 g.val) = 1#1 := by
      unfold IntOp.cmpi; rw [h]; simp
    rw [e]
    simp
  · rw [if_neg (fun h' => h ((word_eq_iff b g).mpr h'))]
    have e : IntOp.cmpi .eq b (BitVec.ofNat 32 g.val) = 0#1 := by
      unfold IntOp.cmpi
      show BitVec.ofBool (b == BitVec.ofNat 32 g.val) = 0#1
      rw [beq_eq_false_iff_ne.mpr h]; rfl
    rw [e]
    simp

/-! ## The body's update at an entry -/

/-- The id column broadcast along the features reads the row's id. -/
theorem bcast_col_apply (x : IVec S5000x1 32) (h : S5000x1.Broadcasts S5000x64) (l : Fin 5000) (g : Fin 64) :
    broadcastTo S5000x64 x h (ix2 l g) = x (ix2 l 0) :=
  broadcastTo_apply x h (ix2 l g) (ix2 l 0) (fun a => by
    match a with
    | ⟨0, _⟩ => rfl
    | ⟨1, _⟩ => rfl)

/-- The feature counter reads the feature's word. -/
theorem iota_col_apply (h : S5000x64.Iotas .tc 32 [1]) (l : Fin 5000) (g : Fin 64) :
    iota .tc S5000x64 32 [1] h (ix2 l g) = BitVec.ofNat 32 g.val :=
  iota_single_apply .tc S5000x64 32 1 h (ix2 l g)

/-- What a grid point stores, at entry (g, f): what the block held there plus, over the point's 5000 rows, the
    features of the rows whose id word reads g. -/
theorem pay2_apply (v3 : Vec Ideal S5000x1 .i32) (v5 : Vec Ideal S5000x64 .f32) (v13 : Vec Ideal S64x64 .f32) (g f : Fin 64) :
    k3_pay2 (F := Ideal) v3 v5 v13 (ix2 g f)
      = v13 (ix2 g f) + ∑ l : Fin 5000, (if (v3 (ix2 l 0)).toInt = (g.val : ℤ) then v5 (ix2 l f) else 0) := by
  unfold k3_pay2
  refine (addf_apply _ _ (ix2 g f)).trans ?_
  rw [shapeCast_self, shapeCast_self, shapeCast_self]
  refine congrArg (v13 (ix2 g f) + ·) ?_
  refine (matmul_rows_apply _ _ g f).trans ?_
  refine Finset.sum_congr rfl fun l _ => ?_
  have e : (sitofp .f32 (extui 32 (cmpi .eq (broadcastTo S5000x64 v3 broadcasts_S5000x1_S5000x64) (iota .tc S5000x64 32 [1] iota_S5000x64_d1_w32)) natLt_1_32) : FVec Ideal S5000x64 .f32) (ix2 l g)
      = if (v3 (ix2 l 0)).toInt = (g.val : ℤ) then (1 : EReal) else 0 := by
    show FloatOps.sitofp (F := Ideal) .f32 ((IntOp.cmpi .eq (broadcastTo S5000x64 v3 broadcasts_S5000x1_S5000x64 (ix2 l g)) (iota .tc S5000x64 32 [1] iota_S5000x64_d1_w32 (ix2 l g))).setWidth 32) = _
    rw [bcast_col_apply, iota_col_apply]
    exact onehot_word _ g
  rw [e]
  split
  · exact one_mul _
  · exact zero_mul _

section Pieces
variable {F : FTy → Type} [FloatOps F]

/-- The offsets of an access to a whole block are zero on both axes. -/
theorem hz : (![0, 0] : Fin 2 → Nat) = fun _ => 0 := funext fun a => by fin_cases a <;> rfl

/-- Away from the first point the body leaves, in the output block holding `xo`, its update of `xo` by the point's
    blocks: one store of the whole block, whose loads read the whole buffers. -/
theorem out_B (c : Dev nD) (i : grid3.Coords) (a1 : Memref sig .tc .vmem S5000x1 .i32) (h1 : a1.IsWhole)
    (a2 : Memref sig .tc .vmem S5000x64 .f32) (h2 : a2.IsWhole) (a3 : Memref sig .tc .vmem S64x64 .f32) (h3 : a3.IsWhole)
    (hc : ¬cond3_0 i) (x0 : Vec F S5000x1 .i32) (x1 : Vec F S5000x64 .f32) (xo : Vec F S64x64 .f32) :
    out3_B_2 c i a1 h1 a2 h2 a3 h3 hc x0 x1 xo = k3_pay2 x0 x1 xo := by
  unfold out3_B_2
  rw [View.read_writes_eq_canon _ _ _ (cover3_B_2 c i a1 h1 a2 h2 a3 h3 hc x0 x1 xo)]
  unfold kernelRun3_B
  dsimp only
  sl_unfold_words
  rw [View.canon_unit_zero hz]
  simp only [View.readAt_eq_ld, h1.read_unread, h2.read_unread, h3.read_unread, View.ld_unit_zero (S := S5000x1) hz,
    View.ld_unit_zero (S := S5000x64) hz, View.ld_unit_zero (S := S64x64) hz]

/-- At the first point the body stores the zero block, reads it back, and leaves its update of the zero block by the
    point's blocks. -/
theorem out_A (c : Dev nD) (i : grid3.Coords) (a1 : Memref sig .tc .vmem S5000x1 .i32) (h1 : a1.IsWhole)
    (a2 : Memref sig .tc .vmem S5000x64 .f32) (h2 : a2.IsWhole) (a3 : Memref sig .tc .vmem S64x64 .f32) (h3 : a3.IsWhole)
    (hc : cond3_0 i) (x0 : Vec F S5000x1 .i32) (x1 : Vec F S5000x64 .f32) :
    out3_A_2 c i a1 h1 a2 h2 a3 h3 hc x0 x1 = k3_pay2 x0 x1 (k3_pay1 (F := F)) := by
  unfold out3_A_2
  rw [View.read_writes_eq_canon _ _ _ (cover3_A_2 c i a1 h1 a2 h2 a3 h3 hc x0 x1)]
  unfold kernelRun3_A
  dsimp only
  sl_unfold_words
  rw [View.canon_cons_unit_zero (S := S64x64) hz, View.readCov_unit_zero (S := S64x64) _ hz]
  simp only [View.readAt_eq_ld, h1.read_unread, h2.read_unread, View.ld_unit_zero (S := S5000x1) hz,
    View.ld_unit_zero (S := S5000x64) hz]

end Pieces

/-! ## The blocks a point stages are rows of the arrays -/

section Blocks
/-- The column of graph ids and the node features, as the call finds them. -/
abbrev idArr (c : Dev nD) : Vec Ideal S50000x1 .i32 := V c main_v159
abbrev hArr (c : Dev nD) : Vec Ideal S50000x64 .f32 := V c main_v158
/-- Point t's block of each: rows 5000·t … 5000·t + 4999. -/
abbrev idBlk (c : Dev nD) (t : Fin cfg3.N) : Vec Ideal S5000x1 .i32 := iblk3 (F := Ideal) V c 0 t
abbrev hBlk (c : Dev nD) (t : Fin cfg3.N) : Vec Ideal S5000x64 .f32 := iblk3 (F := Ideal) V c 1 t

/-- The block index of both input windows at point t is (t, 0). -/
theorem idx_in : ∀ t : Fin cfg3.N, win3_0.index t (0 : Fin 2) = t.val ∧ win3_0.index t (1 : Fin 2) = 0
      ∧ win3_1.index t (0 : Fin 2) = t.val ∧ win3_1.index t (1 : Fin 2) = 0 :=
  (by decide +kernel : ∀ t : Fin grid3.N, win3_0.index t (0 : Fin 2) = t.val ∧ win3_0.index t (1 : Fin 2) = 0
      ∧ win3_1.index t (0 : Fin 2) = t.val ∧ win3_1.index t (1 : Fin 2) = 0)

/-- Entry l of point t's block of ids is row 5000·t + l of the column. -/
theorem idBlk_apply (c : Dev nD) (t : Fin cfg3.N) (l : Fin 5000) (hb : 5000 * t.val + l.val < 50000) :
    idBlk V c t (ix2 l 0) = idArr V c (ix2 ⟨5000 * t.val + l.val, hb⟩ 0) := by
  show V c main_v159 (((cfg3.win 0).blk t).view.emb (ix2 l 0)) = V c main_v159 _
  refine congrArg (V c main_v159) (funext fun a => Fin.ext ?_)
  match a with
  | ⟨0, _⟩ => show win3_0.index t (0 : Fin 2) * 5000 + 1 * l.val = 5000 * t.val + l.val; rw [(idx_in t).1]; omega
  | ⟨1, _⟩ => show win3_0.index t (1 : Fin 2) * 1 + 1 * 0 = 0; rw [(idx_in t).2.1]

/-- Entry (l, f) of point t's block of features is entry (5000·t + l, f) of the array. -/
theorem hBlk_apply (c : Dev nD) (t : Fin cfg3.N) (l : Fin 5000) (f : Fin 64) (hb : 5000 * t.val + l.val < 50000) :
    hBlk V c t (ix2 l f) = hArr V c (ix2 ⟨5000 * t.val + l.val, hb⟩ f) := by
  show V c main_v158 (((cfg3.win 1).blk t).view.emb (ix2 l f)) = V c main_v158 _
  refine congrArg (V c main_v158) (funext fun a => Fin.ext ?_)
  match a with
  | ⟨0, _⟩ => show win3_1.index t (0 : Fin 2) * 5000 + 1 * l.val = 5000 * t.val + l.val; rw [(idx_in t).2.2.1]; omega
  | ⟨1, _⟩ => show win3_1.index t (1 : Fin 2) * 64 + 1 * f.val = f.val; rw [(idx_in t).2.2.2]; omega

end Blocks

/-! ## The running sum over the grid -/

section Sum

/-- Row j's share of entry (g, f): its feature f when its id word reads g, else nothing; nothing past the last row. -/
def rowTerm (B : Cert.Spec.Sn1.Idx → BitVec 32) (H : Cert.Spec.Snf.Idx → EReal) (g f : Fin 64) (j : ℕ) : EReal :=
  if h : j < 50000 then (if (B (ix2 ⟨j, h⟩ (0 : Fin 1))).toInt = (g.val : ℤ) then H (ix2 ⟨j, h⟩ f) else 0) else 0

/-- All 50000 shares together are the entry of the per-graph sums. -/
theorem sum_all (B : Cert.Spec.Sn1.Idx → BitVec 32) (H : Cert.Spec.Snf.Idx → EReal) (g f : Fin 64) :
    ∑ j ∈ Finset.range 50000, rowTerm B H g f j = Cert.Spec.poolAt B H g f := by
  rw [Finset.sum_range]
  unfold Cert.Spec.poolAt
  refine Finset.sum_congr rfl fun n _ => ?_
  unfold rowTerm
  rw [dif_pos n.isLt]

/-- What point t adds to entry (g, f) is the shares of rows 5000·t … 5000·t + 4999. -/
theorem point_sum (c : Dev nD) (t : Fin cfg3.N) (g f : Fin 64) :
    ∑ l : Fin 5000, (if (idBlk V c t (ix2 l 0)).toInt = (g.val : ℤ) then hBlk V c t (ix2 l f) else 0)
      = ∑ x ∈ Finset.range 5000, rowTerm (idArr V c) (hArr V c) g f (5000 * t.val + x) := by
  have hN : t.val < 10 := lt_of_lt_of_eq t.isLt (show cfg3.N = 10 from N_3)
  rw [Finset.sum_range]
  refine Finset.sum_congr rfl fun l _ => ?_
  have hb : 5000 * t.val + l.val < 50000 := by have := l.isLt; omega
  unfold rowTerm
  rw [dif_pos hb, idBlk_apply V c t l hb, hBlk_apply V c t l f hb]

/-- After point n the output block holds, at (g, f), the shares of the rows below 5000·(n + 1): the first point starts
    from the zero block, every later point adds its rows to what the point before left. -/
theorem outsAt_sum (c : Dev nD) : ∀ (n : ℕ) (h : n < cfg3.N) (g f : Fin 64),
    outsAt3 (F := Ideal) V c n h (ix2 g f) = ∑ j ∈ Finset.range (5000 * (n + 1)), rowTerm (idArr V c) (hArr V c) g f j
  | 0, h, g, f => by
    rw [outsAt3_A V c ⟨0, h⟩ rfl]
    refine (congrFun (out_A (F := Ideal) c (grid3.coords ⟨0, h⟩) (ms3_0 ⟨0, h⟩) (hs3_0 ⟨0, h⟩) (ms3_1 ⟨0, h⟩) (hs3_1 ⟨0, h⟩)
      (ms3_2 ⟨0, h⟩) (hs3_2 ⟨0, h⟩) ((hcond3_0 ⟨0, h⟩).mpr rfl) (idBlk V c ⟨0, h⟩) (hBlk V c ⟨0, h⟩)) (ix2 g f)).trans ?_
    refine (pay2_apply (idBlk V c ⟨0, h⟩) (hBlk V c ⟨0, h⟩) (k3_pay1 (F := Ideal)) g f).trans ?_
    rw [point_sum V c ⟨0, h⟩ g f]
    show Ideal.ofBits .f32 0x00000000#32 + _ = _
    rw [Ideal.ofBits_zero_f32, zero_add]
    refine Finset.sum_congr rfl fun x _ => ?_
    show rowTerm (idArr V c) (hArr V c) g f (5000 * 0 + x) = _
    rw [Nat.mul_zero, Nat.zero_add]
  | n + 1, h, g, f => by
    have hN : cfg3.N = 10 := N_3
    have hB : ¬(⟨n + 1, h⟩ : Fin cfg3.N).val % 10 = 0 := by dsimp only; omega
    rw [outsAt3_B V c ⟨n + 1, h⟩ hB]
    refine (congrFun (out_B (F := Ideal) c (grid3.coords ⟨n + 1, h⟩) (ms3_0 ⟨n + 1, h⟩) (hs3_0 ⟨n + 1, h⟩) (ms3_1 ⟨n + 1, h⟩)
      (hs3_1 ⟨n + 1, h⟩) (ms3_2 ⟨n + 1, h⟩) (hs3_2 ⟨n + 1, h⟩) (fun h' => hB ((hcond3_0 ⟨n + 1, h⟩).mp h'))
      (idBlk V c ⟨n + 1, h⟩) (hBlk V c ⟨n + 1, h⟩) (outsAt3 V c n (Nat.lt_of_succ_lt h))) (ix2 g f)).trans ?_
    refine (pay2_apply (idBlk V c ⟨n + 1, h⟩) (hBlk V c ⟨n + 1, h⟩) (outsAt3 V c n (Nat.lt_of_succ_lt h)) g f).trans ?_
    rw [outsAt_sum c n (Nat.lt_of_succ_lt h) g f, point_sum V c ⟨n + 1, h⟩ g f,
      show 5000 * (n + 1 + 1) = 5000 * (n + 1) + 5000 from by omega, Finset.sum_range_add]

/-- After the last point the block is the per-graph sums. -/
theorem outsAt_last (c : Dev nD) (t : Fin cfg3.N) (h9 : t.val = 9) :
    outsAt3 (F := Ideal) V c t.val t.isLt = Cert.Spec.pool (V c main_v159) (V c main_v158) := by
  funext i
  obtain ⟨g, f, rfl⟩ : ∃ (g f : Fin 64), i = ix2 g f := ⟨i 0, i 1, eq_ix2 i⟩
  rw [outsAt_sum V c t.val t.isLt g f, h9]
  exact sum_all _ _ g f

end Sum

/-! ## From the block to the array -/

/-- The output block is written back once, after the last point; its index is (0, 0) and it is the whole array. -/
theorem flushed_eq (c : Dev nD) (t : Fin cfg3.N) (hf : (cfg3.win 2).flush t = true) :
    (dat3 (F := Ideal) V c).flushed 2 t
      = ((cfg3.win 2).blk t).view.read (Elt Ideal) (Cert.Spec.pool (V c main_v159) (V c main_v158)) := by
  have hN : cfg3.N = 10 := N_3
  have h9 : t.val = 9 := by have := (flush3_2 t).mp hf; have := t.isLt; omega
  obtain rfl : t = t3_9 := Fin.ext h9
  show (cfg3.win 2).cut (grid3.coords t3_9) ((dat3 V c).after 2 t3_9) = _
  rw [after3_2, outsAt_last V c t3_9 h9]
  have hz' : (fun a => win3_2.index t3_9 a * main_v160.ty.shape.size a) = fun _ => 0 := funext fun a => by fin_cases a <;> decide
  exact (Memref.read_access_unit_zero (Elt Ideal) main_v160 hz' (fun a => by rw [congrFun hz' a]; simp)
    (Cert.Spec.pool (V c main_v159) (V c main_v158))).symm

/-- After the pooling call the 64 × 64 output array holds, for every graph id g and feature f, the sum of the node
    rows whose id word is g: the ten grid points add their blocks' contributions to a running sum that the first
    point starts from zero. -/
theorem final (c : Dev nD) :
    (dat3 (F := Ideal) V c).arrAt 2 cfg3.N = Cert.Spec.pool (V c main_v159) (V c main_v158) :=
  (dat3 (F := Ideal) V c).arrAt_eq_of_cover 2 (Cert.Spec.pool (V c main_v159) (V c main_v158)) (flushed_eq V c) fun i =>
    ⟨t3_9, (flush3_2 t3_9).mpr rfl, by
      show i ∈ ((View.whole main_v160).slice (win3_2.rect t3_9)).set
      rw [View.set_slice_whole, Rect.mem_set_unit]
      intro a
      have h0 : (i 0 : Nat) < 64 := (i 0).isLt
      have h1 : (i 1 : Nat) < 64 := (i 1).isLt
      match a with
      | ⟨0, _⟩ =>
        show win3_2.index t3_9 0 * win3_2.size 0 ≤ (i 0 : Nat) ∧ (i 0 : Nat) < win3_2.index t3_9 0 * win3_2.size 0 + win3_2.xsize (grid3.coords t3_9) 0
        rw [show win3_2.index t3_9 0 * win3_2.size 0 = 0 from by decide +kernel, show win3_2.xsize (grid3.coords t3_9) 0 = 64 from by decide +kernel]; omega
      | ⟨1, _⟩ =>
        show win3_2.index t3_9 1 * win3_2.size 1 ≤ (i 1 : Nat) ∧ (i 1 : Nat) < win3_2.index t3_9 1 * win3_2.size 1 + win3_2.xsize (grid3.coords t3_9) 1
        rw [show win3_2.index t3_9 1 * win3_2.size 1 = 0 from by decide +kernel, show win3_2.xsize (grid3.coords t3_9) 1 = 64 from by decide +kernel]; omega⟩

end Cert.KernelIdeal.PoolK

end
-- ==== Proof.KChain.lean ====
/-
  The kernel program's buffers at the boundaries of its segments, as functions of the fourteen inputs.

  The run's buffer contents at each boundary are a fold through @main: host stretches apply their operations, a
  pallas_call region replaces its arrays by what its pipeline leaves. Reading that fold from the launch memory forward:
  before the first combine call the host has computed the edge weights, one propagation step of the features and the
  third Chebyshev term; the call leaves the first layer; the next stretch does the same with that layer, and so on
  through three layers; the pooling call leaves the per-graph sums; the tail leaves the result.
-/
import proofs.«426765_j4844723109937_1_alg».proof.Proof.Gen.KernelIdeal.Frame
import proofs.«426765_j4844723109937_1_alg».proof.Proof.KStages
import proofs.«426765_j4844723109937_1_alg».proof.Proof.Net
import proofs.«426765_j4844723109937_1_alg».proof.Proof.Cheb0
import proofs.«426765_j4844723109937_1_alg».proof.Proof.Cheb1
import proofs.«426765_j4844723109937_1_alg».proof.Proof.Cheb2
import proofs.«426765_j4844723109937_1_alg».proof.Proof.PoolK

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.KernelIdeal.HostFns Cert.KernelIdeal.Stages

variable (m : (ℓ : Loc nD τ sig) → Buf (Elt Ideal) ℓ) (ρ : Dev nD → PrngReg) (c : Dev nD)

/-! ## At the first combine call's entry -/

theorem W5_v53 : W5 m ρ c (Proc.devRef .tc main_v53) = prop (F := Ideal) (m ((c : Thread nD τ).loc main_arg1)) (m ((c : Thread nD τ).loc main_arg2)) (m ((c : Thread nD τ).loc main_arg0)) := entry0_v53 (W0 m ρ c)
theorem W5_v74 : W5 m ρ c (Proc.devRef .tc main_v74) = t2 (F := Ideal) (m ((c : Thread nD τ).loc main_arg1)) (m ((c : Thread nD τ).loc main_arg2)) (m ((c : Thread nD τ).loc main_arg0)) := entry0_v74 (W0 m ρ c)
theorem W5_v75 : W5 m ρ c (Proc.devRef .tc main_v75) = biasRow (F := Ideal) (m ((c : Thread nD τ).loc main_arg5)) := entry0_v75 (W0 m ρ c)
theorem W5_v1 : W5 m ρ c (Proc.devRef .tc main_v1) = row (m ((c : Thread nD τ).loc main_arg1)) := entry0_v1 (W0 m ρ c)
theorem W5_v3 : W5 m ρ c (Proc.devRef .tc main_v3) = col (m ((c : Thread nD τ).loc main_arg1)) := entry0_v3 (W0 m ρ c)
theorem W5_v35 : W5 m ρ c (Proc.devRef .tc main_v35) = edgeW (F := Ideal) (m ((c : Thread nD τ).loc main_arg1)) (m ((c : Thread nD τ).loc main_arg2)) := entry0_v35 (W0 m ρ c)
theorem W5_arg0 : W5 m ρ c (Proc.devRef .tc main_arg0) = (m ((c : Thread nD τ).loc main_arg0)) := entry0_kept (W0 m ρ c) main_arg0 (by decide)
theorem W5_arg3 : W5 m ρ c (Proc.devRef .tc main_arg3) = (m ((c : Thread nD τ).loc main_arg3)) := entry0_kept (W0 m ρ c) main_arg3 (by decide)
theorem W5_arg4 : W5 m ρ c (Proc.devRef .tc main_arg4) = (m ((c : Thread nD τ).loc main_arg4)) := entry0_kept (W0 m ρ c) main_arg4 (by decide)
theorem W5_arg6 : W5 m ρ c (Proc.devRef .tc main_arg6) = (m ((c : Thread nD τ).loc main_arg6)) := entry0_kept (W0 m ρ c) main_arg6 (by decide)
theorem W5_arg7 : W5 m ρ c (Proc.devRef .tc main_arg7) = (m ((c : Thread nD τ).loc main_arg7)) := entry0_kept (W0 m ρ c) main_arg7 (by decide)
theorem W5_arg8 : W5 m ρ c (Proc.devRef .tc main_arg8) = (m ((c : Thread nD τ).loc main_arg8)) := entry0_kept (W0 m ρ c) main_arg8 (by decide)
theorem W5_arg9 : W5 m ρ c (Proc.devRef .tc main_arg9) = (m ((c : Thread nD τ).loc main_arg9)) := entry0_kept (W0 m ρ c) main_arg9 (by decide)
theorem W5_arg10 : W5 m ρ c (Proc.devRef .tc main_arg10) = (m ((c : Thread nD τ).loc main_arg10)) := entry0_kept (W0 m ρ c) main_arg10 (by decide)
theorem W5_arg11 : W5 m ρ c (Proc.devRef .tc main_arg11) = (m ((c : Thread nD τ).loc main_arg11)) := entry0_kept (W0 m ρ c) main_arg11 (by decide)
theorem W5_arg12 : W5 m ρ c (Proc.devRef .tc main_arg12) = (m ((c : Thread nD τ).loc main_arg12)) := entry0_kept (W0 m ρ c) main_arg12 (by decide)
theorem W5_arg13 : W5 m ρ c (Proc.devRef .tc main_arg13) = (m ((c : Thread nD τ).loc main_arg13)) := entry0_kept (W0 m ρ c) main_arg13 (by decide)

/-! ## The first combine call, and the stretch after it -/

/-- The first call leaves the first layer. -/
theorem W6_v76 : W6 m ρ c (Proc.devRef .tc main_v76) = (layer1 (m ((c : Thread nD τ).loc main_arg0)) (m ((c : Thread nD τ).loc main_arg1)) (m ((c : Thread nD τ).loc main_arg2)) (m ((c : Thread nD τ).loc main_arg4)) (m ((c : Thread nD τ).loc main_arg5))) := by
  refine (W6_arr m ρ c 5).trans ((Cert.KernelIdeal.Cheb0.final (V5 m ρ) c).trans ?_)
  show Cert.Spec.chebRelu (W5 m ρ c (Proc.devRef .tc main_arg0)) (W5 m ρ c (Proc.devRef .tc main_v53)) (W5 m ρ c (Proc.devRef .tc main_v74)) (W5 m ρ c (Proc.devRef .tc main_arg4)) (W5 m ρ c (Proc.devRef .tc main_v75)) = _
  rw [W5_arg0, W5_v53, W5_v74, W5_arg4, W5_v75]
  rfl

theorem W6_v1 : W6 m ρ c (Proc.devRef .tc main_v1) = row (m ((c : Thread nD τ).loc main_arg1)) := (W6_of_ne m ρ c main_v1 (by decide)).trans (W5_v1 m ρ c)
theorem W6_v3 : W6 m ρ c (Proc.devRef .tc main_v3) = col (m ((c : Thread nD τ).loc main_arg1)) := (W6_of_ne m ρ c main_v3 (by decide)).trans (W5_v3 m ρ c)
theorem W6_v35 : W6 m ρ c (Proc.devRef .tc main_v35) = edgeW (F := Ideal) (m ((c : Thread nD τ).loc main_arg1)) (m ((c : Thread nD τ).loc main_arg2)) := (W6_of_ne m ρ c main_v35 (by decide)).trans (W5_v35 m ρ c)

theorem W7_v94 : W7 m ρ c (Proc.devRef .tc main_v94) = prop (F := Ideal) (m ((c : Thread nD τ).loc main_arg1)) (m ((c : Thread nD τ).loc main_arg2)) (layer1 (m ((c : Thread nD τ).loc main_arg0)) (m ((c : Thread nD τ).loc main_arg1)) (m ((c : Thread nD τ).loc main_arg2)) (m ((c : Thread nD τ).loc main_arg4)) (m ((c : Thread nD τ).loc main_arg5))) :=
  mid1_v94 (W6 m ρ c) _ _ _ (W6_v1 m ρ c) (W6_v3 m ρ c) (W6_v35 m ρ c) (W6_v76 m ρ c)
theorem W7_v115 : W7 m ρ c (Proc.devRef .tc main_v115) = t2 (F := Ideal) (m ((c : Thread nD τ).loc main_arg1)) (m ((c : Thread nD τ).loc main_arg2)) (layer1 (m ((c : Thread nD τ).loc main_arg0)) (m ((c : Thread nD τ).loc main_arg1)) (m ((c : Thread nD τ).loc main_arg2)) (m ((c : Thread nD τ).loc main_arg4)) (m ((c : Thread nD τ).loc main_arg5))) :=
  mid1_v115 (W6 m ρ c) _ _ _ (W6_v1 m ρ c) (W6_v3 m ρ c) (W6_v35 m ρ c) (W6_v76 m ρ c)
theorem W7_v116 : W7 m ρ c (Proc.devRef .tc main_v116) = biasRow (F := Ideal) (m ((c : Thread nD τ).loc main_arg7)) :=
  (mid1_v116 (W6 m ρ c)).trans (congrArg (biasRow (F := Ideal)) ((W6_of_ne m ρ c main_arg7 (by decide)).trans (W5_arg7 m ρ c)))
theorem W7_v76 : W7 m ρ c (Proc.devRef .tc main_v76) = (layer1 (m ((c : Thread nD τ).loc main_arg0)) (m ((c : Thread nD τ).loc main_arg1)) (m ((c : Thread nD τ).loc main_arg2)) (m ((c : Thread nD τ).loc main_arg4)) (m ((c : Thread nD τ).loc main_arg5))) := (mid1_kept (W6 m ρ c) main_v76 (by decide)).trans (W6_v76 m ρ c)
theorem W7_arg6 : W7 m ρ c (Proc.devRef .tc main_arg6) = (m ((c : Thread nD τ).loc main_arg6)) :=
  (mid1_kept (W6 m ρ c) main_arg6 (by decide)).trans ((W6_of_ne m ρ c main_arg6 (by decide)).trans (W5_arg6 m ρ c))
theorem W7_v1 : W7 m ρ c (Proc.devRef .tc main_v1) = row (m ((c : Thread nD τ).loc main_arg1)) := (mid1_kept (W6 m ρ c) main_v1 (by decide)).trans (W6_v1 m ρ c)
theorem W7_v3 : W7 m ρ c (Proc.devRef .tc main_v3) = col (m ((c : Thread nD τ).loc main_arg1)) := (mid1_kept (W6 m ρ c) main_v3 (by decide)).trans (W6_v3 m ρ c)
theorem W7_v35 : W7 m ρ c (Proc.devRef .tc main_v35) = edgeW (F := Ideal) (m ((c : Thread nD τ).loc main_arg1)) (m ((c : Thread nD τ).loc main_arg2)) := (mid1_kept (W6 m ρ c) main_v35 (by decide)).trans (W6_v35 m ρ c)
theorem W7_arg3 : W7 m ρ c (Proc.devRef .tc main_arg3) = (m ((c : Thread nD τ).loc main_arg3)) :=
  (mid1_kept (W6 m ρ c) main_arg3 (by decide)).trans ((W6_of_ne m ρ c main_arg3 (by decide)).trans (W5_arg3 m ρ c))
theorem W7_arg8 : W7 m ρ c (Proc.devRef .tc main_arg8) = (m ((c : Thread nD τ).loc main_arg8)) :=
  (mid1_kept (W6 m ρ c) main_arg8 (by decide)).trans ((W6_of_ne m ρ c main_arg8 (by decide)).trans (W5_arg8 m ρ c))
theorem W7_arg9 : W7 m ρ c (Proc.devRef .tc main_arg9) = (m ((c : Thread nD τ).loc main_arg9)) :=
  (mid1_kept (W6 m ρ c) main_arg9 (by decide)).trans ((W6_of_ne m ρ c main_arg9 (by decide)).trans (W5_arg9 m ρ c))
theorem W7_arg10 : W7 m ρ c (Proc.devRef .tc main_arg10) = (m ((c : Thread nD τ).loc main_arg10)) :=
  (mid1_kept (W6 m ρ c) main_arg10 (by decide)).trans ((W6_of_ne m ρ c main_arg10 (by decide)).trans (W5_arg10 m ρ c))
theorem W7_arg11 : W7 m ρ c (Proc.devRef .tc main_arg11) = (m ((c : Thread nD τ).loc main_arg11)) :=
  (mid1_kept (W6 m ρ c) main_arg11 (by decide)).trans ((W6_of_ne m ρ c main_arg11 (by decide)).trans (W5_arg11 m ρ c))
theorem W7_arg12 : W7 m ρ c (Proc.devRef .tc main_arg12) = (m ((c : Thread nD τ).loc main_arg12)) :=
  (mid1_kept (W6 m ρ c) main_arg12 (by decide)).trans ((W6_of_ne m ρ c main_arg12 (by decide)).trans (W5_arg12 m ρ c))
theorem W7_arg13 : W7 m ρ c (Proc.devRef .tc main_arg13) = (m ((c : Thread nD τ).loc main_arg13)) :=
  (mid1_kept (W6 m ρ c) main_arg13 (by decide)).trans ((W6_of_ne m ρ c main_arg13 (by decide)).trans (W5_arg13 m ρ c))

/-! ## The second combine call, and the stretch after it -/

/-- The second call leaves the second layer. -/
theorem W8_v117 : W8 m ρ c (Proc.devRef .tc main_v117) = (layer2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) := by
  refine (W8_arr m ρ c 5).trans ((Cert.KernelIdeal.Cheb1.final (V7 m ρ) c).trans ?_)
  show Cert.Spec.chebRelu (W7 m ρ c (Proc.devRef .tc main_v76)) (W7 m ρ c (Proc.devRef .tc main_v94)) (W7 m ρ c (Proc.devRef .tc main_v115)) (W7 m ρ c (Proc.devRef .tc main_arg6)) (W7 m ρ c (Proc.devRef .tc main_v116)) = _
  rw [W7_v76, W7_v94, W7_v115, W7_arg6, W7_v116]
  rfl

theorem W8_v1 : W8 m ρ c (Proc.devRef .tc main_v1) = row (m ((c : Thread nD τ).loc main_arg1)) := (W8_of_ne m ρ c main_v1 (by decide)).trans (W7_v1 m ρ c)
theorem W8_v3 : W8 m ρ c (Proc.devRef .tc main_v3) = col (m ((c : Thread nD τ).loc main_arg1)) := (W8_of_ne m ρ c main_v3 (by decide)).trans (W7_v3 m ρ c)
theorem W8_v35 : W8 m ρ c (Proc.devRef .tc main_v35) = edgeW (F := Ideal) (m ((c : Thread nD τ).loc main_arg1)) (m ((c : Thread nD τ).loc main_arg2)) := (W8_of_ne m ρ c main_v35 (by decide)).trans (W7_v35 m ρ c)

theorem W9_v135 : W9 m ρ c (Proc.devRef .tc main_v135) = prop (F := Ideal) (m ((c : Thread nD τ).loc main_arg1)) (m ((c : Thread nD τ).loc main_arg2)) (layer2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) :=
  mid2_v135 (W8 m ρ c) _ _ _ (W8_v1 m ρ c) (W8_v3 m ρ c) (W8_v35 m ρ c) (W8_v117 m ρ c)
theorem W9_v156 : W9 m ρ c (Proc.devRef .tc main_v156) = t2 (F := Ideal) (m ((c : Thread nD τ).loc main_arg1)) (m ((c : Thread nD τ).loc main_arg2)) (layer2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) :=
  mid2_v156 (W8 m ρ c) _ _ _ (W8_v1 m ρ c) (W8_v3 m ρ c) (W8_v35 m ρ c) (W8_v117 m ρ c)
theorem W9_v157 : W9 m ρ c (Proc.devRef .tc main_v157) = biasRow (F := Ideal) (m ((c : Thread nD τ).loc main_arg9)) :=
  (mid2_v157 (W8 m ρ c)).trans (congrArg (biasRow (F := Ideal)) ((W8_of_ne m ρ c main_arg9 (by decide)).trans (W7_arg9 m ρ c)))
theorem W9_v117 : W9 m ρ c (Proc.devRef .tc main_v117) = (layer2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) := (mid2_kept (W8 m ρ c) main_v117 (by decide)).trans (W8_v117 m ρ c)
theorem W9_arg3 : W9 m ρ c (Proc.devRef .tc main_arg3) = (m ((c : Thread nD τ).loc main_arg3)) :=
  (mid2_kept (W8 m ρ c) main_arg3 (by decide)).trans ((W8_of_ne m ρ c main_arg3 (by decide)).trans (W7_arg3 m ρ c))
theorem W9_arg8 : W9 m ρ c (Proc.devRef .tc main_arg8) = (m ((c : Thread nD τ).loc main_arg8)) :=
  (mid2_kept (W8 m ρ c) main_arg8 (by decide)).trans ((W8_of_ne m ρ c main_arg8 (by decide)).trans (W7_arg8 m ρ c))
theorem W9_arg10 : W9 m ρ c (Proc.devRef .tc main_arg10) = (m ((c : Thread nD τ).loc main_arg10)) :=
  (mid2_kept (W8 m ρ c) main_arg10 (by decide)).trans ((W8_of_ne m ρ c main_arg10 (by decide)).trans (W7_arg10 m ρ c))
theorem W9_arg11 : W9 m ρ c (Proc.devRef .tc main_arg11) = (m ((c : Thread nD τ).loc main_arg11)) :=
  (mid2_kept (W8 m ρ c) main_arg11 (by decide)).trans ((W8_of_ne m ρ c main_arg11 (by decide)).trans (W7_arg11 m ρ c))
theorem W9_arg12 : W9 m ρ c (Proc.devRef .tc main_arg12) = (m ((c : Thread nD τ).loc main_arg12)) :=
  (mid2_kept (W8 m ρ c) main_arg12 (by decide)).trans ((W8_of_ne m ρ c main_arg12 (by decide)).trans (W7_arg12 m ρ c))
theorem W9_arg13 : W9 m ρ c (Proc.devRef .tc main_arg13) = (m ((c : Thread nD τ).loc main_arg13)) :=
  (mid2_kept (W8 m ρ c) main_arg13 (by decide)).trans ((W8_of_ne m ρ c main_arg13 (by decide)).trans (W7_arg13 m ρ c))

/-! ## The third combine call, the id column, the pooling call -/

/-- The third call leaves the third layer. -/
theorem W10_v158 : W10 m ρ c (Proc.devRef .tc main_v158) = (layer3 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W10_arr m ρ c 5).trans ((Cert.KernelIdeal.Cheb2.final (V9 m ρ) c).trans ?_)
  show Cert.Spec.cheb (W9 m ρ c (Proc.devRef .tc main_v117)) (W9 m ρ c (Proc.devRef .tc main_v135)) (W9 m ρ c (Proc.devRef .tc main_v156)) (W9 m ρ c (Proc.devRef .tc main_arg8)) (W9 m ρ c (Proc.devRef .tc main_v157)) = _
  rw [W9_v117, W9_v135, W9_v156, W9_arg8, W9_v157]
  rfl

theorem W11_v159 : W11 m ρ c (Proc.devRef .tc main_v159) = idCol (m ((c : Thread nD τ).loc main_arg3)) :=
  (mid3_v159 (W10 m ρ c)).trans (congrArg idCol ((W10_of_ne m ρ c main_arg3 (by decide)).trans (W9_arg3 m ρ c)))
theorem W11_v158 : W11 m ρ c (Proc.devRef .tc main_v158) = (layer3 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := (mid3_kept (W10 m ρ c) main_v158 (by decide)).trans (W10_v158 m ρ c)
theorem W11_arg3 : W11 m ρ c (Proc.devRef .tc main_arg3) = (m ((c : Thread nD τ).loc main_arg3)) :=
  (mid3_kept (W10 m ρ c) main_arg3 (by decide)).trans ((W10_of_ne m ρ c main_arg3 (by decide)).trans (W9_arg3 m ρ c))
theorem W11_arg10 : W11 m ρ c (Proc.devRef .tc main_arg10) = (m ((c : Thread nD τ).loc main_arg10)) :=
  (mid3_kept (W10 m ρ c) main_arg10 (by decide)).trans ((W10_of_ne m ρ c main_arg10 (by decide)).trans (W9_arg10 m ρ c))
theorem W11_arg11 : W11 m ρ c (Proc.devRef .tc main_arg11) = (m ((c : Thread nD τ).loc main_arg11)) :=
  (mid3_kept (W10 m ρ c) main_arg11 (by decide)).trans ((W10_of_ne m ρ c main_arg11 (by decide)).trans (W9_arg11 m ρ c))
theorem W11_arg12 : W11 m ρ c (Proc.devRef .tc main_arg12) = (m ((c : Thread nD τ).loc main_arg12)) :=
  (mid3_kept (W10 m ρ c) main_arg12 (by decide)).trans ((W10_of_ne m ρ c main_arg12 (by decide)).trans (W9_arg12 m ρ c))
theorem W11_arg13 : W11 m ρ c (Proc.devRef .tc main_arg13) = (m ((c : Thread nD τ).loc main_arg13)) :=
  (mid3_kept (W10 m ρ c) main_arg13 (by decide)).trans ((W10_of_ne m ρ c main_arg13 (by decide)).trans (W9_arg13 m ρ c))

/-- The pooling call leaves the per-graph sums of the third layer. -/
theorem W12_v160 : W12 m ρ c (Proc.devRef .tc main_v160) = Cert.Spec.pool (idCol (m ((c : Thread nD τ).loc main_arg3))) (layer3 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W12_arr m ρ c 2).trans ((Cert.KernelIdeal.PoolK.final (V11 m ρ) c).trans ?_)
  show Cert.Spec.pool (W11 m ρ c (Proc.devRef .tc main_v159)) (W11 m ρ c (Proc.devRef .tc main_v158)) = _
  rw [W11_v159, W11_v158]

theorem W12_arg3 : W12 m ρ c (Proc.devRef .tc main_arg3) = (m ((c : Thread nD τ).loc main_arg3)) := (W12_of_ne m ρ c main_arg3 (by decide)).trans (W11_arg3 m ρ c)
theorem W12_arg10 : W12 m ρ c (Proc.devRef .tc main_arg10) = (m ((c : Thread nD τ).loc main_arg10)) := (W12_of_ne m ρ c main_arg10 (by decide)).trans (W11_arg10 m ρ c)
theorem W12_arg11 : W12 m ρ c (Proc.devRef .tc main_arg11) = (m ((c : Thread nD τ).loc main_arg11)) := (W12_of_ne m ρ c main_arg11 (by decide)).trans (W11_arg11 m ρ c)
theorem W12_arg12 : W12 m ρ c (Proc.devRef .tc main_arg12) = (m ((c : Thread nD τ).loc main_arg12)) := (W12_of_ne m ρ c main_arg12 (by decide)).trans (W11_arg12 m ρ c)
theorem W12_arg13 : W12 m ρ c (Proc.devRef .tc main_arg13) = (m ((c : Thread nD τ).loc main_arg13)) := (W12_of_ne m ρ c main_arg13 (by decide)).trans (W11_arg13 m ρ c)

/-! ## The result -/

/-- The result buffer at the last boundary is the network's value of the fourteen inputs. -/
theorem result : W15 m ρ c (Proc.devRef .tc main_v178)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (tail_v178 (W12 m ρ c)).trans ?_
  rw [W12_v160, W12_arg3, W12_arg10, W12_arg11, W12_arg12, W12_arg13]
  rfl

end Cert.KernelIdeal.Chain

end
-- ==== Proof.RStages.lean ====
import proofs.«426765_j4844723109937_1_alg».proof.Proof.RRun
import proofs.«426765_j4844723109937_1_alg».proof.Proof.HostFns
import Idealize.ShloMosaic.Lib.StableHlo.Run
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.Stages

open Cert.ReferenceIdeal Cert.ReferenceIdeal.Gen Cert.ReferenceIdeal.RunP
open Cert.KernelIdeal.HostFns (row col wrapIdx edgeW prop t2 tail)

variable {F : FTy → Type} [FloatOps F]

/-- The reference's Chebyshev layer before the rectifier: three matrix products with the slabs cut out of W, summed
    left to right, plus the bias broadcast over the rows. -/
def layerF (X P T : FVec F S50000x64 .f32) (W : FVec F S3x64x64 .f32) (b : FVec F S64 .f32) : FVec F S50000x64 .f32 :=
  addf (addf (addf
      (Host.dotGeneral dot_S50000x64_S64x64_S50000x64_1_0_0_1_n_n none X
        (shapeCast _ (extractStridedSlice S1x64x64 ![0, 0, 0] W slices_S3x64x64_S1x64x64_0_0_0) shapeCasts_S1x64x64_S64x64))
      (Host.dotGeneral dot_S50000x64_S64x64_S50000x64_1_0_0_1_n_n none P
        (shapeCast _ (extractStridedSlice S1x64x64 ![1, 0, 0] W slices_S3x64x64_S1x64x64_1_0_0) shapeCasts_S1x64x64_S64x64)))
      (Host.dotGeneral dot_S50000x64_S64x64_S50000x64_1_0_0_1_n_n none T
        (shapeCast _ (extractStridedSlice S1x64x64 ![2, 0, 0] W slices_S3x64x64_S1x64x64_2_0_0) shapeCasts_S1x64x64_S64x64)))
    (broadcastInDim S50000x64 ![0, 1] bcast_S1x64_S50000x64_0_1 (broadcastInDim S1x64 ![1] bcast_S64_S1x64_1 b))

/-- The reference's rectifier: the maximum with a zero array. -/
def reluF (Y : FVec F S50000x64 .f32) : FVec F S50000x64 .f32 :=
  maximumf Y (broadcastInDim S50000x64 ![] bcast_S_S50000x64 (constant S_ .f32 0x00000000#32))

/-- The reference's per-graph sums: a row scatter-add of the node rows into a zero 64 × 64 array at the graph ids. -/
def poolF (B : IVec S50000 32) (H : FVec F S50000x64 .f32) : FVec F S64x64 .f32 :=
  Host.scatterAdd scatter_S64x64_S50000x1_S50000x64_1_0_0_1
    (broadcastInDim S64x64 ![] bcast_S_S64x64 (constant S_ .f32 0x00000000#32))
    (broadcastInDim S50000x1 ![0] bcast_S50000_S50000x1_0 B) H

/-- The reference's first layer. -/
def l1F (x0 : FVec F S50000x64 .f32) (e : IVec S2x800000 32) (a : FVec F S800000 .f32)
    (W1 : FVec F S3x64x64 .f32) (b1 : FVec F S64 .f32) : FVec F S50000x64 .f32 :=
  reluF (layerF x0 (prop e a x0) (t2 e a x0) W1 b1)

/-- The reference's second layer. -/
def l2F (x0 : FVec F S50000x64 .f32) (e : IVec S2x800000 32) (a : FVec F S800000 .f32)
    (W1 : FVec F S3x64x64 .f32) (b1 : FVec F S64 .f32) (W2 : FVec F S3x64x64 .f32) (b2 : FVec F S64 .f32) : FVec F S50000x64 .f32 :=
  reluF (layerF (l1F x0 e a W1 b1) (prop e a (l1F x0 e a W1 b1)) (t2 e a (l1F x0 e a W1 b1)) W2 b2)

/-- The reference's third layer (no rectifier). -/
def l3F (x0 : FVec F S50000x64 .f32) (e : IVec S2x800000 32) (a : FVec F S800000 .f32)
    (W1 : FVec F S3x64x64 .f32) (b1 : FVec F S64 .f32) (W2 : FVec F S3x64x64 .f32) (b2 : FVec F S64 .f32)
    (W3 : FVec F S3x64x64 .f32) (b3 : FVec F S64 .f32) : FVec F S50000x64 .f32 :=
  layerF (l2F x0 e a W1 b1 W2 b2) (prop e a (l2F x0 e a W1 b1 W2 b2)) (t2 e a (l2F x0 e a W1 b1 W2 b2)) W3 b3

/-- The reference's result as one function of the fourteen inputs. -/
def netF (x0 : FVec F S50000x64 .f32) (e : IVec S2x800000 32) (a : FVec F S800000 .f32) (bt : IVec S50000 32)
    (W1 : FVec F S3x64x64 .f32) (b1 : FVec F S64 .f32) (W2 : FVec F S3x64x64 .f32) (b2 : FVec F S64 .f32)
    (W3 : FVec F S3x64x64 .f32) (b3 : FVec F S64 .f32) (Wl1 : FVec F S64x32 .f32) (bl1 : FVec F S32 .f32)
    (Wl2 : FVec F S32x10 .f32) (bl2 : FVec F S10 .f32) : FVec F S64x10 .f32 :=
  tail (poolF bt (l3F x0 e a W1 b1 W2 b2 W3 b3)) bt Wl1 bl1 Wl2 bl2

/-- Read every operation's result in an opened list of host operations, then drop the identity transports that a
    called function's typed references leave around its values. -/
local macro "read_results" : tactic =>
  `(tactic| (after_results_simp; try simp only [TRef.ofBuf, TRef.toBuf, cast_eq]))

/-! ## The edge data

With `e` the edge list and `a` the edge weights, the first fifty-one operations leave the two index vectors and the
edge weights of the scaled Laplacian; they write no argument. -/

section PieceA

variable (W : Valuation τ sig (Elt F))

set_option maxHeartbeats 4000000 in
theorem pieceA_v1 : StableHlo.after (opsA (F := F)) W (Proc.devRef .tc main_v1) = row (W (Proc.devRef .tc main_arg1)) := by
  simp only [opsA]
  read_results
  rfl

set_option maxHeartbeats 4000000 in
theorem pieceA_v3 : StableHlo.after (opsA (F := F)) W (Proc.devRef .tc main_v3) = col (W (Proc.devRef .tc main_arg1)) := by
  simp only [opsA]
  read_results
  rfl

set_option maxHeartbeats 4000000 in
theorem pieceA_v35 : StableHlo.after (opsA (F := F)) W (Proc.devRef .tc main_v35)
    = edgeW (W (Proc.devRef .tc main_arg1)) (W (Proc.devRef .tc main_arg2)) := by
  simp only [opsA]
  read_results
  rfl

set_option maxHeartbeats 4000000 in
/-- The first piece writes no argument. -/
theorem pieceA_kept (b : Ref sig .tc)
    (hb : b ∈ [main_arg0, main_arg1, main_arg2, main_arg3, main_arg4, main_arg5, main_arg6, main_arg7, main_arg8,
      main_arg9, main_arg10, main_arg11, main_arg12, main_arg13]) :
    StableHlo.after (opsA (F := F)) W (Proc.devRef .tc b) = W (Proc.devRef .tc b) := by
  simp only [List.mem_cons, List.not_mem_nil, or_false] at hb
  rcases hb with rfl | rfl | rfl | rfl | rfl | rfl | rfl | rfl | rfl | rfl | rfl | rfl | rfl | rfl <;>
    (simp only [opsA]; after_results_simp)

end PieceA

/-! ## The first layer

From the edge data and the node features `X`, operations 51 to 117 leave the rectified first layer: the products of
`X`, of one propagation step of `X` and of its third Chebyshev term with the three slabs of the weights, summed, plus
the bias. -/

section PieceB

variable (W : Valuation τ sig (Elt F)) (e : IVec S2x800000 32) (a : FVec F S800000 .f32) (X : FVec F S50000x64 .f32)
  (Wt : FVec F S3x64x64 .f32) (bs : FVec F S64 .f32)
  (h1 : W (Proc.devRef .tc main_v1) = row e) (h3 : W (Proc.devRef .tc main_v3) = col e)
  (h35 : W (Proc.devRef .tc main_v35) = edgeW e a) (hX : W (Proc.devRef .tc main_arg0) = X)
  (hW : W (Proc.devRef .tc main_arg4) = Wt) (hbs : W (Proc.devRef .tc main_arg5) = bs)

include h1 h3 h35 hX hW hbs in
set_option maxHeartbeats 4000000 in
theorem pieceB_out : StableHlo.after (opsB (F := F)) W (Proc.devRef .tc main_v89) = reluF (layerF X (prop e a X) (t2 e a X) Wt bs) := by
  simp only [opsB]
  read_results
  rw [h1, h3, h35, hX, hW, hbs]
  rfl

set_option maxHeartbeats 4000000 in
/-- The layer writes neither the edge data nor an argument. -/
theorem pieceB_kept (b : Ref sig .tc)
    (hb : b ∈ [main_v1, main_v3, main_v35, main_arg0, main_arg1, main_arg2, main_arg3, main_arg4, main_arg5,
      main_arg6, main_arg7, main_arg8, main_arg9, main_arg10, main_arg11, main_arg12, main_arg13]) :
    StableHlo.after (opsB (F := F)) W (Proc.devRef .tc b) = W (Proc.devRef .tc b) := by
  simp only [List.mem_cons, List.not_mem_nil, or_false] at hb
  rcases hb with rfl | rfl | rfl | rfl | rfl | rfl | rfl | rfl | rfl | rfl | rfl | rfl | rfl | rfl | rfl | rfl | rfl <;>
    (simp only [opsB]; after_results_simp)

end PieceB

/-! ## The second layer

The same from the first layer's output, with the second weights and bias. -/

section PieceC

variable (W : Valuation τ sig (Elt F)) (e : IVec S2x800000 32) (a : FVec F S800000 .f32) (X : FVec F S50000x64 .f32)
  (Wt : FVec F S3x64x64 .f32) (bs : FVec F S64 .f32)
  (h1 : W (Proc.devRef .tc main_v1) = row e) (h3 : W (Proc.devRef .tc main_v3) = col e)
  (h35 : W (Proc.devRef .tc main_v35) = edgeW e a) (hX : W (Proc.devRef .tc main_v89) = X)
  (hW : W (Proc.devRef .tc main_arg6) = Wt) (hbs : W (Proc.devRef .tc main_arg7) = bs)

include h1 h3 h35 hX hW hbs in
set_option maxHeartbeats 4000000 in
theorem pieceC_out : StableHlo.after (opsC (F := F)) W (Proc.devRef .tc main_v143) = reluF (layerF X (prop e a X) (t2 e a X) Wt bs) := by
  simp only [opsC]
  read_results
  rw [h1, h3, h35, hX, hW, hbs]
  rfl

set_option maxHeartbeats 4000000 in
/-- The layer writes neither the edge data nor an argument. -/
theorem pieceC_kept (b : Ref sig .tc)
    (hb : b ∈ [main_v1, main_v3, main_v35, main_arg0, main_arg1, main_arg2, main_arg3, main_arg4, main_arg5,
      main_arg6, main_arg7, main_arg8, main_arg9, main_arg10, main_arg11, main_arg12, main_arg13]) :
    StableHlo.after (opsC (F := F)) W (Proc.devRef .tc b) = W (Proc.devRef .tc b) := by
  simp only [List.mem_cons, List.not_mem_nil, or_false] at hb
  rcases hb with rfl | rfl | rfl | rfl | rfl | rfl | rfl | rfl | rfl | rfl | rfl | rfl | rfl | rfl | rfl | rfl | rfl <;>
    (simp only [opsC]; after_results_simp)

end PieceC

/-! ## The third layer

The same from the second layer's output, with the third weights and bias, and no rectifier. -/

section PieceD

variable (W : Valuation τ sig (Elt F)) (e : IVec S2x800000 32) (a : FVec F S800000 .f32) (X : FVec F S50000x64 .f32)
  (Wt : FVec F S3x64x64 .f32) (bs : FVec F S64 .f32)
  (h1 : W (Proc.devRef .tc main_v1) = row e) (h3 : W (Proc.devRef .tc main_v3) = col e)
  (h35 : W (Proc.devRef .tc main_v35) = edgeW e a) (hX : W (Proc.devRef .tc main_v143) = X)
  (hW : W (Proc.devRef .tc main_arg8) = Wt) (hbs : W (Proc.devRef .tc main_arg9) = bs)

include h1 h3 h35 hX hW hbs in
set_option maxHeartbeats 4000000 in
theorem pieceD_out : StableHlo.after (opsD (F := F)) W (Proc.devRef .tc main_v196) = layerF X (prop e a X) (t2 e a X) Wt bs := by
  simp only [opsD]
  read_results
  rw [h1, h3, h35, hX, hW, hbs]
  rfl

set_option maxHeartbeats 4000000 in
/-- The layer writes neither the edge data nor an argument. -/
theorem pieceD_kept (b : Ref sig .tc)
    (hb : b ∈ [main_v1, main_v3, main_v35, main_arg0, main_arg1, main_arg2, main_arg3, main_arg4, main_arg5,
      main_arg6, main_arg7, main_arg8, main_arg9, main_arg10, main_arg11, main_arg12, main_arg13]) :
    StableHlo.after (opsD (F := F)) W (Proc.devRef .tc b) = W (Proc.devRef .tc b) := by
  simp only [List.mem_cons, List.not_mem_nil, or_false] at hb
  rcases hb with rfl | rfl | rfl | rfl | rfl | rfl | rfl | rfl | rfl | rfl | rfl | rfl | rfl | rfl | rfl | rfl | rfl <;>
    (simp only [opsD]; after_results_simp)

end PieceD

/-! ## The per-graph means and the dense layers

The last twenty-seven operations add the node rows up per graph and hand the sums to the shared tail. -/

section PieceE

variable (W : Valuation τ sig (Elt F))

set_option maxHeartbeats 4000000 in
theorem pieceE_out : StableHlo.after (opsE (F := F)) W (Proc.devRef .tc main_v217)
    = tail (poolF (W (Proc.devRef .tc main_arg3)) (W (Proc.devRef .tc main_v196))) (W (Proc.devRef .tc main_arg3))
        (W (Proc.devRef .tc main_arg10)) (W (Proc.devRef .tc main_arg11)) (W (Proc.devRef .tc main_arg12))
        (W (Proc.devRef .tc main_arg13)) := by
  simp only [opsE]
  read_results
  rfl

set_option maxHeartbeats 4000000 in
/-- The last piece writes no argument. -/
theorem pieceE_kept (b : Ref sig .tc)
    (hb : b ∈ [main_arg0, main_arg1, main_arg2, main_arg3, main_arg4, main_arg5, main_arg6, main_arg7, main_arg8,
      main_arg9, main_arg10, main_arg11, main_arg12, main_arg13]) :
    StableHlo.after (opsE (F := F)) W (Proc.devRef .tc b) = W (Proc.devRef .tc b) := by
  simp only [List.mem_cons, List.not_mem_nil, or_false] at hb
  rcases hb with rfl | rfl | rfl | rfl | rfl | rfl | rfl | rfl | rfl | rfl | rfl | rfl | rfl | rfl <;>
    (simp only [opsE]; after_results_simp)

end PieceE

/-! ## The five pieces in a row -/

/-- An argument is among what a layer keeps. -/
private theorem mem_keep {b : Ref sig .tc}
    (hb : b ∈ [main_arg0, main_arg1, main_arg2, main_arg3, main_arg4, main_arg5, main_arg6, main_arg7, main_arg8,
      main_arg9, main_arg10, main_arg11, main_arg12, main_arg13]) :
    b ∈ [main_v1, main_v3, main_v35, main_arg0, main_arg1, main_arg2, main_arg3, main_arg4, main_arg5,
      main_arg6, main_arg7, main_arg8, main_arg9, main_arg10, main_arg11, main_arg12, main_arg13] :=
  List.mem_cons_of_mem _ (List.mem_cons_of_mem _ (List.mem_cons_of_mem _ hb))

variable (V : Valuation τ sig (Elt F))

set_option maxHeartbeats 4000000 in
/-- The fold of @main's 276 operations leaves the result buffer at `netF` of the launch contents of the arguments. -/
theorem result :
    StableHlo.after (ops (F := F)) V (Proc.devRef .tc main_v217)
      = netF (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7))
          (V (Proc.devRef .tc main_arg8)) (V (Proc.devRef .tc main_arg9)) (V (Proc.devRef .tc main_arg10)) (V (Proc.devRef .tc main_arg11))
          (V (Proc.devRef .tc main_arg12)) (V (Proc.devRef .tc main_arg13)) := by
  rw [ops_eq, StableHlo.after_append, StableHlo.after_append, StableHlo.after_append, StableHlo.after_append]
  -- after the first piece: the edge data, and every argument as at launch
  have a1 := pieceA_v1 V
  have a3 := pieceA_v3 V
  have a35 := pieceA_v35 V
  have ka := pieceA_kept V
  generalize StableHlo.after (opsA (F := F)) V = VA at a1 a3 a35 ka ⊢
  -- after the first layer: its output is l1F of the launch contents; the edge data and the arguments are kept
  have bo : StableHlo.after (opsB (F := F)) VA (Proc.devRef .tc main_v89) = l1F (V (Proc.devRef .tc main_arg0)) (V (Proc.devRef .tc main_arg1)) (V (Proc.devRef .tc main_arg2)) (V (Proc.devRef .tc main_arg4)) (V (Proc.devRef .tc main_arg5)) :=
    pieceB_out VA (V (Proc.devRef .tc main_arg1)) (V (Proc.devRef .tc main_arg2)) (V (Proc.devRef .tc main_arg0)) (V (Proc.devRef .tc main_arg4)) (V (Proc.devRef .tc main_arg5)) a1 a3 a35 (ka main_arg0 (by decide)) (ka main_arg4 (by decide)) (ka main_arg5 (by decide))
  have b1 := (pieceB_kept VA main_v1 (by decide)).trans a1
  have b3 := (pieceB_kept VA main_v3 (by decide)).trans a3
  have b35 := (pieceB_kept VA main_v35 (by decide)).trans a35
  have kb : ∀ (b : Ref sig .tc), b ∈ [main_arg0, main_arg1, main_arg2, main_arg3, main_arg4, main_arg5, main_arg6, main_arg7, main_arg8,
      main_arg9, main_arg10, main_arg11, main_arg12, main_arg13] →
      StableHlo.after (opsB (F := F)) VA (Proc.devRef .tc b) = V (Proc.devRef .tc b) :=
    fun b hb => (pieceB_kept VA b (mem_keep hb)).trans (ka b hb)
  clear a1 a3 a35 ka
  generalize StableHlo.after (opsB (F := F)) VA = VB at bo b1 b3 b35 kb ⊢
  -- after the second layer
  have co : StableHlo.after (opsC (F := F)) VB (Proc.devRef .tc main_v143)
      = l2F (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) :=
    pieceC_out VB (V (Proc.devRef .tc main_arg1)) (V (Proc.devRef .tc main_arg2)) (l1F (V (Proc.devRef .tc main_arg0)) (V (Proc.devRef .tc main_arg1)) (V (Proc.devRef .tc main_arg2)) (V (Proc.devRef .tc main_arg4)) (V (Proc.devRef .tc main_arg5))) (V (Proc.devRef .tc main_arg6)) (V (Proc.devRef .tc main_arg7)) b1 b3 b35 bo (kb main_arg6 (by decide)) (kb main_arg7 (by decide))
  have c1 := (pieceC_kept VB main_v1 (by decide)).trans b1
  have c3 := (pieceC_kept VB main_v3 (by decide)).trans b3
  have c35 := (pieceC_kept VB main_v35 (by decide)).trans b35
  have kc : ∀ (b : Ref sig .tc), b ∈ [main_arg0, main_arg1, main_arg2, main_arg3, main_arg4, main_arg5, main_arg6, main_arg7, main_arg8,
      main_arg9, main_arg10, main_arg11, main_arg12, main_arg13] →
      StableHlo.after (opsC (F := F)) VB (Proc.devRef .tc b) = V (Proc.devRef .tc b) :=
    fun b hb => (pieceC_kept VB b (mem_keep hb)).trans (kb b hb)
  clear bo b1 b3 b35 kb
  generalize StableHlo.after (opsC (F := F)) VB = VC at co c1 c3 c35 kc ⊢
  -- after the third layer
  have d : StableHlo.after (opsD (F := F)) VC (Proc.devRef .tc main_v196)
      = l3F (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
    pieceD_out VC (V (Proc.devRef .tc main_arg1)) (V (Proc.devRef .tc main_arg2)) (l2F (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7))) (V (Proc.devRef .tc main_arg8)) (V (Proc.devRef .tc main_arg9)) c1 c3 c35 co (kc main_arg8 (by decide)) (kc main_arg9 (by decide))
  have kd : ∀ (b : Ref sig .tc), b ∈ [main_arg0, main_arg1, main_arg2, main_arg3, main_arg4, main_arg5, main_arg6, main_arg7, main_arg8,
      main_arg9, main_arg10, main_arg11, main_arg12, main_arg13] →
      StableHlo.after (opsD (F := F)) VC (Proc.devRef .tc b) = V (Proc.devRef .tc b) :=
    fun b hb => (pieceD_kept VC b (mem_keep hb)).trans (kc b hb)
  clear co c1 c3 c35 kc
  generalize StableHlo.after (opsD (F := F)) VC = VD at d kd ⊢
  -- the last piece reads the third layer's output and five arguments
  rw [pieceE_out VD, d, kd main_arg3 (by decide), kd main_arg10 (by decide), kd main_arg11 (by decide),
    kd main_arg12 (by decide), kd main_arg13 (by decide)]
  rfl

set_option maxHeartbeats 4000000 in
/-- No operation writes an argument. -/
theorem kept (b : Ref sig .tc)
    (hb : b ∈ [main_arg0, main_arg1, main_arg2, main_arg3, main_arg4, main_arg5, main_arg6, main_arg7, main_arg8,
      main_arg9, main_arg10, main_arg11, main_arg12, main_arg13]) :
    StableHlo.after (ops (F := F)) V (Proc.devRef .tc b) = V (Proc.devRef .tc b) := by
  rw [ops_eq, StableHlo.after_append, StableHlo.after_append, StableHlo.after_append, StableHlo.after_append,
    pieceE_kept _ b hb, pieceD_kept _ b (mem_keep hb), pieceC_kept _ b (mem_keep hb), pieceB_kept _ b (mem_keep hb),
    pieceA_kept _ b hb]

end Cert.ReferenceIdeal.Stages

end
-- ==== Proof.LibScatterRows.lean ====
/-
  A ROW SCATTER-ADD read at an entry, over the extended reals.

  The operand is an `R × C` matrix, the scatter indices an `N × 1` column of words (one row index per update
  row, read signed and not clamped) and the updates an `N × C` matrix: update row `b` is added, entry by
  entry, to operand row `idx[b]` when that lies in `[0, R)`, and is dropped otherwise. At entry `(r, h)` the
  exact result is therefore the operand's entry plus the sum of `upd[b, h]` over the rows `b` whose index word,
  read signed, is `r`. A dropped row has an index that is no `r`, so it enters no entry's sum.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

/-- The dimension numbers of a row scatter: the updates' axis 1 is the window, operand axis 0 is inserted and is
    the one the indices address, the index vector is the indices' axis 1. -/
abbrev rowDims (R C N : ℕ)
    (wf : ScatterDims.WF (⟨2, ![R, C]⟩ : Shape) (⟨2, ![N, 1]⟩ : Shape) (⟨2, ![N, C]⟩ : Shape) [1] [0] [0] 1) :
    ScatterDims (⟨2, ![R, C]⟩ : Shape) (⟨2, ![N, 1]⟩ : Shape) (⟨2, ![N, C]⟩ : Shape) where
  updateWindowDims := [1]
  insertedWindowDims := [0]
  scatterDimsToOperandDims := [0]
  indexVectorDim := 1
  wf := wf

/-! ### The literal record, field by field

The operand's kept axes are `[1]`; the scatter-indices index an update index reads is its row with a `0` on the
index vector's axis; so the window starts at the signed index word on axis 0 and at `0` on axis 1, and the window
coordinate is `0` on axis 0 and the update's column on axis 1. -/

section Fields

variable {R C N w : ℕ}
  (wf : ScatterDims.WF (⟨2, ![R, C]⟩ : Shape) (⟨2, ![N, 1]⟩ : Shape) (⟨2, ![N, C]⟩ : Shape) [1] [0] [0] 1)

/-- The operand's axes that are not inserted: axis 1 alone. -/
theorem sKept_rows : (rowDims R C N wf).sKept = ([1] : List (Fin 2)) := by
  show (List.finRange 2).filter (fun a : Fin 2 => decide (a ∉ ([0] : List (Fin 2)))) = [1]
  decide

/-- Update index `j` reads its start index at row `j 0` of the index column. -/
theorem siIdx_rows (j : (⟨2, ![N, C]⟩ : Shape).Idx) (c : Fin (rowDims R C N wf).scatterDimsToOperandDims.length) :
    (rowDims R C N wf).siIdx j c = ix2 (j 0) (0 : Fin 1) := by
  funext a
  match a with
  | ⟨0, _⟩ =>
    unfold ScatterDims.siIdx
    rw [dif_neg (show ¬ (0 : ℕ) = 1 by decide)]
    apply Fin.ext
    rfl
  | ⟨1, _⟩ =>
    unfold ScatterDims.siIdx
    rw [dif_pos (show (1 : ℕ) = 1 from rfl)]
    apply Fin.ext
    have hc : c.val < 1 := c.isLt
    show c.val = 0
    omega

/-- On axis 0 the window starts at the index word of the update's row, read signed. -/
theorem start_zero (j : (⟨2, ![N, C]⟩ : Shape).Idx) (idx : IVec (⟨2, ![N, 1]⟩ : Shape) w) :
    (rowDims R C N wf).start j idx (0 : Fin 2) = (idx (ix2 (j 0) (0 : Fin 1))).toInt := by
  unfold ScatterDims.start
  rw [dif_pos (show (0 : Fin 2) ∈ ([0] : List (Fin 2)) by decide)]
  rw [siIdx_rows]
  rfl

/-- On axis 1, which the indices do not address, the window starts at `0`. -/
theorem start_one (j : (⟨2, ![N, C]⟩ : Shape).Idx) (idx : IVec (⟨2, ![N, 1]⟩ : Shape) w) :
    (rowDims R C N wf).start j idx (1 : Fin 2) = 0 := by
  unfold ScatterDims.start
  rw [dif_neg (show ¬ (1 : Fin 2) ∈ ([0] : List (Fin 2)) by decide)]

/-- Axis 0 is inserted: its window coordinate is `0`. -/
theorem window_zero (j : (⟨2, ![N, C]⟩ : Shape).Idx) :
    (rowDims R C N wf).window j (0 : Fin 2) = 0 := by
  unfold ScatterDims.window
  rw [dif_neg (by rw [sKept_rows]; show ¬ (0 : Fin 2) ∈ ([1] : List (Fin 2)); decide)]

/-- Axis 1 carries the update's column. -/
theorem window_one (j : (⟨2, ![N, C]⟩ : Shape).Idx) :
    (rowDims R C N wf).window j (1 : Fin 2) = (j 1).val := by
  unfold ScatterDims.window
  rw [dif_pos (by rw [sKept_rows]; show (1 : Fin 2) ∈ ([1] : List (Fin 2)); decide)]
  rfl

end Fields

/-- Update entry `(b, f)` lands on operand entry `(r, h)` exactly when the index word of row `b`, read signed, is
    `r` and the columns agree. -/
theorem resultIdx?_rows {R C N w : ℕ}
    (wf : ScatterDims.WF (⟨2, ![R, C]⟩ : Shape) (⟨2, ![N, 1]⟩ : Shape) (⟨2, ![N, C]⟩ : Shape) [1] [0] [0] 1)
    (idx : IVec (⟨2, ![N, 1]⟩ : Shape) w) (b : Fin N) (f : Fin C) (r : Fin R) (h : Fin C) :
    (rowDims R C N wf).resultIdx? (ix2 b f) idx = some (ix2 r h)
      ↔ (idx (ix2 b (0 : Fin 1))).toInt = (r.val : ℤ) ∧ f = h := by
  have s0 : (rowDims R C N wf).start (ix2 b f) idx (0 : Fin 2) = (idx (ix2 b (0 : Fin 1))).toInt :=
    start_zero wf (ix2 b f) idx
  have s1 := start_one wf (ix2 b f) idx
  have w0 := window_zero wf (ix2 b f)
  have w1 : (rowDims R C N wf).window (ix2 b f) (1 : Fin 2) = f.val := window_one wf (ix2 b f)
  have hr : r.val < R := r.isLt
  have hh : h.val < C := h.isLt
  have hf : f.val < C := f.isLt
  unfold ScatterDims.resultIdx?
  constructor
  · -- an update that lands at `(r, h)` is inside the operand; read the landing index axis by axis
    intro hres
    split at hres
    · rename_i hb
      have e := Option.some.inj hres
      have e0 : ((rowDims R C N wf).start (ix2 b f) idx (0 : Fin 2)
          + ((rowDims R C N wf).window (ix2 b f) (0 : Fin 2) : ℤ)).toNat = r.val :=
        congrArg (fun i : (⟨2, ![R, C]⟩ : Shape).Idx => (i 0).val) e
      have e1 : ((rowDims R C N wf).start (ix2 b f) idx (1 : Fin 2)
          + ((rowDims R C N wf).window (ix2 b f) (1 : Fin 2) : ℤ)).toNat = h.val :=
        congrArg (fun i : (⟨2, ![R, C]⟩ : Shape).Idx => (i 1).val) e
      have h0 : 0 ≤ (rowDims R C N wf).start (ix2 b f) idx (0 : Fin 2)
          + ((rowDims R C N wf).window (ix2 b f) (0 : Fin 2) : ℤ) := (hb 0).1
      rw [s0, w0] at e0 h0
      rw [s1, w1] at e1
      refine ⟨by omega, Fin.ext (by omega)⟩
    · exact absurd hres (by simp)
  · -- conversely the index word `r` and the column `f` are inside the operand, and land at `(r, f)`
    rintro ⟨hi, rfl⟩
    have H : ∀ a : Fin 2, 0 ≤ (rowDims R C N wf).start (ix2 b f) idx a + ((rowDims R C N wf).window (ix2 b f) a : ℤ)
        ∧ (rowDims R C N wf).start (ix2 b f) idx a + ((rowDims R C N wf).window (ix2 b f) a : ℤ)
          < ((⟨2, ![R, C]⟩ : Shape).size a : ℤ) := by
      refine Fin.forall_fin_two.2 ⟨?_, ?_⟩
      · rw [s0, w0, hi]
        show 0 ≤ (r.val : ℤ) + ((0 : ℕ) : ℤ) ∧ (r.val : ℤ) + ((0 : ℕ) : ℤ) < (R : ℤ)
        omega
      · rw [s1, w1]
        show 0 ≤ (0 : ℤ) + (f.val : ℤ) ∧ (0 : ℤ) + (f.val : ℤ) < (C : ℤ)
        omega
    rw [dif_pos H]
    refine congrArg some (funext fun a => ?_)
    match a with
    | ⟨0, _⟩ =>
      apply Fin.ext
      show ((rowDims R C N wf).start (ix2 b f) idx (0 : Fin 2)
          + ((rowDims R C N wf).window (ix2 b f) (0 : Fin 2) : ℤ)).toNat = r.val
      rw [s0, w0, hi]
      omega
    | ⟨1, _⟩ =>
      apply Fin.ext
      show ((rowDims R C N wf).start (ix2 b f) idx (1 : Fin 2)
          + ((rowDims R C N wf).window (ix2 b f) (1 : Fin 2) : ℤ)).toNat = f.val
      rw [s1, w1]
      omega

/-- The exact row scatter-add at entry `(r, h)`. -/
theorem hostScatterAdd_rows {R C N w : ℕ}
    (wf : ScatterDims.WF (⟨2, ![R, C]⟩ : Shape) (⟨2, ![N, 1]⟩ : Shape) (⟨2, ![N, C]⟩ : Shape) [1] [0] [0] 1)
    (x : (⟨2, ![R, C]⟩ : Shape).Idx → EReal) (idx : IVec (⟨2, ![N, 1]⟩ : Shape) w)
    (upd : (⟨2, ![N, C]⟩ : Shape).Idx → EReal) (r : Fin R) (h : Fin C) :
    Ideal.hostScatterAdd (rowDims R C N wf) x idx upd (ix2 r h)
      = x (ix2 r h) + ∑ b : Fin N, if (idx (ix2 b (0 : Fin 1))).toInt = (r.val : ℤ) then upd (ix2 b h) else 0 := by
  unfold Ideal.hostScatterAdd
  refine congrArg (x (ix2 r h) + ·) ?_
  -- the filtered sum over update entries, as a double sum over update rows and columns
  rw [Finset.sum_filter, sum_idx2]
  refine Finset.sum_congr rfl (fun b _ => ?_)
  by_cases hi : (idx (ix2 b (0 : Fin 1))).toInt = (r.val : ℤ)
  · -- row `b` addresses `r`: of its columns exactly `h` lands at `(r, h)`
    rw [if_pos hi]
    have e : ∀ f : Fin C, (if (rowDims R C N wf).resultIdx? (ix2 b f) idx = some (ix2 r h) then upd (ix2 b f) else 0)
        = if f = h then upd (ix2 b f) else 0 := by
      intro f
      refine if_congr ?_ rfl rfl
      rw [resultIdx?_rows wf idx b f r h]
      exact ⟨fun p => p.2, fun p => ⟨hi, p⟩⟩
    rw [Finset.sum_congr rfl (fun f _ => e f), Finset.sum_ite_eq' Finset.univ h (fun f => upd (ix2 b f)),
      if_pos (Finset.mem_univ h)]
  · -- row `b` addresses another row, or none: nothing of it lands at `(r, h)`
    rw [if_neg hi]
    refine Finset.sum_eq_zero (fun f _ => ?_)
    rw [if_neg]
    rw [resultIdx?_rows wf idx b f r h]
    exact fun p => hi p.1

end Idealize.ShloMosaic.ScatterRows

end
-- ==== Proof.RefMath.lean ====
import proofs.«426765_j4844723109937_1_alg».proof.Proof.Gen.ReferenceIdeal
import proofs.«426765_j4844723109937_1_alg».proof.Proof.Spec
import proofs.«426765_j4844723109937_1_alg».proof.Proof.LibScatterRows
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators
open Idealize.ShloMosaic Idealize.ShloMosaic.ValueIdx

namespace Cert.ReferenceIdeal.Math

open Cert.ReferenceIdeal Cert.ReferenceIdeal.Gen

/-- The reference's Chebyshev layer before the rectifier: three matrix products with the slabs cut out of W, summed
    left to right, plus the bias broadcast over the rows. -/
def layer (X P T : FVec Ideal S50000x64 .f32) (W : FVec Ideal S3x64x64 .f32) (b : FVec Ideal S64 .f32) : FVec Ideal S50000x64 .f32 :=
  addf (addf (addf
      (Host.dotGeneral dot_S50000x64_S64x64_S50000x64_1_0_0_1_n_n none X
        (shapeCast _ (extractStridedSlice S1x64x64 ![0, 0, 0] W slices_S3x64x64_S1x64x64_0_0_0) shapeCasts_S1x64x64_S64x64))
      (Host.dotGeneral dot_S50000x64_S64x64_S50000x64_1_0_0_1_n_n none P
        (shapeCast _ (extractStridedSlice S1x64x64 ![1, 0, 0] W slices_S3x64x64_S1x64x64_1_0_0) shapeCasts_S1x64x64_S64x64)))
      (Host.dotGeneral dot_S50000x64_S64x64_S50000x64_1_0_0_1_n_n none T
        (shapeCast _ (extractStridedSlice S1x64x64 ![2, 0, 0] W slices_S3x64x64_S1x64x64_2_0_0) shapeCasts_S1x64x64_S64x64)))
    (broadcastInDim S50000x64 ![0, 1] bcast_S1x64_S50000x64_0_1 (broadcastInDim S1x64 ![1] bcast_S64_S1x64_1 b))

/-- The reference's rectifier: the maximum with a zero array. -/
def relu (Y : FVec Ideal S50000x64 .f32) : FVec Ideal S50000x64 .f32 :=
  maximumf Y (broadcastInDim S50000x64 ![] bcast_S_S50000x64 (constant S_ .f32 0x00000000#32))

/-- The reference's per-graph sums: a row scatter-add of the node rows into a zero 64 × 64 array at the graph ids. -/
def poolR (B : IVec S50000 32) (H : FVec Ideal S50000x64 .f32) : FVec Ideal S64x64 .f32 :=
  Host.scatterAdd scatter_S64x64_S50000x1_S50000x64_1_0_0_1
    (broadcastInDim S64x64 ![] bcast_S_S64x64 (constant S_ .f32 0x00000000#32))
    (broadcastInDim S50000x1 ![0] bcast_S50000_S50000x1_0 B) H

/-! ### The layout operations read at an entry -/

section Layout
variable {α : Type}

/-- Slab `j` of the weights: the slice from `(o, 0, 0)` of extent 1 × 64 × 64, its unit axis dropped, has at
    `(k, f)` the entry `(j, k, f)` of the 3 × 64 × 64 array, `j` being `o` as an index of the first axis. -/
private theorem slab_apply (o : Nat) (j : Fin 3) (hj : j.val = o) (W : S3x64x64.Idx → α)
    (hs : S3x64x64.Slices ![o, 0, 0] S1x64x64) (hc : S1x64x64.ShapeCasts S64x64) (k f : Fin 64) :
    shapeCast S64x64 (extractStridedSlice S1x64x64 ![o, 0, 0] W hs) hc (ix2 k f) = W (ix3 j k f) := by
  refine (shapeCast_1ab_ab_apply (extractStridedSlice S1x64x64 ![o, 0, 0] W hs) hc k f).trans ?_
  exact extractStridedSlice_apply ![o, 0, 0] W hs (ix3 (0 : Fin 1) k f) (ix3 j k f) (fun a => match a with
    | ⟨0, _⟩ => by show j.val = o + 0; omega
    | ⟨1, _⟩ => by show k.val = 0 + k.val; omega
    | ⟨2, _⟩ => by show f.val = 0 + f.val; omega)

/-- The bias, a vector of 64, broadcast to a 1 × 64 row and then over the 50000 rows, has at `(n, f)` its entry `f`. -/
private theorem biasRows_apply (b : S64.Idx → α) (h1 : S64.BroadcastsInDim S1x64 (![1] : Fin 1 → Fin S1x64.rank))
    (h2 : S1x64.BroadcastsInDim S50000x64 (![0, 1] : Fin 2 → Fin S50000x64.rank)) (n : Fin 50000) (f : Fin 64) :
    broadcastInDim S50000x64 ![0, 1] h2 (broadcastInDim S1x64 ![1] h1 b) (ix2 n f) = b (ix1 f) := by
  refine (broadcastInDim_apply _ h2 (broadcastInDim S1x64 ![1] h1 b) (ix2 n f) (ix2 (0 : Fin 1) f) (fun a => match a with
    | ⟨0, _⟩ => by show 0 = if (1 : Nat) = 1 then 0 else n.val; rw [if_pos rfl]
    | ⟨1, _⟩ => by show f.val = if (64 : Nat) = 1 then 0 else f.val; rw [if_neg (by decide)])).trans ?_
  exact broadcastInDim_apply _ h1 b (ix2 (0 : Fin 1) f) (ix1 f) (fun a => match a with
    | ⟨0, _⟩ => by show f.val = if (64 : Nat) = 1 then 0 else f.val; rw [if_neg (by decide)])

/-- The same vector of 64 read as a 1 × 64 array has at `(0, f)` its entry `f`. -/
private theorem biasRow_apply (b : S64.Idx → α) (h : S64.numel = S1x64.numel) (f : Fin 64) :
    shapeCast S1x64 b h (ix2 (0 : Fin 1) f) = b (ix1 f) :=
  shapeCast_a_1a_apply b h (0 : Fin 1) f

/-- A scalar broadcast over a rank-2 array has everywhere its one entry. -/
private theorem scalar_bcast2_apply {n0 n1 : Nat} (c : S_.Idx → α)
    (h : S_.BroadcastsInDim (⟨2, ![n0, n1]⟩ : Shape) (![] : Fin 0 → Fin 2)) (i : (⟨2, ![n0, n1]⟩ : Shape).Idx) :
    broadcastInDim (⟨2, ![n0, n1]⟩ : Shape) ![] h c i = c ix0 :=
  broadcastInDim_apply _ h c i ix0 (fun a => a.elim0)

/-- The ids, a vector of 50000 words, broadcast to a 50000 × 1 column, have at `(n, 0)` the word `n`. -/
private theorem idsCol_apply (B : S50000.Idx → α) (h : S50000.BroadcastsInDim S50000x1 (![0] : Fin 1 → Fin S50000x1.rank))
    (n : Fin 50000) : broadcastInDim S50000x1 ![0] h B (ix2 n (0 : Fin 1)) = B (ix1 n) :=
  broadcastInDim_apply _ h B (ix2 n (0 : Fin 1)) (ix1 n) (fun a => match a with
    | ⟨0, _⟩ => by show n.val = if (50000 : Nat) = 1 then 0 else n.val; rw [if_neg (by decide)])

/-- The same vector of 50000 words read as a 50000 × 1 array has at `(n, 0)` the word `n`: the two row-major
    positions are `n` and `n · 1 + 0`. -/
private theorem idsCast_apply (B : S50000.Idx → α) (h : S50000.numel = S50000x1.numel) (n : Fin 50000) :
    shapeCast S50000x1 B h (ix2 n (0 : Fin 1)) = B (ix1 n) :=
  shapeCast_apply (s := S50000) (t := S50000x1) B h (ix2 n (0 : Fin 1)) (ix1 n) (by
    rw [Shape.rowMajor_val_two, Shape.rowMajor_val_one]
    show n.val = n.val * 1 + 0
    omega)

end Layout

/-! ### The matrix product read at an entry

The record contracts axis 1 of the left operand with axis 0 of the right one and has no batch axis: at the result's
entry `i` and contraction index `q` the left operand is read at `(i 0, q)` and the right one at `(q, i 1)`. -/

private theorem dot_lhs_0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide),
    dif_pos (show (0 : Fin S50000x64.rank) ∈ dot_S50000x64_S64x64_S50000x64_1_0_0_1_n_n.lhsNonContracting by decide)]
  rfl

private theorem dot_lhs_1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q

private theorem dot_rhs_0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q

private theorem dot_rhs_1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide),
    dif_pos (show (1 : Fin S64x64.rank) ∈ dot_S50000x64_S64x64_S50000x64_1_0_0_1_n_n.rhsNonContracting by decide)]
  rfl

/-- The product of a 50000 × 64 by a 64 × 64 matrix at `(n, f)` is the sum over the contracted coordinate `k` of
    the products of the entries `(n, k)` and `(k, f)`: the contraction index is its one coordinate. -/
private theorem dot_apply (A : FVec Ideal S50000x64 .f32) (M : FVec Ideal S64x64 .f32) (n : Fin 50000) (f : Fin 64) :
    Host.dotGeneral dot_S50000x64_S64x64_S50000x64_1_0_0_1_n_n none A M (ix2 n f)
      = ∑ k : Fin 64, A (ix2 n k) * M (ix2 k f) := by
  show FloatOps.dotGeneral dot_S50000x64_S64x64_S50000x64_1_0_0_1_n_n none .single A M (ix2 n f) = _
  rw [Ideal.dotGeneral_apply,
    ← Equiv.sum_comp (contrEquiv1 dot_S50000x64_S64x64_S50000x64_1_0_0_1_n_n 64 rfl rfl).symm]
  refine Finset.sum_congr rfl fun k _ => ?_
  have hk := contrEquiv1_symm_val dot_S50000x64_S64x64_S50000x64_1_0_0_1_n_n 64 rfl rfl k
  have el : dot_S50000x64_S64x64_S50000x64_1_0_0_1_n_n.lhsIdx (ix2 n f)
      ((contrEquiv1 dot_S50000x64_S64x64_S50000x64_1_0_0_1_n_n 64 rfl rfl).symm k) = ix2 n k :=
    funext fun a => Fin.ext (by
      match a with
      | ⟨0, _⟩ => exact dot_lhs_0 _ _
      | ⟨1, _⟩ => exact (dot_lhs_1 _ _).trans hk)
  have er : dot_S50000x64_S64x64_S50000x64_1_0_0_1_n_n.rhsIdx (ix2 n f)
      ((contrEquiv1 dot_S50000x64_S64x64_S50000x64_1_0_0_1_n_n 64 rfl rfl).symm k) = ix2 k f :=
    funext fun a => Fin.ext (by
      match a with
      | ⟨0, _⟩ => exact (dot_rhs_0 _ _).trans hk
      | ⟨1, _⟩ => exact dot_rhs_1 _ _)
  rw [el, er]

/-- One term of the layer: the product of `A` with slab `j` of the weights at `(n, f)`. -/
private theorem dot_slab_apply (o : Nat) (j : Fin 3) (hj : j.val = o) (A : FVec Ideal S50000x64 .f32) (W : FVec Ideal S3x64x64 .f32)
    (hs : S3x64x64.Slices ![o, 0, 0] S1x64x64) (hc : S1x64x64.ShapeCasts S64x64) (n : Fin 50000) (f : Fin 64) :
    Host.dotGeneral dot_S50000x64_S64x64_S50000x64_1_0_0_1_n_n none A
        (shapeCast S64x64 (extractStridedSlice S1x64x64 ![o, 0, 0] W hs) hc) (ix2 n f)
      = ∑ k : Fin 64, A (ix2 n k) * W (ix3 j k f) := by
  rw [dot_apply]
  exact Finset.sum_congr rfl fun k _ => congrArg (A (ix2 n k) * ·) (slab_apply o j hj W hs hc k f)

/-- The rectifier at an entry: the zero array's entry is the real number 0. -/
private theorem relu_apply (Y : FVec Ideal S50000x64 .f32) (i : S50000x64.Idx) : relu Y i = max (Y i) 0 := by
  unfold relu
  rw [maximumf_apply, scalar_bcast2_apply, constant_apply, Ideal.ofBits_zero_f32]

/-- The reference's row scatter-add at `(g, f)`: its dimension numbers are the row scatter's (the updates' axis 1
    the window, operand axis 0 inserted and addressed, the index vector on the indices' axis 1), so the entry is the
    operand's plus the update rows whose index word, read signed, is `g`. -/
private theorem scatterAdd_rows_apply (x : FVec Ideal S64x64 .f32) (idx : IVec S50000x1 32) (upd : FVec Ideal S50000x64 .f32)
    (g f : Fin 64) :
    Host.scatterAdd scatter_S64x64_S50000x1_S50000x64_1_0_0_1 x idx upd (ix2 g f)
      = x (ix2 g f) + ∑ n : Fin 50000, if (idx (ix2 n (0 : Fin 1))).toInt = (g.val : ℤ) then upd (ix2 n f) else 0 :=
  Idealize.ShloMosaic.ScatterRows.hostScatterAdd_rows scatter_S64x64_S50000x1_S50000x64_1_0_0_1_wf x idx upd g f

/-- The layer is the specification's, the bias read as a 1 × 64 row. -/
theorem layer_eq (X P T : FVec Ideal S50000x64 .f32) (W : FVec Ideal S3x64x64 .f32) (b : FVec Ideal S64 .f32)
    (h : S64.numel = S1x64.numel) :
    layer X P T W b = Cert.Spec.cheb X P T W (shapeCast S1x64 b h) := by
  funext i
  obtain ⟨n, f, rfl⟩ : ∃ (n : Fin 50000) (f : Fin 64), i = ix2 n f := ⟨i 0, i 1, eq_ix2 i⟩
  -- the specification at (n, f): its bias entry (0, f) is entry f of the vector
  show layer X P T W b (ix2 n f) = Cert.Spec.chebAt X P T W (shapeCast S1x64 b h) n f
  unfold Cert.Spec.chebAt layer
  rw [biasRow_apply b h f]
  -- the reference at (n, f): three sums of products, then the bias entry f
  rw [addf_apply, addf_apply, addf_apply, biasRows_apply b bcast_S64_S1x64_1 bcast_S1x64_S50000x64_0_1 n f,
    dot_slab_apply 0 (0 : Fin 3) rfl X W, dot_slab_apply 1 (1 : Fin 3) rfl P W, dot_slab_apply 2 (2 : Fin 3) rfl T W]

/-- The rectified layer is the specification's. -/
theorem relu_layer_eq (X P T : FVec Ideal S50000x64 .f32) (W : FVec Ideal S3x64x64 .f32) (b : FVec Ideal S64 .f32)
    (h : S64.numel = S1x64.numel) :
    relu (layer X P T W b) = Cert.Spec.chebRelu X P T W (shapeCast S1x64 b h) := by
  funext i
  -- the maximum with the zero array is the maximum with 0, and the layer is the specification's
  rw [relu_apply, layer_eq X P T W b h]
  rfl

/-- The per-graph sums are the specification's, the ids read as a 50000 × 1 column. -/
theorem poolR_eq (B : IVec S50000 32) (H : FVec Ideal S50000x64 .f32) (h : S50000.numel = S50000x1.numel) :
    poolR B H = Cert.Spec.pool (shapeCast S50000x1 B h) H := by
  funext i
  obtain ⟨g, f, rfl⟩ : ∃ (g : Fin 64) (f : Fin 64), i = ix2 g f := ⟨i 0, i 1, eq_ix2 i⟩
  show poolR B H (ix2 g f) = Cert.Spec.poolAt (shapeCast S50000x1 B h) H g f
  unfold Cert.Spec.poolAt poolR
  -- the row scatter-add at (g, f): the operand's entry, which is zero, plus the rows whose id is g
  rw [scatterAdd_rows_apply, scalar_bcast2_apply, constant_apply, Ideal.ofBits_zero_f32, zero_add]
  -- both sides read the id of row n as word n of the vector
  refine Finset.sum_congr rfl fun n _ => ?_
  rw [idsCol_apply B bcast_S50000_S50000x1_0 n, idsCast_apply B h n]

end Cert.ReferenceIdeal.Math

end
-- ==== Proof.Bridge.lean ====
/-
  Over the extended reals the reference's result is the network's: each of the reference's layers is the
  specification's Chebyshev layer (the matrix products are the same sums, the broadcast bias is the bias row), its
  row scatter-add of the node rows is the specification's per-graph sum, and everything else is shared host arithmetic.
-/
import proofs.«426765_j4844723109937_1_alg».proof.Proof.RStages
import proofs.«426765_j4844723109937_1_alg».proof.Proof.RefMath
import proofs.«426765_j4844723109937_1_alg».proof.Proof.Net

set_option maxRecDepth 16384

noncomputable section

open Idealize.ShloMosaic

namespace Cert.Bridge

open Cert.KernelIdeal Cert.KernelIdeal.Gen Cert.KernelIdeal.HostFns
open Cert.ReferenceIdeal.Stages (layerF reluF poolF l1F l2F l3F netF)

variable (x0 : FVec Ideal S50000x64 .f32) (e : IVec S2x800000 32) (a : FVec Ideal S800000 .f32) (bt : IVec S50000 32)
  (W1 : FVec Ideal S3x64x64 .f32) (b1 : FVec Ideal S64 .f32) (W2 : FVec Ideal S3x64x64 .f32) (b2 : FVec Ideal S64 .f32)
  (W3 : FVec Ideal S3x64x64 .f32) (b3 : FVec Ideal S64 .f32) (Wl1 : FVec Ideal S64x32 .f32) (bl1 : FVec Ideal S32 .f32)
  (Wl2 : FVec Ideal S32x10 .f32) (bl2 : FVec Ideal S10 .f32)

/-- The reference's first layer is the network's. -/
theorem l1_eq : l1F (F := Ideal) x0 e a W1 b1 = layer1 x0 e a W1 b1 :=
  Cert.ReferenceIdeal.Math.relu_layer_eq x0 (prop e a x0) (t2 e a x0) W1 b1 shapeCasts_S64_S1x64

/-- The reference's second layer is the network's. -/
theorem l2_eq : l2F (F := Ideal) x0 e a W1 b1 W2 b2 = layer2 x0 e a W1 b1 W2 b2 := by
  unfold l2F layer2
  rw [l1_eq]
  exact Cert.ReferenceIdeal.Math.relu_layer_eq _ _ _ W2 b2 shapeCasts_S64_S1x64

/-- The reference's third layer is the network's. -/
theorem l3_eq : l3F (F := Ideal) x0 e a W1 b1 W2 b2 W3 b3 = layer3 x0 e a W1 b1 W2 b2 W3 b3 := by
  unfold l3F layer3
  rw [l2_eq]
  exact Cert.ReferenceIdeal.Math.layer_eq _ _ _ W3 b3 shapeCasts_S64_S1x64

/-- The reference's result is the network's. -/
theorem net_eq : netF (F := Ideal) x0 e a bt W1 b1 W2 b2 W3 b3 Wl1 bl1 Wl2 bl2 = net x0 e a bt W1 b1 W2 b2 W3 b3 Wl1 bl1 Wl2 bl2 := by
  unfold netF net
  rw [l3_eq]
  exact congrArg (fun S => tail S bt Wl1 bl1 Wl2 bl2)
    (Cert.ReferenceIdeal.Math.poolR_eq bt (layer3 x0 e a W1 b1 W2 b2 W3 b3) shapeCasts_S50000_S50000x1)

end Cert.Bridge

end
-- ==== Proof.lean ====
/-
  The kernel program and its jnp reference compute the same function over the extended reals.

  Both are a three-layer Chebyshev graph convolution, a per-graph mean and two dense layers. They share the sparse
  part verbatim — the edge weights of the scaled Laplacian, the propagation steps (a gather at the edges' targets and
  a scatter-add at their sources) and the tail — and differ in two places. The reference forms each layer as three
  host matrix products added left to right plus a broadcast bias; the kernel forms it in a pallas_call over row blocks
  of 5000 nodes, with the same three products into a zero accumulator and the bias row: entry by entry the same sums.
  The reference sums node rows per graph by a row scatter-add; the kernel multiplies a one-hot matrix of the graph ids
  into the node rows block by block and accumulates over the grid: entry (g, f) is in both the sum of the rows whose
  id is g, since 1 · x = x and 0 · x = 0 for every extended real x and addition is commutative and associative.
  No step needs the inputs to be finite.

  The kernel's run is read off the launch theorem over its segments (the buffer contents at each boundary, then each
  region's output array as the specification's function of its inputs); the reference's run is the fold of its 276
  host operations, read piece by piece.
-/
import proofs.«426765_j4844723109937_1_alg».proof.Defs
import proofs.«426765_j4844723109937_1_alg».proof.Proof.Gen.Kernel
import proofs.«426765_j4844723109937_1_alg».proof.Proof.Gen.Kernel.Frame
import proofs.«426765_j4844723109937_1_alg».proof.Proof.Gen.KernelIdeal
import proofs.«426765_j4844723109937_1_alg».proof.Proof.Gen.KernelIdeal.Frame
import proofs.«426765_j4844723109937_1_alg».proof.Proof.Gen.ReferenceIdeal
import proofs.«426765_j4844723109937_1_alg».proof.Proof.Gen.Pre_finite_inputs
import proofs.«426765_j4844723109937_1_alg».proof.Proof.KRun
import proofs.«426765_j4844723109937_1_alg».proof.Proof.KChain
import proofs.«426765_j4844723109937_1_alg».proof.Proof.RRun
import proofs.«426765_j4844723109937_1_alg».proof.Proof.RStages
import proofs.«426765_j4844723109937_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The reference runs, ends with its result at the network's value of its arguments, and leaves them as launched. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v217)
            = Cert.KernelIdeal.HostFns.net (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))
        ∧ r.2.mem ((c.tc : Thread Cert.ReferenceIdeal.nD Cert.ReferenceIdeal.τ).loc Cert.ReferenceIdeal.main_arg0) = (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg1) = (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg2) = (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg3) = (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg4) = (m ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_arg5) = (m ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_arg6) = (m ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_arg7) = (m ((c.tc : Thread Cert.ReferenceIdeal.nD Cert.ReferenceIdeal.τ).loc Cert.ReferenceIdeal.main_arg7))
        ∧ r.2.mem ((c.tc : Thread Cert.ReferenceIdeal.nD Cert.ReferenceIdeal.τ).loc Cert.ReferenceIdeal.main_arg8) = (m ((c.tc : Thread Cert.ReferenceIdeal.nD Cert.ReferenceIdeal.τ).loc Cert.ReferenceIdeal.main_arg8))
        ∧ r.2.mem ((c.tc : Thread Cert.ReferenceIdeal.nD Cert.ReferenceIdeal.τ).loc Cert.ReferenceIdeal.main_arg9) = (m ((c.tc : Thread Cert.ReferenceIdeal.nD Cert.ReferenceIdeal.τ).loc Cert.ReferenceIdeal.main_arg9))
        ∧ r.2.mem ((c.tc : Thread Cert.ReferenceIdeal.nD Cert.ReferenceIdeal.τ).loc Cert.ReferenceIdeal.main_arg10) = (m ((c.tc : Thread Cert.ReferenceIdeal.nD Cert.ReferenceIdeal.τ).loc Cert.ReferenceIdeal.main_arg10))
        ∧ r.2.mem ((c.tc : Thread Cert.ReferenceIdeal.nD Cert.ReferenceIdeal.τ).loc Cert.ReferenceIdeal.main_arg11) = (m ((c.tc : Thread Cert.ReferenceIdeal.nD Cert.ReferenceIdeal.τ).loc Cert.ReferenceIdeal.main_arg11))
        ∧ r.2.mem ((c.tc : Thread Cert.ReferenceIdeal.nD Cert.ReferenceIdeal.τ).loc Cert.ReferenceIdeal.main_arg12) = (m ((c.tc : Thread Cert.ReferenceIdeal.nD Cert.ReferenceIdeal.τ).loc Cert.ReferenceIdeal.main_arg12))
        ∧ r.2.mem ((c.tc : Thread Cert.ReferenceIdeal.nD Cert.ReferenceIdeal.τ).loc Cert.ReferenceIdeal.main_arg13) = (m ((c.tc : Thread Cert.ReferenceIdeal.nD Cert.ReferenceIdeal.τ).loc Cert.ReferenceIdeal.main_arg13))) :=
  (θ_run (Cert.ReferenceIdeal.defs (F := Ideal)) _ _).mono
    (fun r h c =>
      ⟨(h c Cert.ReferenceIdeal.main_v217).trans
          ((Cert.ReferenceIdeal.Stages.result (F := Ideal) (launchContents m c)).trans (Cert.Bridge.net_eq _ _ _ _ _ _ _ _ _ _ _ _ _ _)),
       (h c Cert.ReferenceIdeal.main_arg0).trans (Cert.ReferenceIdeal.Stages.kept (F := Ideal) (launchContents m c) Cert.ReferenceIdeal.main_arg0 (by decide)),
       (h c Cert.ReferenceIdeal.main_arg1).trans (Cert.ReferenceIdeal.Stages.kept (F := Ideal) (launchContents m c) Cert.ReferenceIdeal.main_arg1 (by decide)),
       (h c Cert.ReferenceIdeal.main_arg2).trans (Cert.ReferenceIdeal.Stages.kept (F := Ideal) (launchContents m c) Cert.ReferenceIdeal.main_arg2 (by decide)),
       (h c Cert.ReferenceIdeal.main_arg3).trans (Cert.ReferenceIdeal.Stages.kept (F := Ideal) (launchContents m c) Cert.ReferenceIdeal.main_arg3 (by decide)),
       (h c Cert.ReferenceIdeal.main_arg4).trans (Cert.ReferenceIdeal.Stages.kept (F := Ideal) (launchContents m c) Cert.ReferenceIdeal.main_arg4 (by decide)),
       (h c Cert.ReferenceIdeal.main_arg5).trans (Cert.ReferenceIdeal.Stages.kept (F := Ideal) (launchContents m c) Cert.ReferenceIdeal.main_arg5 (by decide)),
       (h c Cert.ReferenceIdeal.main_arg6).trans (Cert.ReferenceIdeal.Stages.kept (F := Ideal) (launchContents m c) Cert.ReferenceIdeal.main_arg6 (by decide)),
       (h c Cert.ReferenceIdeal.main_arg7).trans (Cert.ReferenceIdeal.Stages.kept (F := Ideal) (launchContents m c) Cert.ReferenceIdeal.main_arg7 (by decide)),
       (h c Cert.ReferenceIdeal.main_arg8).trans (Cert.ReferenceIdeal.Stages.kept (F := Ideal) (launchContents m c) Cert.ReferenceIdeal.main_arg8 (by decide)),
       (h c Cert.ReferenceIdeal.main_arg9).trans (Cert.ReferenceIdeal.Stages.kept (F := Ideal) (launchContents m c) Cert.ReferenceIdeal.main_arg9 (by decide)),
       (h c Cert.ReferenceIdeal.main_arg10).trans (Cert.ReferenceIdeal.Stages.kept (F := Ideal) (launchContents m c) Cert.ReferenceIdeal.main_arg10 (by decide)),
       (h c Cert.ReferenceIdeal.main_arg11).trans (Cert.ReferenceIdeal.Stages.kept (F := Ideal) (launchContents m c) Cert.ReferenceIdeal.main_arg11 (by decide)),
       (h c Cert.ReferenceIdeal.main_arg12).trans (Cert.ReferenceIdeal.Stages.kept (F := Ideal) (launchContents m c) Cert.ReferenceIdeal.main_arg12 (by decide)),
       (h c Cert.ReferenceIdeal.main_arg13).trans (Cert.ReferenceIdeal.Stages.kept (F := Ideal) (launchContents m c) Cert.ReferenceIdeal.main_arg13 (by decide))⟩)
    (Cert.ReferenceIdeal.RunP.run (F := Ideal) m ρ)

/-- The idealized reference runs and leaves its arguments as launched. -/
theorem frame_referenceIdeal : Cert.frame_ReferenceIdeal := fun m ρ _ =>
  (θ_run (Cert.ReferenceIdeal.defs (F := Ideal)) _ _).mono (fun _ h c => (h c).2) (reference_run m ρ)

/-- The ideal pass rewrote nothing. -/
theorem preserves : Cert.preserves_Kernel_KernelIdeal := trivial

/-- From memories that agree on the arguments both idealized programs end with the network's value of them. -/
theorem algebraic : Cert.algebraic_KernelIdeal_ReferenceIdeal := by
  intro m ρ m' ρ' _ hagree
  refine ⟨fun c => Cert.KernelIdeal.HostFns.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run (Cert.KernelIdeal.defs (F := Ideal)) _ _).mono
      (fun r h c => ⟨(h c).1.trans (Cert.KernelIdeal.Chain.result m ρ c), (h c).2⟩)
      (Cert.KernelIdeal.RunValue.run_result (F := Ideal) m ρ)
  · refine (θ_run (Cert.ReferenceIdeal.defs (F := Ideal)) _ _).mono (fun r h c => ⟨(h c).1.trans ?_, (h c).2⟩)
      (reference_run m' ρ')
    obtain ⟨h0, h1, h2, h3, h4, h5, h6, h7, h8, h9, h10, h11, h12, h13⟩ := hagree c
    rw [h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
